-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S4096x256 : Shape := ⟨2, ![4096, 256]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4096x4 : Shape := ⟨2, ![4096, 4]⟩
abbrev S128x256 : Shape := ⟨2, ![128, 256]⟩
abbrev S128x1 : Shape := ⟨2, ![128, 1]⟩
abbrev S128x4096 : Shape := ⟨2, ![128, 4096]⟩
abbrev S128x4 : Shape := ⟨2, ![128, 4]⟩
abbrev S128 : Shape := ⟨1, ![128]⟩

abbrev nBuf : Space → Nat
  | .hbm => 37
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S1x4096, .f32⟩
  | .hbm, ⟨6, _⟩ => ⟨S4096x1, .i32⟩
  | .hbm, ⟨7, _⟩ => ⟨S1x4096, .i32⟩
  | .hbm, ⟨8, _⟩ => ⟨S4096x4096, .f32⟩
  | .hbm, ⟨9, _⟩ => ⟨S4096x4, .f32⟩
  | .hbm, ⟨10, _⟩ => ⟨S4096x1, .f32⟩
  | .hbm, ⟨11, _⟩ => ⟨S4096, .f32⟩
  | .hbm, ⟨12, _⟩ => ⟨S4096x1, .f32⟩
  | .hbm, ⟨13, _⟩ => ⟨S4096, .f32⟩
  | .hbm, ⟨14, _⟩ => ⟨S4096x1, .f32⟩
  | .hbm, ⟨15, _⟩ => ⟨S4096, .f32⟩
  | .hbm, ⟨16, _⟩ => ⟨S4096x1, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S4096, .i1⟩
  | .hbm, ⟨34, _⟩ => ⟨S4096, .i32⟩
  | .hbm, ⟨35, _⟩ => ⟨S_, .i32⟩
  | .hbm, ⟨36, _⟩ => ⟨S_, .i32⟩
  | .local _ .vmem, ⟨0, _⟩ => ⟨S128x256, .f32⟩
  | .local _ .vmem, ⟨1, _⟩ => ⟨S128x256, .f32⟩
  | .local _ .vmem, ⟨2, _⟩ => ⟨S4096x256, .f32⟩
  | .local _ .vmem, ⟨3, _⟩ => ⟨S1x4096, .f32⟩
  | .local _ .vmem, ⟨4, _⟩ => ⟨S128x1, .i32⟩
  | .local _ .vmem, ⟨5, _⟩ => ⟨S128x1, .i32⟩
  | .local _ .vmem, ⟨6, _⟩ => ⟨S1x4096, .i32⟩
  | .local _ .vmem, ⟨7, _⟩ => ⟨S128x4096, .f32⟩
  | .local _ .vmem, ⟨8, _⟩ => ⟨S128x4096, .f32⟩
  | .local _ .vmem, ⟨9, _⟩ => ⟨S128x4, .f32⟩
  | .local _ .vmem, ⟨10, _⟩ => ⟨S128x4, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_call0_cst : Ref sig .tc := ⟨.hbm, 24, rfl⟩
abbrev main_call0_v0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S4096x256_S4096_d1 : S4096x256.ReducesTo [1] S4096
  h_S_ : 0 < S_.numel
  shapeCasts_S4096_S1x4096 : S4096.ShapeCasts S1x4096
  shapeCasts_S4096_S4096x1 : S4096.ShapeCasts S4096x1
  inb_S128x256_S128x256_0_0 : ∀ a, (![0, 0] : Fin 2 → Nat) a + S128x256.size a ≤ S128x256.size a
  h_S128x256 : 0 < S128x256.numel
  inb_S4096x256_S4096x256_0_0 : ∀ a, (![0, 0] : Fin 2 → Nat) a + S4096x256.size a ≤ S4096x256.size a
  h_S4096x256 : 0 < S4096x256.numel
  reduces_S128x256_S128 : S128x256.Reduces [1] S128
  shapeCasts_S128_S128x1 : S128.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x4096_S128 : S128x4096.Reduces [1] S128
  natLt_1_32 : 1 < 32
  inb_S128x4_S128x1_0_0 : ∀ a, (![0, 0] : Fin 2 → Nat) a + S128x1.size a ≤ S128x4.size a
  inb_S128x4_S128x1_0_1 : ∀ a, (![0, 1] : Fin 2 → Nat) a + S128x1.size a ≤ S128x4.size a
  inb_S128x4_S128x1_0_2 : ∀ a, (![0, 2] : Fin 2 → Nat) a + S128x1.size a ≤ S128x4.size a
  inb_S128x4_S128x1_0_3 : ∀ a, (![0, 3] : Fin 2 → Nat) a + S128x1.size a ≤ S128x4.size a
  slices_S4096x4_S4096x1_0_0 : S4096x4.Slices ![0, 0] S4096x1
  shapeCasts_S4096x1_S4096 : S4096x1.ShapeCasts S4096
  slices_S4096x4_S4096x1_0_1 : S4096x4.Slices ![0, 1] S4096x1
  slices_S4096x4_S4096x1_0_2 : S4096x4.Slices ![0, 2] S4096x1
  slices_S4096x4_S4096x1_0_3 : S4096x4.Slices ![0, 3] S4096x1
  bcast_S_S4096 : S_.BroadcastsInDim S4096 (![] : Fin 0 → Fin S4096.rank)
  reducesTo_S4096_S_d0 : S4096.ReducesTo [0] S_
  dot_S128x256_S4096x256_S128x4096_1_1_0_0_n_n_wf : DotDims.WF S128x256 S4096x256 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .i32 = 32 ∨ (Rect.block (s := S4096x1) S128x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .i32 = 32 ∨ (Rect.block (s := S1x4096) S1x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4.size a ≤ S4096x4.size a
  hwx0_6 : ∀ i : grid0.Coords, EltTy.bits .f32 = 32 ∨ (Rect.block (s := S4096x4) S128x4.size (cc0_transform_6 i) (hinb0_6 i)).WholeWords (EltTy.packing .f32)

variable [Facts₀]

def dot_S128x256_S4096x256_S128x4096_1_1_0_0_n_n : DotDims S128x256 S4096x256 S128x4096 where
  lhsContracting := [1]
  rhsContracting := [1]
  lhsNonContracting := [0]
  rhsNonContracting := [0]
  lhsBatch := []
  rhsBatch := []
  wf := dot_S128x256_S4096x256_S128x4096_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S128x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S128x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S256x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .i1⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .i1⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4096x4096, .i32⟩
  | .hbm, ⟨83, _⟩ => ⟨S_, .i32⟩
  | .hbm, ⟨84, _⟩ => ⟨S4096, .i32⟩
  | .hbm, ⟨85, _⟩ => ⟨S_, .i32⟩
  | .hbm, ⟨86, _⟩ => ⟨S4096, .i32⟩
  | .hbm, ⟨87, _⟩ => ⟨S4096, .i1⟩
  | .hbm, ⟨88, _⟩ => ⟨S4096, .i32⟩
  | .hbm, ⟨89, _⟩ => ⟨S_, .i32⟩
  | .hbm, ⟨90, _⟩ => ⟨S_, .i32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_v34 : Ref sig .tc := ⟨.hbm, 50, rfl⟩
abbrev main_cst_6 : Ref sig .tc := ⟨.hbm, 51, rfl⟩
abbrev main_call3_v0 : Ref sig .tc := ⟨.hbm, 52, rfl⟩
abbrev main_call3_v1 : Ref sig .tc := ⟨.hbm, 53, rfl⟩
abbrev main_v35 : Ref sig .tc := ⟨.hbm, 54, rfl⟩
abbrev main_cst_7 : Ref sig .tc := ⟨.hbm, 55, rfl⟩
abbrev main_call4_v0 : Ref sig .tc := ⟨.hbm, 56, rfl⟩
abbrev main_call4_v1 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_call5_v0 : Ref sig .tc := ⟨.hbm, 61, rfl⟩
abbrev main_call5_cst : Ref sig .tc := ⟨.hbm, 62, rfl⟩
abbrev main_call5_v1 : Ref sig .tc := ⟨.hbm, 63, rfl⟩
abbrev main_v38 : Ref sig .tc := ⟨.hbm, 64, rfl⟩
abbrev main_cst_9 : Ref sig .tc := ⟨.hbm, 65, rfl⟩
abbrev main_call6_v0 : Ref sig .tc := ⟨.hbm, 66, rfl⟩
abbrev main_call6_v1 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_call7_cst : Ref sig .tc := ⟨.hbm, 75, rfl⟩
abbrev main_call7_v0 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_cst_12 : Ref sig .tc := ⟨.hbm, 80, rfl⟩
abbrev main_v47 : Ref sig .tc := ⟨.hbm, 81, rfl⟩
abbrev main_v48 : Ref sig .tc := ⟨.hbm, 82, rfl⟩
abbrev main_c : Ref sig .tc := ⟨.hbm, 83, rfl⟩
abbrev main_v49 : Ref sig .tc := ⟨.hbm, 84, rfl⟩
abbrev main_c_13 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_14 : Ref sig .tc := ⟨.hbm, 89, rfl⟩
abbrev main_v53 : Ref sig .tc := ⟨.hbm, 90, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  natLt_1_32 : 1 < 32
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Body.lean ====
/-
  The kernel body, run once on whole staging buffers.

  The body reads five blocks — `x0`: 128 rows of the embeddings, `x1`: all 4096 rows, `x2`: the 4096 squared norms as a row,
  `x3`: the 128 rows' labels as a column, `x4`: all labels as a row — and fills two: the 128 × 4096 block of distances, stored
  whole, and a 128 × 4 block of per-row statistics, stored one column at a time (hardest positive; nearest negative above;
  nearest negative below; the count of equal labels). `out5` and `out6` name what those two buffers hold afterwards.
-/
import proofs.«131017_j6536940224734_1_alg».proof.Proof.Gen.Kernel.Launch
import proofs.«131017_j6536940224734_1_alg».proof.Proof.Gen.Kernel.Skeleton
import proofs.«131017_j6536940224734_1_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The four column rectangles of the statistics block. -/
abbrev col0 : Rect S128x4 := Rect.unit (s := S128x4) ![0, 0] S128x1.size inb_S128x4_S128x1_0_0
abbrev col1 : Rect S128x4 := Rect.unit (s := S128x4) ![0, 1] S128x1.size inb_S128x4_S128x1_0_1
abbrev col2 : Rect S128x4 := Rect.unit (s := S128x4) ![0, 2] S128x1.size inb_S128x4_S128x1_0_2
abbrev col3 : Rect S128x4 := Rect.unit (s := S128x4) ![0, 3] S128x1.size inb_S128x4_S128x1_0_3

/-- The distance block after the body: its one whole-block store's value. -/
def out5 (x0 : Vec F S128x256 .f32) (x1 : Vec F S4096x256 .f32) (x2 : Vec F S1x4096 .f32) : Vec F S128x4096 .f32 :=
  k0_pay4 x0 x1 x2

/-- The statistics block after the body: its four column stores, last first. -/
def out6 (x0 : Vec F S128x256 .f32) (x1 : Vec F S4096x256 .f32) (x2 : Vec F S1x4096 .f32) (x3 : Vec F S128x1 .i32) (x4 : Vec F S1x4096 .i32) :
    Vec F S128x4 .f32 :=
  View.canon [⟨col3, k0_pay3 (F := F) (k0_pay7 x3 x4)⟩, ⟨col2, k0_pay2 (k0_pay4 x0 x1 x2) (k0_pay8 x3 x4)⟩,
    ⟨col1, k0_pay1 (k0_pay10 x0 x1 x2 x3 x4)⟩, ⟨col0, k0_pay9 x0 x1 x2 x3 x4⟩]

/-- A column's local index `(r, 0)` sits at `(r, c)` of the block when the column's offset is `c`: on each axis the
    coordinate is the offset plus the local coordinate. -/
private theorem col_emb (K : Nat) (inb : ∀ a, (![0, K] : Fin 2 → Nat) a + S128x1.size a ≤ S128x4.size a) (r : Fin 128) (c : Fin 4)
    (hc : c.val = K) : (Rect.unit (s := S128x4) ![0, K] S128x1.size inb).emb (ix2 r (0 : Fin 1)) = ix2 r c := by
  funext a
  apply Fin.ext
  match a with
  | ⟨0, _⟩ => simp [Rect.emb_apply, ix2]
  | ⟨1, _⟩ => simp [Rect.emb_apply, ix2, hc]

/-- An index of another column is outside column `K`: its second coordinate is not `K`. -/
private theorem not_mem_col (K : Nat) (inb : ∀ a, (![0, K] : Fin 2 → Nat) a + S128x1.size a ≤ S128x4.size a) (r : Fin 128) (c : Fin 4)
    (h : c.val ≠ K) : ix2 r c ∉ (Rect.unit (s := S128x4) ![0, K] S128x1.size inb).set := by
  rw [Rect.mem_set_unit]
  intro hh
  have h1 := hh 1
  simp [ix2] at h1
  omega

section Columns

variable {Val : EltTy → Type} [∀ e, Nonempty (Val e)]

/-- A store of column `K`, made last, does not show at an index of another column. -/
private theorem canon_skip_col (K : Nat) (inb : ∀ a, (![0, K] : Fin 2 → Nat) a + S128x1.size a ≤ S128x4.size a)
    (w : (Rect.unit (s := S128x4) ![0, K] S128x1.size inb).shape.Idx → Val .f32) (L : List (View.Piece Val S128x4 .f32))
    (r : Fin 128) (c : Fin 4) (h : c.val ≠ K) :
    View.canon ((⟨Rect.unit (s := S128x4) ![0, K] S128x1.size inb, w⟩ : View.Piece Val S128x4 .f32) :: L) (ix2 r c)
      = View.canon L (ix2 r c) :=
  View.canon_cons_of_not_mem (⟨Rect.unit (s := S128x4) ![0, K] S128x1.size inb, w⟩ : View.Piece Val S128x4 .f32) L
    (not_mem_col K inb r c h)

/-- A store of column `K`, made last, shows at the column's own indices. -/
private theorem canon_hit_col (K : Nat) (inb : ∀ a, (![0, K] : Fin 2 → Nat) a + S128x1.size a ≤ S128x4.size a)
    (w : (Rect.unit (s := S128x4) ![0, K] S128x1.size inb).shape.Idx → Val .f32) (L : List (View.Piece Val S128x4 .f32))
    (r : Fin 128) (c : Fin 4) (h : c.val = K) :
    View.canon ((⟨Rect.unit (s := S128x4) ![0, K] S128x1.size inb, w⟩ : View.Piece Val S128x4 .f32) :: L) (ix2 r c)
      = w (ix2 r (0 : Fin 1)) := by
  rw [← col_emb K inb r c h]
  exact View.canon_cons_emb (Rect.unit (s := S128x4) ![0, K] S128x1.size inb) w L (ix2 r (0 : Fin 1))

end Columns

/-- Each column of the statistics block reads the store that filled it. -/
theorem out6_col0 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (0 : Fin 4)) = k0_pay9 x0 x1 x2 x3 x4 (ix2 r (0 : Fin 1)) := by
  unfold out6
  refine (canon_skip_col 3 _ _ _ r 0 (by decide)).trans ?_
  refine (canon_skip_col 2 _ _ _ r 0 (by decide)).trans ?_
  refine (canon_skip_col 1 _ _ _ r 0 (by decide)).trans ?_
  exact canon_hit_col 0 _ _ _ r 0 rfl
theorem out6_col1 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (1 : Fin 4)) = k0_pay1 (k0_pay10 x0 x1 x2 x3 x4) (ix2 r (0 : Fin 1)) := by
  unfold out6
  refine (canon_skip_col 3 _ _ _ r 1 (by decide)).trans ?_
  refine (canon_skip_col 2 _ _ _ r 1 (by decide)).trans ?_
  exact canon_hit_col 1 _ _ _ r 1 rfl
theorem out6_col2 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (2 : Fin 4)) = k0_pay2 (k0_pay4 x0 x1 x2) (k0_pay8 x3 x4) (ix2 r (0 : Fin 1)) := by
  unfold out6
  refine (canon_skip_col 3 _ _ _ r 2 (by decide)).trans ?_
  exact canon_hit_col 2 _ _ _ r 2 rfl
theorem out6_col3 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (3 : Fin 4)) = k0_pay3 (F := F) (k0_pay7 x3 x4) (ix2 r (0 : Fin 1)) := by
  unfold out6
  exact canon_hit_col 3 _ _ _ r 3 rfl

/-- The zero offsets of a rank-2 rectangle, as the constant function. -/
private theorem zero2 : (![0, 0] : Fin 2 → Nat) = fun _ => 0 := by
  funext a; fin_cases a <;> rfl

/-- The four column stores tile the statistics block, so they cover it. -/
private theorem cover6 (p3 p2 p1 p0 : Vec F S128x1 .f32) (y : S128x4.Idx) :
    ∃ pc ∈ ([⟨col3, p3⟩, ⟨col2, p2⟩, ⟨col1, p1⟩, ⟨col0, p0⟩] : List (View.Piece (Elt F) S128x4 .f32)), y ∈ pc.1.set :=
  View.cover_of_tiled [⟨col3, p3⟩, ⟨col2, p2⟩, ⟨col1, p1⟩, ⟨col0, p0⟩] S128x1.size (by rfl) y

set_option maxHeartbeats 4000000 in
/-- THE BODY'S TRIPLE. On whole staging buffers — the five inputs' at contents `x0 … x4`, the two outputs' at anything — the
    body runs to the continuation holding the inputs' as they were and the outputs' at `out5`, `out6` of the inputs'. -/
theorem sound_kernel (c : Dev nD) (E : Set ℕ) (i : grid0.Coords)
    (arg1 : Memref sig .tc .vmem S128x256 .f32) (harg1 : arg1.IsWhole) (arg2 : Memref sig .tc .vmem S4096x256 .f32) (harg2 : arg2.IsWhole)
    (arg3 : Memref sig .tc .vmem S1x4096 .f32) (harg3 : arg3.IsWhole) (arg4 : Memref sig .tc .vmem S128x1 .i32) (harg4 : arg4.IsWhole)
    (arg5 : Memref sig .tc .vmem S1x4096 .i32) (harg5 : arg5.IsWhole) (arg6 : Memref sig .tc .vmem S128x4096 .f32) (harg6 : arg6.IsWhole)
    (arg7 : Memref sig .tc .vmem S128x4 .f32) (harg7 : arg7.IsWhole)
    (x0 : Vec F S128x256 .f32) (x1 : Vec F S4096x256 .f32) (x2 : Vec F S1x4096 .f32) (x3 : Vec F S128x1 .i32) (x4 : Vec F S1x4096 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2) ∗ owns (c : Thread nD τ) arg7 fullShare (out6 x0 x1 x2 x3 x4)) -∗ K ⟨⟩))
      ⊢ wp frame (wpE (defs₀ (F := F)) Variants.none c none) E
          (cc0__tripletloss_kernel i arg1 harg1 arg2 harg2 arg3 harg3 arg4 harg4 arg5 harg5 arg6 harg6 arg7 harg7) K := by
  simp only [cc0__tripletloss_kernel_eq_skeleton]; unfold cc0__tripletloss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ ?_).trans ?_
    · exact fun y => ⟨_, List.mem_singleton_self _, View.mem_set_unit_zero zero2 inb_S128x4096_S128x4096_0_0 y⟩
    rw [View.canon_unit_zero zero2]
    simp only [View.readAt_eq_ld, View.ld_unit_zero (S := S128x256) zero2, View.ld_unit_zero (S := S4096x256) zero2,
      View.ld_unit_zero (S := S1x4096) zero2]
    rfl
  iexists _; isplitr
  swap; · iexact H6
  ipureintro
  refine (View.read_writes_eq_canon _ _ _ ?_).trans ?_
  · exact cover6 _ _ _ _
  dsimp only
  simp only [View.readAt_eq_ld, View.ld_unit_zero (S := S128x256) zero2, View.ld_unit_zero (S := S4096x256) zero2,
    View.ld_unit_zero (S := S1x4096) zero2, View.ld_unit_zero (S := S128x1) zero2]
  rfl

end Cert.Kernel.Hand

end
-- ==== Proof.K.Data.lean ====
/-
  The pipeline's proof data.

  When the region is entered the arrays hold what the six host operations before it left (`V1`): the embeddings and labels as
  launched, the squared norms as a row, the labels as a column and as a row. At grid point `t` each input window's staging
  buffer holds that window's block of its array (`iblk`), fetched there or kept from an earlier point, and the body leaves
  the two output buffers at `out5` / `out6` of those blocks. Windows 0 and 1 read ONE array, the embeddings: each holds it at
  half of the full share. Nothing is owed; the invariant is the scoped buffers no window stages.
-/
import proofs.«131017_j6536940224734_1_alg».proof.Proof.K.Body
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as the host operations' valuation; -/
abbrev V0 (c : Dev nD) : Valuation τ sig (Elt F) := fun b => m ((c : Dev nD), b)
/-- and when the region is entered: the six operations before it have run. -/
abbrev V1 (c : Dev nD) (b : Ref sig .tc) : Buf (Elt F) ((c : Thread nD τ).loc b) := StableHlo.after hostOps0 (V0 m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The proof data of the one pipeline on core `c`. -/
def dats (_ : Fin 1) (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t)
    | ⟨6, _⟩ => out6 (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V1 m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) := by dsimp only [dats]
theorem after0_6 (c : Dev nD) (t : Fin cfg0.N) :
    (dats m 0 c).after 6 t = out6 (iblk m c 0 t) (iblk m c 1 t) (iblk m c 2 t) (iblk m c 3 t) (iblk m c 4 t) := by dsimp only [dats]

/-- The shares: the two windows on the embeddings split its full share; every other window holds its array whole. -/
theorem share0 (c : Dev nD) : (dats m 0 c).share 0 = fullShare.left := by
  unfold Dat.share; dsimp only [dats]; rfl
theorem share1 (c : Dev nD) : (dats m 0 c).share 1 = fullShare.right := by
  unfold Dat.share; dsimp only [dats]; rfl
theorem share2 (c : Dev nD) : (dats m 0 c).share 2 = fullShare := by
  unfold Dat.share; dsimp only [dats]; rfl
theorem share3 (c : Dev nD) : (dats m 0 c).share 3 = fullShare := by
  unfold Dat.share; dsimp only [dats]; rfl
theorem share4 (c : Dev nD) : (dats m 0 c).share 4 = fullShare := by
  unfold Dat.share; dsimp only [dats]; rfl
theorem share5 (c : Dev nD) : (dats m 0 c).share 5 = fullShare := by
  unfold Dat.share; dsimp only [dats]; rfl
theorem share6 (c : Dev nD) : (dats m 0 c).share 6 = fullShare := by
  unfold Dat.share; dsimp only [dats]; rfl

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-- What the body is called with at point `t`: the invariant, what the core owes, and each window's current staging buffer
    at what it then holds, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same invariant and debt, each buffer at what the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. The five input buffers hold their blocks, so the body's triple applies at those blocks; an output
    buffer holds SOME contents, which is all the triple asks of it. The invariant and the debt do not depend on the point
    and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The run of @main: six host operations, the kernel region, then twenty-seven host operations.

  Between two segments a core holds every unscoped buffer whole at a valuation: the launch contents (`V0`), then what the first six
  operations leave (`W1`), then — after the region — the same with the two result arrays at what the grid's write-backs leave
  (`W2`), then what each later stretch of operations leaves (`W3`, `W4`, `W5`). The region is entered by dealing the arrays
  out of those buffers — the embeddings' buffer, which two windows read, as two half shares — and left by putting them back.
-/
import proofs.«131017_j6536940224734_1_alg».proof.Proof.K.Data
import Idealize.ShloMosaic.Lib.Pipeline.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-! ## The buffers' contents at the segment boundaries -/

/-- When the region is entered. -/
abbrev W1 (c : Dev nD) : Valuation τ sig (Elt F) := StableHlo.after hostOps0 (V0 m c)
/-- When it is left: the two result arrays at what the write-backs leave, every other buffer untouched. -/
def W2 (c : Dev nD) : Valuation τ sig (Elt F) :=
  Function.update (Function.update (W1 m c) (Proc.devRef .tc main_v5_0) ((dats m 0 c).arrAt 5 cfg0.N))
    (Proc.devRef .tc main_v5_1) ((dats m 0 c).arrAt 6 cfg0.N)
/-- After each later stretch of host operations. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)

/-! ## The segments -/

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V0 m) R
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (W2 m) R
def seg2 : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h)) fresh1_1 (W3 m) R
def seg3 : Pipeline.HostSeg (Name := ℕ) (U := UR sig nD τ) (pcfgs (F := F)) defs₀ 𝒱₀ L lv :=
  Pipeline.HostSeg.ofOps _ _ _ _ _ (Pipeline.ucRefs τ sig) hostOps1_2
    (fun op h => Pipeline.sub_ucRefs op ((List.forall_iff_forall_mem.mp hostOps1_2_sub) op h)) fresh1_2 (W4 m) R

/-! ## Entering and leaving the region: the arrays dealt out of the buffers, and put back -/

/-- The buffers behind the seven windows' arrays are six: the embeddings' is named twice. -/
theorem arrRefs_eq : (Finset.univ.image (Pipeline.arrRef spec0) : Finset (Ref sig .tc))
    = [main_arg0, main_v2, main_v3, main_v4, main_v5_0, main_v5_1].toFinset := by decide

/-- A window's array is a whole buffer: held on all of its elements, it is the buffer's points-to. -/
theorem arr_pt (c : Dev nD) (w : Fin 7) (q : PosShare TreeShare) (G : Buf (Elt F) ((cfg0.win w).arr.view.loc (c.tc : Thread nD τ))) :
    ((cfg0.win w).arr.view.loc (c.tc : Thread nD τ) ↦[(cfg0.win w).arr.view.set]{q} G : sProp 𝕄)
      = ((c.tc : Thread nD τ).loc (Pipeline.arrRef spec0 w) ↦{q} G) := by
  rw [(arr_whole0 w).set_eq_univ]

/-- The pipeline's arrays at contents `G`, window by window: the embeddings' buffer at its two half shares, the other five
    buffers whole. -/
theorem arrays_chain (c : Dev nD) (G : (w : Fin cfg0.W) → Buf (Elt F) ((cfg0.win w).arr.view.loc (c.tc : Thread nD τ))) :
    ((dats m 0 c).arrays G : sProp 𝕄)
      = iprop(((c.tc : Thread nD τ).loc main_arg0 ↦{fullShare.left} G 0)
        ∗ ((c.tc : Thread nD τ).loc main_arg0 ↦{fullShare.right} G 1)
        ∗ ((c.tc : Thread nD τ).loc main_v2 ↦{fullShare} G 2)
        ∗ ((c.tc : Thread nD τ).loc main_v3 ↦{fullShare} G 3)
        ∗ ((c.tc : Thread nD τ).loc main_v4 ↦{fullShare} G 4)
        ∗ ((c.tc : Thread nD τ).loc main_v5_0 ↦{fullShare} G 5)
        ∗ ((c.tc : Thread nD τ).loc main_v5_1 ↦{fullShare} G 6)) := by
  unfold Dat.arrays
  rw [bigSep_W0, share0, share1, share2, share3, share4, share5, share6,
    arr_pt c 0, arr_pt c 1, arr_pt c 2, arr_pt c 3, arr_pt c 4, arr_pt c 5, arr_pt c 6]

/-- The six buffers behind them, each whole at contents `V`. -/
theorem arrBufs_chain (c : Dev nD) (V : (b : Ref sig .tc) → Buf (Elt F) ((c.tc : Thread nD τ).loc b)) :
    (Pipeline.arrBufs spec0 c V : sProp 𝕄)
      = iprop(((c.tc : Thread nD τ).loc main_arg0 ↦{fullShare} V main_arg0)
        ∗ ((c.tc : Thread nD τ).loc main_v2 ↦{fullShare} V main_v2)
        ∗ ((c.tc : Thread nD τ).loc main_v3 ↦{fullShare} V main_v3)
        ∗ ((c.tc : Thread nD τ).loc main_v4 ↦{fullShare} V main_v4)
        ∗ ((c.tc : Thread nD τ).loc main_v5_0 ↦{fullShare} V main_v5_0)
        ∗ ((c.tc : Thread nD τ).loc main_v5_1 ↦{fullShare} V main_v5_1)) := by
  unfold Pipeline.arrBufs
  rw [bigSep_eq_bigSepL_of_eq _ arrRefs_eq (by decide)]
  rfl

/-- The six buffers whole are the seven arrays, wherever each window's contents are its buffer's: the embeddings' full share is
    its two halves, which windows 0 and 1 hold at the same contents. -/
theorem arrBufs_arrays (c : Dev nD) (V : (b : Ref sig .tc) → Buf (Elt F) ((c.tc : Thread nD τ).loc b))
    (G : (w : Fin cfg0.W) → Buf (Elt F) ((cfg0.win w).arr.view.loc (c.tc : Thread nD τ)))
    (h0 : G 0 = V main_arg0) (h1 : G 1 = V main_arg0) (h2 : G 2 = V main_v2) (h3 : G 3 = V main_v3) (h4 : G 4 = V main_v4)
    (h5 : G 5 = V main_v5_0) (h6 : G 6 = V main_v5_1) :
    (Pipeline.arrBufs spec0 c V : sProp 𝕄) ⊣⊢ (dats m 0 c).arrays G := by
  rw [arrays_chain, arrBufs_chain, h0, h1, h2, h3, h4, h5, h6]
  constructor
  · iintro ⟨H0, H2, H3, H4, H5, H6⟩
    ihave H01 := (pointsTo_share (PosShare.mem_left_op_right fullShare)).1 $$ H0
    icases H01 with ⟨H0, H1⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    ihave H01 := (pointsTo_share (PosShare.mem_left_op_right fullShare)).2 $$ [H0 H1]
    · isplitl [H0]; · iexact H0
      iexact H1
    isplitl [H01]; · iexact H01
    isplitl [H2]; · iexact H2
    isplitl [H3]; · iexact H3
    isplitl [H4]; · iexact H4
    isplitl [H5]; · iexact H5
    iexact H6

/-- Before any write-back an array holds what the region found; -/
theorem arrAt_zero (c : Dev nD) (w : Fin cfg0.W) : (dats m 0 c).arrAt w 0 = V1 m c (Pipeline.arrRef spec0 w) :=
  (show (dats m 0 c).arrAt w 0 = (dats m 0 c).A w from rfl).trans (A_eq m c w)

/-- and an input array, never written, holds it at every point. -/
theorem arrAt_in (c : Dev nD) (w : Fin cfg0.W) (hin : (cfg0.win w).isOut = false) (t : Nat) :
    (dats m 0 c).arrAt w t = V1 m c (Pipeline.arrRef spec0 w) :=
  ((dats m 0 c).arrAt_in w hin t).trans (A_eq m c w)

/-- The two updates miss every buffer other than the two result arrays'; -/
theorem W2_of_ne (c : Dev nD) (b : Ref sig .tc) (h5 : b ≠ main_v5_0) (h6 : b ≠ main_v5_1) :
    W2 m c (Proc.devRef .tc b) = W1 m c (Proc.devRef .tc b) := by
  unfold W2
  rw [Function.update_of_ne (fun e => h6 (Proc.devRef_injective _ e)), Function.update_of_ne (fun e => h5 (Proc.devRef_injective _ e))]

/-- and at those two they leave what the write-backs left. -/
theorem W2_v5_0 (c : Dev nD) : W2 m c (Proc.devRef .tc main_v5_0) = (dats m 0 c).arrAt 5 cfg0.N := by
  unfold W2
  rw [Function.update_of_ne (fun e => absurd (Proc.devRef_injective _ e) (by decide)), Function.update_self]
theorem W2_v5_1 (c : Dev nD) : W2 m c (Proc.devRef .tc main_v5_1) = (dats m 0 c).arrAt 6 cfg0.N := by
  unfold W2
  rw [Function.update_self]

/-- So an input window's array ends at what `W2` has at its buffer. -/
theorem arrAt_N_in (c : Dev nD) (w : Fin cfg0.W) (hin : (cfg0.win w).isOut = false)
    (h5 : Pipeline.arrRef spec0 w ≠ main_v5_0) (h6 : Pipeline.arrRef spec0 w ≠ main_v5_1) :
    (dats m 0 c).arrAt w cfg0.N = W2 m c (Proc.devRef .tc (Pipeline.arrRef spec0 w)) :=
  (arrAt_in m c w hin _).trans (W2_of_ne m c _ h5 h6).symm

/-- ENTRY. The unscoped buffers at `W1` are the pipeline's arrays at their entry contents — the embeddings' buffer as the two
    half shares windows 0 and 1 hold — and the buffers no window names. -/
theorem arrays_in (c : Dev nD) :
    (StableHlo.held (c : Thread nD τ) (Pipeline.ucRefs τ sig) (W1 m c) : sProp 𝕄)
      ⊢ iprop((dats m 0 c).arrays ((dats m 0 c).arrAt · 0) ∗ Pipeline.unscopedRest spec0 c (V1 m c)) := by
  rw [← Pipeline.unscopedBufs_held c (W1 m c), Pipeline.unscopedBufs_split₀ cfgs 0 winFacts₀0.arr_unscoped c]
  exact BIClass.sep_mono
    (arrBufs_arrays m c (fun b => W1 m c (Proc.devRef .tc b)) (fun w => (dats m 0 c).arrAt w 0)
      (arrAt_zero m c 0) (arrAt_zero m c 1) (arrAt_zero m c 2) (arrAt_zero m c 3) (arrAt_zero m c 4) (arrAt_zero m c 5) (arrAt_zero m c 6)).1
    (Entails.of_eq rfl)

/-- EXIT. The arrays at their final contents and the buffers no window names are the unscoped buffers at `W2`. -/
theorem arrays_out (c : Dev nD) :
    iprop((dats m 0 c).arrays ((dats m 0 c).arrAt · cfg0.N) ∗ Pipeline.unscopedRest spec0 c (V1 m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  refine BIClass.sep_mono
    (arrBufs_arrays m c (fun b => W2 m c (Proc.devRef .tc b)) (fun w => (dats m 0 c).arrAt w cfg0.N)
      (arrAt_N_in m c 0 rfl (by decide) (by decide)) (arrAt_N_in m c 1 rfl (by decide) (by decide))
      (arrAt_N_in m c 2 rfl (by decide) (by decide)) (arrAt_N_in m c 3 rfl (by decide) (by decide))
      (arrAt_N_in m c 4 rfl (by decide) (by decide)) (W2_v5_0 m c).symm (W2_v5_1 m c).symm).2 ?_
  unfold Pipeline.unscopedRest
  refine Entails.of_eq (bigSep_congr fun b hb => ?_)
  have hb' := (Finset.mem_sdiff.mp hb).2
  have h5 : b ≠ main_v5_0 := fun e => hb' (e ▸ Finset.mem_image.mpr ⟨5, Finset.mem_univ _, rfl⟩)
  have h6 : b ≠ main_v5_1 := fun e => hb' (e ▸ Finset.mem_image.mpr ⟨6, Finset.mem_univ _, rfl⟩)
  show ((c.tc : Thread nD τ).loc b ↦{fullShare} V1 m c b : sProp 𝕄) = ((c.tc : Thread nD τ).loc b ↦{fullShare} W2 m c (Proc.devRef .tc b))
  rw [W2_of_ne m c b h5 h6]

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := iprop(emp)
  Y _ := iprop(emp)
  Z c := Pipeline.unscopedRest spec0 c (V1 m c)
  hentry c := by
    iintro ⟨⟨Hub, HO⟩, -, -⟩
    ihave H := (arrays_in m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    show iprop(emp ∗ _ ∗ Pipeline.scopedRest (Ix := Unit) (Name := ℕ) (U := UR sig nD τ) (Lvl := ℕ) (Val := Elt F) spec0 c)
      ⊢ Pipeline.scopedRest (Ix := Unit) (Name := ℕ) (U := UR sig nD τ) (Lvl := ℕ) (Val := Elt F) spec0 c
    iintro ⟨-, -, Hr⟩
    iexact Hr
  hout c := by
    rw [Pipeline.ownSems0_none]
    show Pipeline.scopedRest (Ix := Unit) (Name := ℕ) (U := UR sig nD τ) (Lvl := ℕ) (Val := Elt F) spec0 c
      ⊢ iprop(emp ∗ emp ∗ Pipeline.scopedRest (Ix := Unit) (Name := ℕ) (U := UR sig nD τ) (Lvl := ℕ) (Val := Elt F) spec0 c)
    iintro Hr
    isplitr; · iempintro
    isplitr; · iempintro
    iexact Hr
  hexit c := by
    iintro ⟨Ha, HO, -, HZ⟩
    imodintro
    isplitr [HO]
    · iapply (arrays_out m c)
      isplitl [Ha] <;> iassumption
    · unfold Pipeline.Dat.owesAt Pipeline.owesWithin
      icases HO with ⟨%W, -, HO⟩; iexists W; iexact HO

/-- @main as the list of its five segments. -/
abbrev segs : List (Pipeline.Seg (pcfgs (F := F)) adm (dats m) () defs₀ 𝒱₀ L lv) :=
  [.host (seg0 m), .region (reg0 m), .host (seg1 m), .host (seg2 m), .host (seg3 m)]

set_option backward.isDefEq.respectTransparency.types false in
/-- THE RUN. From any memory with zero counters every weakly fair execution of @main terminates, nothing faulting, and every
    unscoped buffer of every core ends at `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (dats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2 ] from rfl]
      exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = W5 m c b)
    (hfin := fun c s' => by
      unfold StableHlo.held
      iintro ⟨Hh, HSI⟩
      ihave Hr := (pointsTo_read_all (Pipeline.ucRefs τ sig) (fun b => ((c : Thread nD τ).1, b)) (W5 m c) s') $$ [Hh HSI]
      · isplitl [Hh] <;> iassumption
      icases Hr with ⟨%h, HSI⟩
      imodintro
      isplitr
      · ipureintro; exact h
      · iexact HSI)
    (hQ := fun _ h => h)

end Cert.Kernel.Hand

end
-- ==== Proof.Spec.lean ====
/-
  The mathematics both programs compute, over the extended reals, as functions of the two argument arrays
  `x : [4096, 256]` (the embeddings) and `tg : [4096]` (the labels, 32-bit words).

  For rows `i`, `j`:  `sq i = Σ_k x[i,k]²`,  `gram i j = Σ_k x[i,k]·x[j,k]`,
  `dist i j = √(max (sq i + sq j − 2·gram i j) 0)`  — a distance, so it lies in `[0, +∞]`.
  Per row `i`: the hardest positive `hardAp i = max_j (dist i j  where tg j = tg i,  else −∞)`; the nearest negative above,
  `anRaw gt i = min_j (dist i j where tg j > tg i, else +∞)`, replaced by the constant 10000 when it is `+∞` (no such column),
  likewise below; and `eqCount i`, the number of columns with the row's label, with `single i` the bit "it is 1".
  Float literals are kept as their words (the same word on both sides is never evaluated).
-/
import Idealize.ShloMosaic.PureOps.Ideal
import Idealize.ShloMosaic.Lib.ValueIdx

noncomputable section

namespace Cert.TripletSpec

open Idealize.ShloMosaic Idealize.ShloMosaic.ValueIdx

abbrev SX : Shape := ⟨2, ![4096, 256]⟩
abbrev ST : Shape := ⟨1, ![4096]⟩
abbrev SD : Shape := ⟨2, ![4096, 4096]⟩

/-- The literal words. -/
abbrev wZero : EReal := Ideal.ofBits .f32 0x00000000#32
abbrev wTwo : EReal := Ideal.ofBits .f32 0x40000000#32
abbrev wNegInf : EReal := Ideal.ofBits .f32 0xFF800000#32
abbrev wPosInf : EReal := Ideal.ofBits .f32 0x7F800000#32
abbrev wBig : EReal := Ideal.ofBits .f32 0x461C4000#32
abbrev wOne : EReal := Ideal.ofBits .f32 0x3F800000#32

variable (x : SX.Idx → EReal) (tg : ST.Idx → BitVec 32)

/-- A row's squared norm. -/
def sq (i : Fin 4096) : EReal := ∑ k : Fin 256, x (ix2 i k) * x (ix2 i k)
/-- Two rows' inner product. -/
def gram (i j : Fin 4096) : EReal := ∑ k : Fin 256, x (ix2 i k) * x (ix2 j k)
/-- The squared distance, as both programs spell it: `(sq i + sq j) − 2·gram i j`. -/
def d2 (i j : Fin 4096) : EReal := (sq x i + sq x j) - wTwo * gram x i j
/-- The distance. -/
def dist (i j : Fin 4096) : EReal := Ideal.sqrt (max (d2 x i j) wZero)

/-- Column `j` against row `i`: same label, a greater one, a lesser one (signed 32-bit compares, as one bit). -/
def eqM (i j : Fin 4096) : BitVec 1 := IntOp.cmpi .eq (tg (ix1 j)) (tg (ix1 i))
def gtM (i j : Fin 4096) : BitVec 1 := IntOp.cmpi .sgt (tg (ix1 j)) (tg (ix1 i))
def ltM (i j : Fin 4096) : BitVec 1 := IntOp.cmpi .slt (tg (ix1 j)) (tg (ix1 i))

/-- The hardest positive of row `i`: the greatest distance to a column with the row's label. -/
def hardAp (i : Fin 4096) : EReal :=
  (Finset.univ : Finset (Fin 4096)).fold max wNegInf fun j => Scalar.select (eqM tg i j) (dist x i j) wNegInf
/-- The least distance of row `i` to a column the mask `M` selects; `+∞` when it selects none. -/
def anRaw (M : Fin 4096 → Fin 4096 → BitVec 1) (i : Fin 4096) : EReal :=
  (Finset.univ : Finset (Fin 4096)).fold min wPosInf fun j => Scalar.select (M i j) (dist x i j) wPosInf
/-- … with the sentinel 10000 in place of `+∞`. -/
def an (M : Fin 4096 → Fin 4096 → BitVec 1) (i : Fin 4096) : EReal :=
  Scalar.select (Ideal.cmp .oeq (anRaw x M i) wPosInf) wBig (anRaw x M i)

/-- The number of columns with row `i`'s label (the row itself is one of them). -/
def eqCount (i : Fin 4096) : ℕ := (Finset.univ.filter fun j : Fin 4096 => eqM tg i j = 1#1).card
/-- Whether row `i`'s label occurs once: the bit both programs sum into their third result. -/
def single (i : Fin 4096) : BitVec 1 := BitVec.ofBool (decide (eqCount tg i = 1))

end Cert.TripletSpec

end
-- ==== Proof.HostChain.lean ====
/-
  What both programs do, on the host, with the per-row statistics: the loss is the mean over the 4096 rows of
  `max (hardAp − |an_gt − an_lt| + 0.3) 0`, and the count is the number of rows whose label occurs once — the sum of the
  bits `single`, each widened to a 32-bit word. Stated once over the library's operations, the shape facts as arguments, so
  that the kernel's host lines and the reference's meet in one term.
-/
import proofs.«131017_j6536940224734_1_alg».proof.Proof.Spec
import Idealize.ShloMosaic.Lib.StableHlo
import Idealize.ShloMosaic.PureOps

noncomputable section

namespace Cert.TripletSpec

open Idealize.ShloMosaic

abbrev S0 : Shape := ⟨0, ![]⟩

variable {F : FTy → Type} [FloatOps F]

/-- The loss, from the three per-row vectors. -/
def lossOf (hb : S0.BroadcastsInDim ST (![] : Fin 0 → Fin ST.rank)) (hr : ST.ReducesTo [0] S0) (h0 : 0 < S0.numel)
    (ha ag al : FVec F ST .f32) : FVec F S0 .f32 :=
  Host.divf
    (Host.reduceAdd
      (maximumf (addf (subf ha (Host.absf (subf ag al))) (broadcastInDim ST ![] hb (constant S0 .f32 0x3E99999A#32)))
        (broadcastInDim ST ![] hb (constant S0 .f32 0x00000000#32)))
      (constant S0 .f32 0x00000000#32) hr h0)
    (constant S0 .f32 0x45800000#32)

/-- The count, from the per-row bits. -/
def cntOf (hr : ST.ReducesTo [0] S0) (h0 : 0 < S0.numel) (hw : 1 < 32) (mk : IVec ST 1) : IVec S0 32 :=
  Host.reduce IntOp.addi (extui 32 mk hw) (constantI S0 32 0#32) hr h0

end Cert.TripletSpec

end
-- ==== Proof.K.Tail.lean ====
/-
  What the buffers hold at the end of @main (`W5`), read at the results and at the arguments.

  No host operation writes an argument array or the distance array, so those end as the region left them. The twenty-seven
  operations after the region slice the statistics array into its four columns and compute, from the first three, the loss
  (`lossOf`) and, from the fourth compared with 1.0, the count (`cntOf`).
-/
import proofs.«131017_j6536940224734_1_alg».proof.Proof.K.Run
import proofs.«131017_j6536940224734_1_alg».proof.Proof.HostChain
import Idealize.ShloMosaic.Lib.StableHlo.Run
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Column `k` of a [4096, 4] array, as a vector. -/
def colOf (st : FVec F S4096x4 .f32) (k : Fin 4) : FVec F S4096 .f32 := fun i => st (ix2 (i 0) k)

/-- The statistics array as the region leaves it. -/
abbrev statArr (c : Dev nD) : FVec F S4096x4 .f32 := (dats m 0 c).arrAt 6 cfg0.N

/-! ## What no operation writes -/

/-- The first stretch writes its six results only. -/
theorem nw0 (b : Ref sig .tc)
    (hb : b ≠ main_v0 ∧ b ≠ main_cst ∧ b ≠ main_v1 ∧ b ≠ main_v2 ∧ b ≠ main_v3 ∧ b ≠ main_v4) :
    ∀ op ∈ (hostOps0 (F := F)), Proc.devRef (τ := τ) .tc b ∉ op.writes := by
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The stretch after the region writes its fourteen results only. -/
theorem nw1 (b : Ref sig .tc)
    (hb : b ≠ main_v6 ∧ b ≠ main_v7 ∧ b ≠ main_v8 ∧ b ≠ main_v9 ∧ b ≠ main_v10 ∧ b ≠ main_v11 ∧ b ≠ main_v12 ∧ b ≠ main_v13
      ∧ b ≠ main_v14 ∧ b ≠ main_v15 ∧ b ≠ main_v16 ∧ b ≠ main_cst_0 ∧ b ≠ main_v17 ∧ b ≠ main_v18) :
    ∀ op ∈ (hostOps1 (F := F)), Proc.devRef (τ := τ) .tc b ∉ op.writes := by
  obtain ⟨h0, h1, h2, h3, h4, h5, h6, h7, h8, h9, h10, h11, h12, h13⟩ := hb
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The inlined function writes its three values only. -/
theorem nw1_1 (b : Ref sig .tc) (hb : b ≠ main_call0_cst ∧ b ≠ main_call0_v0 ∧ b ≠ main_v19) :
    ∀ op ∈ (hostOps1_1 (F := F)), Proc.devRef (τ := τ) .tc b ∉ op.writes := by
  obtain ⟨h0, h1, h2⟩ := hb
  intro op hop
  simp only [List.mem_cons, List.mem_nil_iff, or_false] at hop
  rcases hop with rfl | rfl | rfl <;>
    simp only [StableHlo.unary_writes, StableHlo.binary_writes, StableHlo.nullary_writes, Finset.mem_singleton] <;>
    exact StableHlo.devRef_ne_of_ne ‹_›

/-- The last stretch writes its ten results only. -/
theorem nw1_2 (b : Ref sig .tc)
    (hb : b ≠ main_cst_1 ∧ b ≠ main_v20 ∧ b ≠ main_cst_2 ∧ b ≠ main_v21 ∧ b ≠ main_cst_3 ∧ b ≠ main_v22 ∧ b ≠ main_v23
      ∧ b ≠ main_v24 ∧ b ≠ main_c ∧ b ≠ main_v25) :
    ∀ op ∈ (hostOps1_2 (F := F)), Proc.devRef (τ := τ) .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- A buffer none of the twenty-seven later operations writes ends as the region left it. -/
theorem W5_eq_W2 (c : Dev nD) (b : Ref sig .tc)
    (h1 : b ≠ main_v6 ∧ b ≠ main_v7 ∧ b ≠ main_v8 ∧ b ≠ main_v9 ∧ b ≠ main_v10 ∧ b ≠ main_v11 ∧ b ≠ main_v12 ∧ b ≠ main_v13
      ∧ b ≠ main_v14 ∧ b ≠ main_v15 ∧ b ≠ main_v16 ∧ b ≠ main_cst_0 ∧ b ≠ main_v17 ∧ b ≠ main_v18)
    (h2 : b ≠ main_call0_cst ∧ b ≠ main_call0_v0 ∧ b ≠ main_v19)
    (h3 : b ≠ main_cst_1 ∧ b ≠ main_v20 ∧ b ≠ main_cst_2 ∧ b ≠ main_v21 ∧ b ≠ main_cst_3 ∧ b ≠ main_v22 ∧ b ≠ main_v23
      ∧ b ≠ main_v24 ∧ b ≠ main_c ∧ b ≠ main_v25) :
    W5 m c (Proc.devRef .tc b) = W2 m c (Proc.devRef .tc b) := by
  show StableHlo.after hostOps1_2 (W4 m c) (Proc.devRef .tc b) = _
  rw [StableHlo.after_of_forall_not_mem hostOps1_2 _ (nw1_2 b h3)]
  show StableHlo.after hostOps1_1 (W3 m c) (Proc.devRef .tc b) = _
  rw [StableHlo.after_of_forall_not_mem hostOps1_1 _ (nw1_1 b h2)]
  show StableHlo.after hostOps1 (W2 m c) (Proc.devRef .tc b) = _
  rw [StableHlo.after_of_forall_not_mem hostOps1 _ (nw1 b h1)]

/-- An argument array is as launched when the region is left: nothing before writes it and the region's results are other
    buffers. -/
theorem W2_of_arg (c : Dev nD) (b : Ref sig .tc) (h5 : b ≠ main_v5_0 ∧ b ≠ main_v5_1)
    (h0 : b ≠ main_v0 ∧ b ≠ main_cst ∧ b ≠ main_v1 ∧ b ≠ main_v2 ∧ b ≠ main_v3 ∧ b ≠ main_v4) :
    W2 m c (Proc.devRef .tc b) = m ((c : Thread nD τ).loc b) := by
  unfold W2
  rw [Function.update_of_ne (StableHlo.devRef_ne_of_ne h5.2), Function.update_of_ne (StableHlo.devRef_ne_of_ne h5.1)]
  exact StableHlo.after_of_forall_not_mem (b := Proc.devRef .tc b) hostOps0 (V0 m c) (nw0 b h0)

/-- The arguments end as launched. -/
theorem W5_arg0 (c : Dev nD) : W5 m c (Proc.devRef .tc main_arg0) = m ((c : Thread nD τ).loc main_arg0) := by
  rw [W5_eq_W2 m c main_arg0 (by decide) (by decide) (by decide)]
  exact W2_of_arg m c main_arg0 (by decide) (by decide)
theorem W5_arg1 (c : Dev nD) : W5 m c (Proc.devRef .tc main_arg1) = m ((c : Thread nD τ).loc main_arg1) := by
  rw [W5_eq_W2 m c main_arg1 (by decide) (by decide) (by decide)]
  exact W2_of_arg m c main_arg1 (by decide) (by decide)

/-- The distance array ends as the region left it. -/
theorem W5_v5_0 (c : Dev nD) : W5 m c (Proc.devRef .tc main_v5_0) = (dats m 0 c).arrAt 5 cfg0.N := by
  rw [W5_eq_W2 m c main_v5_0 (by decide) (by decide) (by decide)]
  unfold W2
  rw [Function.update_of_ne (StableHlo.devRef_ne_of_ne (by decide)), Function.update_self]

/-! ## The columns of the statistics array -/

/-- Column `k` cut out of the array and flattened is column `k` as a vector: the flattened index `i` is row `i` of the
    one-column slice, which is entry `(i, k)` of the array. -/
theorem col_read (st : FVec F S4096x4 .f32) (k : Fin 4) (hs : S4096x4.Slices ![0, k.val] S4096x1)
    (hc : S4096x1.ShapeCasts S4096) :
    shapeCast S4096 (extractStridedSlice S4096x1 ![0, k.val] st hs) hc = colOf st k := by
  funext i
  refine (shapeCast_apply _ hc i (ix2 (i 0) (0 : Fin 1)) ?_).trans ?_
  · rw [Shape.rowMajor_val_two, Shape.rowMajor_val_one]
    show (i 0).val * 1 + 0 = (i 0).val
    omega
  · exact slice2_axis1_apply k.val st hs (i 0) (0 : Fin 1) k (by show k.val = k.val + 0; omega)

/-! ## The three later stretches, each from any contents before it -/

section Layers

variable (W : Valuation τ sig (Elt F))

/-- The fourth column reaches `%13`. -/
theorem L1_v13 :
    StableHlo.after hostOps1 W (Proc.devRef .tc main_v13) = colOf (W (Proc.devRef .tc main_v5_1)) 3 := by
  after_results
  exact col_read (W (Proc.devRef .tc main_v5_1)) 3 slices_S4096x4_S4096x1_0_3 shapeCasts_S4096x1_S4096

/-- `%18` is the hinge's argument, from the first three columns. -/
theorem L1_v18 :
    StableHlo.after hostOps1 W (Proc.devRef .tc main_v18)
      = addf (subf (colOf (W (Proc.devRef .tc main_v5_1)) 0)
            (Host.absf (subf (colOf (W (Proc.devRef .tc main_v5_1)) 1) (colOf (W (Proc.devRef .tc main_v5_1)) 2))))
          (broadcastInDim S4096 ![] bcast_S_S4096 (constant (F := F) S_ .f32 0x3E99999A#32)) := by
  after_results
  rw [← col_read (W (Proc.devRef .tc main_v5_1)) 0 slices_S4096x4_S4096x1_0_0 shapeCasts_S4096x1_S4096,
    ← col_read (W (Proc.devRef .tc main_v5_1)) 1 slices_S4096x4_S4096x1_0_1 shapeCasts_S4096x1_S4096,
    ← col_read (W (Proc.devRef .tc main_v5_1)) 2 slices_S4096x4_S4096x1_0_2 shapeCasts_S4096x1_S4096]
  rfl

/-- The inlined function clamps `%18` below at zero. -/
theorem L2_v19 :
    StableHlo.after hostOps1_1 W (Proc.devRef .tc main_v19)
      = maximumf (W (Proc.devRef .tc main_v18)) (broadcastInDim S4096 ![] bcast_S_S4096 (constant (F := F) S_ .f32 0x00000000#32)) := by
  after_results
  rfl

/-- and leaves `%13` alone. -/
theorem L2_v13 : StableHlo.after hostOps1_1 W (Proc.devRef .tc main_v13) = W (Proc.devRef .tc main_v13) :=
  StableHlo.after_of_forall_not_mem (b := Proc.devRef .tc main_v13) hostOps1_1 W (nw1_1 main_v13 (by decide))

/-- `%21` is the sum of `%19` over the rows, divided by 4096. -/
theorem L3_v21 :
    StableHlo.after hostOps1_2 W (Proc.devRef .tc main_v21)
      = Host.divf (Host.reduceAdd (W (Proc.devRef .tc main_v19)) (constant (F := F) S_ .f32 0x00000000#32) reducesTo_S4096_S_d0 h_S_)
          (constant (F := F) S_ .f32 0x45800000#32) := by
  after_results

/-- `%25` is the number of rows at which `%13` equals 1.0. -/
theorem L3_v25 :
    StableHlo.after hostOps1_2 W (Proc.devRef .tc main_v25)
      = Host.reduce IntOp.addi
          (extui 32 (cmpf .oeq (W (Proc.devRef .tc main_v13))
            (broadcastInDim S4096 ![] bcast_S_S4096 (constant (F := F) S_ .f32 0x3F800000#32))) natLt_1_32)
          (constantI S_ 32 0#32) reducesTo_S4096_S_d0 h_S_ := by
  after_results

end Layers

/-- The statistics array is what the region leaves in its second result buffer. -/
theorem W2_stat (c : Dev nD) : W2 m c (Proc.devRef .tc main_v5_1) = statArr m c := by
  unfold W2
  rw [Function.update_self]

/-- The loss. -/
theorem W5_v21 (c : Dev nD) :
    W5 m c (Proc.devRef .tc main_v21)
      = Cert.TripletSpec.lossOf (F := F) bcast_S_S4096 reducesTo_S4096_S_d0 h_S_
          (colOf (statArr m c) 0) (colOf (statArr m c) 1) (colOf (statArr m c) 2) := by
  show StableHlo.after hostOps1_2 (W4 m c) (Proc.devRef .tc main_v21) = _
  rw [L3_v21]
  show Host.divf (Host.reduceAdd (StableHlo.after hostOps1_1 (W3 m c) (Proc.devRef .tc main_v19)) _ _ _) _ = _
  rw [L2_v19]
  show Host.divf (Host.reduceAdd (maximumf (StableHlo.after hostOps1 (W2 m c) (Proc.devRef .tc main_v18)) _) _ _ _) _ = _
  rw [L1_v18, W2_stat]
  rfl

/-- The count. -/
theorem W5_v25 (c : Dev nD) :
    W5 m c (Proc.devRef .tc main_v25)
      = Cert.TripletSpec.cntOf reducesTo_S4096_S_d0 h_S_ natLt_1_32
          (cmpf .oeq (colOf (statArr m c) 3) (broadcastInDim S4096 ![] bcast_S_S4096 (constant (F := F) S_ .f32 0x3F800000#32))) := by
  show StableHlo.after hostOps1_2 (W4 m c) (Proc.devRef .tc main_v25) = _
  rw [L3_v25]
  show Host.reduce IntOp.addi (extui 32 (cmpf .oeq (StableHlo.after hostOps1_1 (W3 m c) (Proc.devRef .tc main_v13)) _) _) _ _ _ = _
  rw [L2_v13]
  show Host.reduce IntOp.addi (extui 32 (cmpf .oeq (StableHlo.after hostOps1 (W2 m c) (Proc.devRef .tc main_v13)) _) _) _ _ _ = _
  rw [L1_v13, W2_stat]
  rfl

end Cert.Kernel.Hand

end
-- ==== Proof.K.Frame.lean ====
/-
  The frame: @main runs to the end, nothing faulting, and the two argument arrays end as launched — no host operation writes
  them and the kernel region only reads the embeddings.
-/
import proofs.«131017_j6536940224734_1_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_ucRefs (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by simp [hb]⟩

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c (Proc.devRef .tc main_arg0) (mem_ucRefs main_arg0 (by decide))).trans (W5_arg0 m c),
       (h c (Proc.devRef .tc main_arg1) (mem_ucRefs main_arg1 (by decide))).trans (W5_arg1 m c)⟩)
    (run_main m ρ)

end Cert.Kernel.Hand

end
-- ==== Proof.KI.Body.lean ====
/-
  The kernel body, run once on whole staging buffers.

  The body reads five blocks — `x0`: 128 rows of the embeddings, `x1`: all 4096 rows, `x2`: the 4096 squared norms as a row,
  `x3`: the 128 rows' labels as a column, `x4`: all labels as a row — and fills two: the 128 × 4096 block of distances, stored
  whole, and a 128 × 4 block of per-row statistics, stored one column at a time (hardest positive; nearest negative above;
  nearest negative below; the count of equal labels). `out5` and `out6` name what those two buffers hold afterwards.
-/
import proofs.«131017_j6536940224734_1_alg».proof.Proof.Gen.KernelIdeal.Launch
import proofs.«131017_j6536940224734_1_alg».proof.Proof.Gen.KernelIdeal.Skeleton
import proofs.«131017_j6536940224734_1_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The four column rectangles of the statistics block. -/
abbrev col0 : Rect S128x4 := Rect.unit (s := S128x4) ![0, 0] S128x1.size inb_S128x4_S128x1_0_0
abbrev col1 : Rect S128x4 := Rect.unit (s := S128x4) ![0, 1] S128x1.size inb_S128x4_S128x1_0_1
abbrev col2 : Rect S128x4 := Rect.unit (s := S128x4) ![0, 2] S128x1.size inb_S128x4_S128x1_0_2
abbrev col3 : Rect S128x4 := Rect.unit (s := S128x4) ![0, 3] S128x1.size inb_S128x4_S128x1_0_3

/-- The distance block after the body: its one whole-block store's value. -/
def out5 (x0 : Vec F S128x256 .f32) (x1 : Vec F S4096x256 .f32) (x2 : Vec F S1x4096 .f32) : Vec F S128x4096 .f32 :=
  k0_pay4 x0 x1 x2

/-- The statistics block after the body: its four column stores, last first. -/
def out6 (x0 : Vec F S128x256 .f32) (x1 : Vec F S4096x256 .f32) (x2 : Vec F S1x4096 .f32) (x3 : Vec F S128x1 .i32) (x4 : Vec F S1x4096 .i32) :
    Vec F S128x4 .f32 :=
  View.canon [⟨col3, k0_pay3 (F := F) (k0_pay7 x3 x4)⟩, ⟨col2, k0_pay2 (k0_pay4 x0 x1 x2) (k0_pay8 x3 x4)⟩,
    ⟨col1, k0_pay1 (k0_pay10 x0 x1 x2 x3 x4)⟩, ⟨col0, k0_pay9 x0 x1 x2 x3 x4⟩]

/-- A column's local index `(r, 0)` sits at `(r, c)` of the block when the column's offset is `c`: on each axis the
    coordinate is the offset plus the local coordinate. -/
private theorem col_emb (K : Nat) (inb : ∀ a, (![0, K] : Fin 2 → Nat) a + S128x1.size a ≤ S128x4.size a) (r : Fin 128) (c : Fin 4)
    (hc : c.val = K) : (Rect.unit (s := S128x4) ![0, K] S128x1.size inb).emb (ix2 r (0 : Fin 1)) = ix2 r c := by
  funext a
  apply Fin.ext
  match a with
  | ⟨0, _⟩ => simp [Rect.emb_apply, ix2]
  | ⟨1, _⟩ => simp [Rect.emb_apply, ix2, hc]

/-- An index of another column is outside column `K`: its second coordinate is not `K`. -/
private theorem not_mem_col (K : Nat) (inb : ∀ a, (![0, K] : Fin 2 → Nat) a + S128x1.size a ≤ S128x4.size a) (r : Fin 128) (c : Fin 4)
    (h : c.val ≠ K) : ix2 r c ∉ (Rect.unit (s := S128x4) ![0, K] S128x1.size inb).set := by
  rw [Rect.mem_set_unit]
  intro hh
  have h1 := hh 1
  simp [ix2] at h1
  omega

section Columns

variable {Val : EltTy → Type} [∀ e, Nonempty (Val e)]

/-- A store of column `K`, made last, does not show at an index of another column. -/
private theorem canon_skip_col (K : Nat) (inb : ∀ a, (![0, K] : Fin 2 → Nat) a + S128x1.size a ≤ S128x4.size a)
    (w : (Rect.unit (s := S128x4) ![0, K] S128x1.size inb).shape.Idx → Val .f32) (L : List (View.Piece Val S128x4 .f32))
    (r : Fin 128) (c : Fin 4) (h : c.val ≠ K) :
    View.canon ((⟨Rect.unit (s := S128x4) ![0, K] S128x1.size inb, w⟩ : View.Piece Val S128x4 .f32) :: L) (ix2 r c)
      = View.canon L (ix2 r c) :=
  View.canon_cons_of_not_mem (⟨Rect.unit (s := S128x4) ![0, K] S128x1.size inb, w⟩ : View.Piece Val S128x4 .f32) L
    (not_mem_col K inb r c h)

/-- A store of column `K`, made last, shows at the column's own indices. -/
private theorem canon_hit_col (K : Nat) (inb : ∀ a, (![0, K] : Fin 2 → Nat) a + S128x1.size a ≤ S128x4.size a)
    (w : (Rect.unit (s := S128x4) ![0, K] S128x1.size inb).shape.Idx → Val .f32) (L : List (View.Piece Val S128x4 .f32))
    (r : Fin 128) (c : Fin 4) (h : c.val = K) :
    View.canon ((⟨Rect.unit (s := S128x4) ![0, K] S128x1.size inb, w⟩ : View.Piece Val S128x4 .f32) :: L) (ix2 r c)
      = w (ix2 r (0 : Fin 1)) := by
  rw [← col_emb K inb r c h]
  exact View.canon_cons_emb (Rect.unit (s := S128x4) ![0, K] S128x1.size inb) w L (ix2 r (0 : Fin 1))

end Columns

/-- Each column of the statistics block reads the store that filled it. -/
theorem out6_col0 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (0 : Fin 4)) = k0_pay9 x0 x1 x2 x3 x4 (ix2 r (0 : Fin 1)) := by
  unfold out6
  refine (canon_skip_col 3 _ _ _ r 0 (by decide)).trans ?_
  refine (canon_skip_col 2 _ _ _ r 0 (by decide)).trans ?_
  refine (canon_skip_col 1 _ _ _ r 0 (by decide)).trans ?_
  exact canon_hit_col 0 _ _ _ r 0 rfl
theorem out6_col1 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (1 : Fin 4)) = k0_pay1 (k0_pay10 x0 x1 x2 x3 x4) (ix2 r (0 : Fin 1)) := by
  unfold out6
  refine (canon_skip_col 3 _ _ _ r 1 (by decide)).trans ?_
  refine (canon_skip_col 2 _ _ _ r 1 (by decide)).trans ?_
  exact canon_hit_col 1 _ _ _ r 1 rfl
theorem out6_col2 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (2 : Fin 4)) = k0_pay2 (k0_pay4 x0 x1 x2) (k0_pay8 x3 x4) (ix2 r (0 : Fin 1)) := by
  unfold out6
  refine (canon_skip_col 3 _ _ _ r 2 (by decide)).trans ?_
  exact canon_hit_col 2 _ _ _ r 2 rfl
theorem out6_col3 (x0 : Vec F S128x256 .f32) (x1 : Vec F S4096x256 .f32) (x2 : Vec F S1x4096 .f32) (x3 : Vec F S128x1 .i32) (x4 : Vec F S1x4096 .i32) (r : Fin 128) :
    out6 x0 x1 x2 x3 x4 (ix2 r (3 : Fin 4)) = k0_pay3 (F := F) (k0_pay7 x3 x4) (ix2 r (0 : Fin 1)) := by
  unfold out6
  exact canon_hit_col 3 _ _ _ r 3 rfl

/-- The zero offsets of a rank-2 rectangle, as the constant function. -/
private theorem zero2 : (![0, 0] : Fin 2 → Nat) = fun _ => 0 := by
  funext a; fin_cases a <;> rfl

/-- The four column stores tile the statistics block, so they cover it. -/
private theorem cover6 (p3 p2 p1 p0 : Vec F S128x1 .f32) (y : S128x4.Idx) :
    ∃ pc ∈ ([⟨col3, p3⟩, ⟨col2, p2⟩, ⟨col1, p1⟩, ⟨col0, p0⟩] : List (View.Piece (Elt F) S128x4 .f32)), y ∈ pc.1.set :=
  View.cover_of_tiled [⟨col3, p3⟩, ⟨col2, p2⟩, ⟨col1, p1⟩, ⟨col0, p0⟩] S128x1.size (by rfl) y

set_option maxHeartbeats 4000000 in
/-- THE BODY'S TRIPLE. On whole staging buffers — the five inputs' at contents `x0 … x4`, the two outputs' at anything — the
    body runs to the continuation holding the inputs' as they were and the outputs' at `out5`, `out6` of the inputs'. -/
theorem sound_kernel (c : Dev nD) (E : Set ℕ) (i : grid0.Coords)
    (arg1 : Memref sig .tc .vmem S128x256 .f32) (harg1 : arg1.IsWhole) (arg2 : Memref sig .tc .vmem S4096x256 .f32) (harg2 : arg2.IsWhole)
    (arg3 : Memref sig .tc .vmem S1x4096 .f32) (harg3 : arg3.IsWhole) (arg4 : Memref sig .tc .vmem S128x1 .i32) (harg4 : arg4.IsWhole)
    (arg5 : Memref sig .tc .vmem S1x4096 .i32) (harg5 : arg5.IsWhole) (arg6 : Memref sig .tc .vmem S128x4096 .f32) (harg6 : arg6.IsWhole)
    (arg7 : Memref sig .tc .vmem S128x4 .f32) (harg7 : arg7.IsWhole)
    (x0 : Vec F S128x256 .f32) (x1 : Vec F S4096x256 .f32) (x2 : Vec F S1x4096 .f32) (x3 : Vec F S128x1 .i32) (x4 : Vec F S1x4096 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2) ∗ owns (c : Thread nD τ) arg7 fullShare (out6 x0 x1 x2 x3 x4)) -∗ K ⟨⟩))
      ⊢ wp frame (wpE (defs₀ (F := F)) Variants.none c none) E
          (cc0__tripletloss_kernel i arg1 harg1 arg2 harg2 arg3 harg3 arg4 harg4 arg5 harg5 arg6 harg6 arg7 harg7) K := by
  simp only [cc0__tripletloss_kernel_eq_skeleton]; unfold cc0__tripletloss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ ?_).trans ?_
    · exact fun y => ⟨_, List.mem_singleton_self _, View.mem_set_unit_zero zero2 inb_S128x4096_S128x4096_0_0 y⟩
    rw [View.canon_unit_zero zero2]
    simp only [View.readAt_eq_ld, View.ld_unit_zero (S := S128x256) zero2, View.ld_unit_zero (S := S4096x256) zero2,
      View.ld_unit_zero (S := S1x4096) zero2]
    rfl
  iexists _; isplitr
  swap; · iexact H6
  ipureintro
  refine (View.read_writes_eq_canon _ _ _ ?_).trans ?_
  · exact cover6 _ _ _ _
  dsimp only
  simp only [View.readAt_eq_ld, View.ld_unit_zero (S := S128x256) zero2, View.ld_unit_zero (S := S4096x256) zero2,
    View.ld_unit_zero (S := S1x4096) zero2, View.ld_unit_zero (S := S128x1) zero2]
  rfl

end Cert.KernelIdeal.Hand

end
-- ==== Proof.KI.Data.lean ====
/-
  The pipeline's proof data.

  When the region is entered the arrays hold what the six host operations before it left (`V1`): the embeddings and labels as
  launched, the squared norms as a row, the labels as a column and as a row. At grid point `t` each input window's staging
  buffer holds that window's block of its array (`iblk`), fetched there or kept from an earlier point, and the body leaves
  the two output buffers at `out5` / `out6` of those blocks. Windows 0 and 1 read ONE array, the embeddings: each holds it at
  half of the full share. Nothing is owed; the invariant is the scoped buffers no window stages.
-/
import proofs.«131017_j6536940224734_1_alg».proof.Proof.KI.Body
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as the host operations' valuation; -/
abbrev V0 (c : Dev nD) : Valuation τ sig (Elt F) := fun b => m ((c : Dev nD), b)
/-- and when the region is entered: the six operations before it have run. -/
abbrev V1 (c : Dev nD) (b : Ref sig .tc) : Buf (Elt F) ((c : Thread nD τ).loc b) := StableHlo.after hostOps0 (V0 m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The proof data of the one pipeline on core `c`. -/
def dats (_ : Fin 1) (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t)
    | ⟨6, _⟩ => out6 (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V1 m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) := by dsimp only [dats]
theorem after0_6 (c : Dev nD) (t : Fin cfg0.N) :
    (dats m 0 c).after 6 t = out6 (iblk m c 0 t) (iblk m c 1 t) (iblk m c 2 t) (iblk m c 3 t) (iblk m c 4 t) := by dsimp only [dats]

/-- The shares: the two windows on the embeddings split its full share; every other window holds its array whole. -/
theorem share0 (c : Dev nD) : (dats m 0 c).share 0 = fullShare.left := by
  unfold Dat.share; dsimp only [dats]; rfl
theorem share1 (c : Dev nD) : (dats m 0 c).share 1 = fullShare.right := by
  unfold Dat.share; dsimp only [dats]; rfl
theorem share2 (c : Dev nD) : (dats m 0 c).share 2 = fullShare := by
  unfold Dat.share; dsimp only [dats]; rfl
theorem share3 (c : Dev nD) : (dats m 0 c).share 3 = fullShare := by
  unfold Dat.share; dsimp only [dats]; rfl
theorem share4 (c : Dev nD) : (dats m 0 c).share 4 = fullShare := by
  unfold Dat.share; dsimp only [dats]; rfl
theorem share5 (c : Dev nD) : (dats m 0 c).share 5 = fullShare := by
  unfold Dat.share; dsimp only [dats]; rfl
theorem share6 (c : Dev nD) : (dats m 0 c).share 6 = fullShare := by
  unfold Dat.share; dsimp only [dats]; rfl

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-- What the body is called with at point `t`: the invariant, what the core owes, and each window's current staging buffer
    at what it then holds, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same invariant and debt, each buffer at what the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. The five input buffers hold their blocks, so the body's triple applies at those blocks; an output
    buffer holds SOME contents, which is all the triple asks of it. The invariant and the debt do not depend on the point
    and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The run of @main: six host operations, the kernel region, then twenty-seven host operations.

  Between two segments a core holds every unscoped buffer whole at a valuation: the launch contents (`V0`), then what the first six
  operations leave (`W1`), then — after the region — the same with the two result arrays at what the grid's write-backs leave
  (`W2`), then what each later stretch of operations leaves (`W3`, `W4`, `W5`). The region is entered by dealing the arrays
  out of those buffers — the embeddings' buffer, which two windows read, as two half shares — and left by putting them back.
-/
import proofs.«131017_j6536940224734_1_alg».proof.Proof.KI.Data
import Idealize.ShloMosaic.Lib.Pipeline.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-! ## The buffers' contents at the segment boundaries -/

/-- When the region is entered. -/
abbrev W1 (c : Dev nD) : Valuation τ sig (Elt F) := StableHlo.after hostOps0 (V0 m c)
/-- When it is left: the two result arrays at what the write-backs leave, every other buffer untouched. -/
def W2 (c : Dev nD) : Valuation τ sig (Elt F) :=
  Function.update (Function.update (W1 m c) (Proc.devRef .tc main_v5_0) ((dats m 0 c).arrAt 5 cfg0.N))
    (Proc.devRef .tc main_v5_1) ((dats m 0 c).arrAt 6 cfg0.N)
/-- After each later stretch of host operations. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)

/-! ## The segments -/

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h
theorem fresh1_2 : ∀ op ∈ (hostOps1_2 : List (HloOp τ sig (Elt F))), op.fresh = ∅ := by
  intro _ h; (repeat (cases h with | head => rfl | tail _ h => ?_)); exact nomatch h

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V0 m) R
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) fresh1 (W2 m) R
def seg2 : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h)) fresh1_1 (W3 m) R
def seg3 : Pipeline.HostSeg (Name := ℕ) (U := UR sig nD τ) (pcfgs (F := F)) defs₀ 𝒱₀ L lv :=
  Pipeline.HostSeg.ofOps _ _ _ _ _ (Pipeline.ucRefs τ sig) hostOps1_2
    (fun op h => Pipeline.sub_ucRefs op ((List.forall_iff_forall_mem.mp hostOps1_2_sub) op h)) fresh1_2 (W4 m) R

/-! ## Entering and leaving the region: the arrays dealt out of the buffers, and put back -/

/-- The buffers behind the seven windows' arrays are six: the embeddings' is named twice. -/
theorem arrRefs_eq : (Finset.univ.image (Pipeline.arrRef spec0) : Finset (Ref sig .tc))
    = [main_arg0, main_v2, main_v3, main_v4, main_v5_0, main_v5_1].toFinset := by decide

/-- A window's array is a whole buffer: held on all of its elements, it is the buffer's points-to. -/
theorem arr_pt (c : Dev nD) (w : Fin 7) (q : PosShare TreeShare) (G : Buf (Elt F) ((cfg0.win w).arr.view.loc (c.tc : Thread nD τ))) :
    ((cfg0.win w).arr.view.loc (c.tc : Thread nD τ) ↦[(cfg0.win w).arr.view.set]{q} G : sProp 𝕄)
      = ((c.tc : Thread nD τ).loc (Pipeline.arrRef spec0 w) ↦{q} G) := by
  rw [(arr_whole0 w).set_eq_univ]

/-- The pipeline's arrays at contents `G`, window by window: the embeddings' buffer at its two half shares, the other five
    buffers whole. -/
theorem arrays_chain (c : Dev nD) (G : (w : Fin cfg0.W) → Buf (Elt F) ((cfg0.win w).arr.view.loc (c.tc : Thread nD τ))) :
    ((dats m 0 c).arrays G : sProp 𝕄)
      = iprop(((c.tc : Thread nD τ).loc main_arg0 ↦{fullShare.left} G 0)
        ∗ ((c.tc : Thread nD τ).loc main_arg0 ↦{fullShare.right} G 1)
        ∗ ((c.tc : Thread nD τ).loc main_v2 ↦{fullShare} G 2)
        ∗ ((c.tc : Thread nD τ).loc main_v3 ↦{fullShare} G 3)
        ∗ ((c.tc : Thread nD τ).loc main_v4 ↦{fullShare} G 4)
        ∗ ((c.tc : Thread nD τ).loc main_v5_0 ↦{fullShare} G 5)
        ∗ ((c.tc : Thread nD τ).loc main_v5_1 ↦{fullShare} G 6)) := by
  unfold Dat.arrays
  rw [bigSep_W0, share0, share1, share2, share3, share4, share5, share6,
    arr_pt c 0, arr_pt c 1, arr_pt c 2, arr_pt c 3, arr_pt c 4, arr_pt c 5, arr_pt c 6]

/-- The six buffers behind them, each whole at contents `V`. -/
theorem arrBufs_chain (c : Dev nD) (V : (b : Ref sig .tc) → Buf (Elt F) ((c.tc : Thread nD τ).loc b)) :
    (Pipeline.arrBufs spec0 c V : sProp 𝕄)
      = iprop(((c.tc : Thread nD τ).loc main_arg0 ↦{fullShare} V main_arg0)
        ∗ ((c.tc : Thread nD τ).loc main_v2 ↦{fullShare} V main_v2)
        ∗ ((c.tc : Thread nD τ).loc main_v3 ↦{fullShare} V main_v3)
        ∗ ((c.tc : Thread nD τ).loc main_v4 ↦{fullShare} V main_v4)
        ∗ ((c.tc : Thread nD τ).loc main_v5_0 ↦{fullShare} V main_v5_0)
        ∗ ((c.tc : Thread nD τ).loc main_v5_1 ↦{fullShare} V main_v5_1)) := by
  unfold Pipeline.arrBufs
  rw [bigSep_eq_bigSepL_of_eq _ arrRefs_eq (by decide)]
  rfl

/-- The six buffers whole are the seven arrays, wherever each window's contents are its buffer's: the embeddings' full share is
    its two halves, which windows 0 and 1 hold at the same contents. -/
theorem arrBufs_arrays (c : Dev nD) (V : (b : Ref sig .tc) → Buf (Elt F) ((c.tc : Thread nD τ).loc b))
    (G : (w : Fin cfg0.W) → Buf (Elt F) ((cfg0.win w).arr.view.loc (c.tc : Thread nD τ)))
    (h0 : G 0 = V main_arg0) (h1 : G 1 = V main_arg0) (h2 : G 2 = V main_v2) (h3 : G 3 = V main_v3) (h4 : G 4 = V main_v4)
    (h5 : G 5 = V main_v5_0) (h6 : G 6 = V main_v5_1) :
    (Pipeline.arrBufs spec0 c V : sProp 𝕄) ⊣⊢ (dats m 0 c).arrays G := by
  rw [arrays_chain, arrBufs_chain, h0, h1, h2, h3, h4, h5, h6]
  constructor
  · iintro ⟨H0, H2, H3, H4, H5, H6⟩
    ihave H01 := (pointsTo_share (PosShare.mem_left_op_right fullShare)).1 $$ H0
    icases H01 with ⟨H0, H1⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    ihave H01 := (pointsTo_share (PosShare.mem_left_op_right fullShare)).2 $$ [H0 H1]
    · isplitl [H0]; · iexact H0
      iexact H1
    isplitl [H01]; · iexact H01
    isplitl [H2]; · iexact H2
    isplitl [H3]; · iexact H3
    isplitl [H4]; · iexact H4
    isplitl [H5]; · iexact H5
    iexact H6

/-- Before any write-back an array holds what the region found; -/
theorem arrAt_zero (c : Dev nD) (w : Fin cfg0.W) : (dats m 0 c).arrAt w 0 = V1 m c (Pipeline.arrRef spec0 w) :=
  (show (dats m 0 c).arrAt w 0 = (dats m 0 c).A w from rfl).trans (A_eq m c w)

/-- and an input array, never written, holds it at every point. -/
theorem arrAt_in (c : Dev nD) (w : Fin cfg0.W) (hin : (cfg0.win w).isOut = false) (t : Nat) :
    (dats m 0 c).arrAt w t = V1 m c (Pipeline.arrRef spec0 w) :=
  ((dats m 0 c).arrAt_in w hin t).trans (A_eq m c w)

/-- The two updates miss every buffer other than the two result arrays'; -/
theorem W2_of_ne (c : Dev nD) (b : Ref sig .tc) (h5 : b ≠ main_v5_0) (h6 : b ≠ main_v5_1) :
    W2 m c (Proc.devRef .tc b) = W1 m c (Proc.devRef .tc b) := by
  unfold W2
  rw [Function.update_of_ne (fun e => h6 (Proc.devRef_injective _ e)), Function.update_of_ne (fun e => h5 (Proc.devRef_injective _ e))]

/-- and at those two they leave what the write-backs left. -/
theorem W2_v5_0 (c : Dev nD) : W2 m c (Proc.devRef .tc main_v5_0) = (dats m 0 c).arrAt 5 cfg0.N := by
  unfold W2
  rw [Function.update_of_ne (fun e => absurd (Proc.devRef_injective _ e) (by decide)), Function.update_self]
theorem W2_v5_1 (c : Dev nD) : W2 m c (Proc.devRef .tc main_v5_1) = (dats m 0 c).arrAt 6 cfg0.N := by
  unfold W2
  rw [Function.update_self]

/-- So an input window's array ends at what `W2` has at its buffer. -/
theorem arrAt_N_in (c : Dev nD) (w : Fin cfg0.W) (hin : (cfg0.win w).isOut = false)
    (h5 : Pipeline.arrRef spec0 w ≠ main_v5_0) (h6 : Pipeline.arrRef spec0 w ≠ main_v5_1) :
    (dats m 0 c).arrAt w cfg0.N = W2 m c (Proc.devRef .tc (Pipeline.arrRef spec0 w)) :=
  (arrAt_in m c w hin _).trans (W2_of_ne m c _ h5 h6).symm

/-- ENTRY. The unscoped buffers at `W1` are the pipeline's arrays at their entry contents — the embeddings' buffer as the two
    half shares windows 0 and 1 hold — and the buffers no window names. -/
theorem arrays_in (c : Dev nD) :
    (StableHlo.held (c : Thread nD τ) (Pipeline.ucRefs τ sig) (W1 m c) : sProp 𝕄)
      ⊢ iprop((dats m 0 c).arrays ((dats m 0 c).arrAt · 0) ∗ Pipeline.unscopedRest spec0 c (V1 m c)) := by
  rw [← Pipeline.unscopedBufs_held c (W1 m c), Pipeline.unscopedBufs_split₀ cfgs 0 winFacts₀0.arr_unscoped c]
  exact BIClass.sep_mono
    (arrBufs_arrays m c (fun b => W1 m c (Proc.devRef .tc b)) (fun w => (dats m 0 c).arrAt w 0)
      (arrAt_zero m c 0) (arrAt_zero m c 1) (arrAt_zero m c 2) (arrAt_zero m c 3) (arrAt_zero m c 4) (arrAt_zero m c 5) (arrAt_zero m c 6)).1
    (Entails.of_eq rfl)

/-- EXIT. The arrays at their final contents and the buffers no window names are the unscoped buffers at `W2`. -/
theorem arrays_out (c : Dev nD) :
    iprop((dats m 0 c).arrays ((dats m 0 c).arrAt · cfg0.N) ∗ Pipeline.unscopedRest spec0 c (V1 m c))
      ⊢ (StableHlo.held (c : Thread nD τ) (Pipeline.ucRefs τ sig) (W2 m c) : sProp 𝕄) := by
  rw [← Pipeline.unscopedBufs_held c (W2 m c), Pipeline.unscopedBufs_split₀ cfgs 0 winFacts₀0.arr_unscoped c]
  refine BIClass.sep_mono
    (arrBufs_arrays m c (fun b => W2 m c (Proc.devRef .tc b)) (fun w => (dats m 0 c).arrAt w cfg0.N)
      (arrAt_N_in m c 0 rfl (by decide) (by decide)) (arrAt_N_in m c 1 rfl (by decide) (by decide))
      (arrAt_N_in m c 2 rfl (by decide) (by decide)) (arrAt_N_in m c 3 rfl (by decide) (by decide))
      (arrAt_N_in m c 4 rfl (by decide) (by decide)) (W2_v5_0 m c).symm (W2_v5_1 m c).symm).2 ?_
  unfold Pipeline.unscopedRest
  refine Entails.of_eq (bigSep_congr fun b hb => ?_)
  have hb' := (Finset.mem_sdiff.mp hb).2
  have h5 : b ≠ main_v5_0 := fun e => hb' (e ▸ Finset.mem_image.mpr ⟨5, Finset.mem_univ _, rfl⟩)
  have h6 : b ≠ main_v5_1 := fun e => hb' (e ▸ Finset.mem_image.mpr ⟨6, Finset.mem_univ _, rfl⟩)
  show ((c.tc : Thread nD τ).loc b ↦{fullShare} V1 m c b : sProp 𝕄) = ((c.tc : Thread nD τ).loc b ↦{fullShare} W2 m c (Proc.devRef .tc b))
  rw [W2_of_ne m c b h5 h6]

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := iprop(emp)
  Y _ := iprop(emp)
  Z c := Pipeline.unscopedRest spec0 c (V1 m c)
  hentry c := by
    iintro ⟨⟨Hub, HO⟩, -, -⟩
    ihave H := (arrays_in m c) $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    show iprop(emp ∗ _ ∗ Pipeline.scopedRest (Ix := Unit) (Name := ℕ) (U := UR sig nD τ) (Lvl := ℕ) (Val := Elt F) spec0 c)
      ⊢ Pipeline.scopedRest (Ix := Unit) (Name := ℕ) (U := UR sig nD τ) (Lvl := ℕ) (Val := Elt F) spec0 c
    iintro ⟨-, -, Hr⟩
    iexact Hr
  hout c := by
    rw [Pipeline.ownSems0_none]
    show Pipeline.scopedRest (Ix := Unit) (Name := ℕ) (U := UR sig nD τ) (Lvl := ℕ) (Val := Elt F) spec0 c
      ⊢ iprop(emp ∗ emp ∗ Pipeline.scopedRest (Ix := Unit) (Name := ℕ) (U := UR sig nD τ) (Lvl := ℕ) (Val := Elt F) spec0 c)
    iintro Hr
    isplitr; · iempintro
    isplitr; · iempintro
    iexact Hr
  hexit c := by
    iintro ⟨Ha, HO, -, HZ⟩
    imodintro
    isplitr [HO]
    · iapply (arrays_out m c)
      isplitl [Ha] <;> iassumption
    · unfold Pipeline.Dat.owesAt Pipeline.owesWithin
      icases HO with ⟨%W, -, HO⟩; iexists W; iexact HO

/-- @main as the list of its five segments. -/
abbrev segs : List (Pipeline.Seg (pcfgs (F := F)) adm (dats m) () defs₀ 𝒱₀ L lv) :=
  [.host (seg0 m), .region (reg0 m), .host (seg1 m), .host (seg2 m), .host (seg3 m)]

set_option backward.isDefEq.respectTransparency.types false in
/-- THE RUN. From any memory with zero counters every weakly fair execution of @main terminates, nothing faulting, and every
    unscoped buffer of every core ends at `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 m c b) :=
  Pipeline.θ_run_regions_kit (pcfgs (F := F)) adm (dats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2 ] from rfl]
      exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = W5 m c b)
    (hfin := fun c s' => by
      unfold StableHlo.held
      iintro ⟨Hh, HSI⟩
      ihave Hr := (pointsTo_read_all (Pipeline.ucRefs τ sig) (fun b => ((c : Thread nD τ).1, b)) (W5 m c) s') $$ [Hh HSI]
      · isplitl [Hh] <;> iassumption
      icases Hr with ⟨%h, HSI⟩
      imodintro
      isplitr
      · ipureintro; exact h
      · iexact HSI)
    (hQ := fun _ h => h)

end Cert.KernelIdeal.Hand

end
-- ==== Proof.KI.Tail.lean ====
/-
  What the buffers hold at the end of @main (`W5`), read at the results and at the arguments.

  No host operation writes an argument array or the distance array, so those end as the region left them. The twenty-seven
  operations after the region slice the statistics array into its four columns and compute, from the first three, the loss
  (`lossOf`) and, from the fourth compared with 1.0, the count (`cntOf`).
-/
import proofs.«131017_j6536940224734_1_alg».proof.Proof.KI.Run
import proofs.«131017_j6536940224734_1_alg».proof.Proof.HostChain
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Column `k` of a [4096, 4] array, as a vector. -/
def colOf (st : FVec F S4096x4 .f32) (k : Fin 4) : FVec F S4096 .f32 := fun i => st (ix2 (i 0) k)

/-- The statistics array as the region leaves it. -/
abbrev statArr (c : Dev nD) : FVec F S4096x4 .f32 := (dats m 0 c).arrAt 6 cfg0.N

/-! ## What no operation writes -/

/-- The first stretch writes its six results only. -/
theorem nw0 (b : Ref sig .tc)
    (hb : b ≠ main_v0 ∧ b ≠ main_cst ∧ b ≠ main_v1 ∧ b ≠ main_v2 ∧ b ≠ main_v3 ∧ b ≠ main_v4) :
    ∀ op ∈ (hostOps0 (F := F)), Proc.devRef (τ := τ) .tc b ∉ op.writes := by
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The stretch after the region writes its fourteen results only. -/
theorem nw1 (b : Ref sig .tc)
    (hb : b ≠ main_v6 ∧ b ≠ main_v7 ∧ b ≠ main_v8 ∧ b ≠ main_v9 ∧ b ≠ main_v10 ∧ b ≠ main_v11 ∧ b ≠ main_v12 ∧ b ≠ main_v13
      ∧ b ≠ main_v14 ∧ b ≠ main_v15 ∧ b ≠ main_v16 ∧ b ≠ main_cst_0 ∧ b ≠ main_v17 ∧ b ≠ main_v18) :
    ∀ op ∈ (hostOps1 (F := F)), Proc.devRef (τ := τ) .tc b ∉ op.writes := by
  obtain ⟨h0, h1, h2, h3, h4, h5, h6, h7, h8, h9, h10, h11, h12, h13⟩ := hb
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The inlined function writes its three values only. -/
theorem nw1_1 (b : Ref sig .tc) (hb : b ≠ main_call0_cst ∧ b ≠ main_call0_v0 ∧ b ≠ main_v19) :
    ∀ op ∈ (hostOps1_1 (F := F)), Proc.devRef (τ := τ) .tc b ∉ op.writes := by
  obtain ⟨h0, h1, h2⟩ := hb
  intro op hop
  simp only [List.mem_cons, List.mem_nil_iff, or_false] at hop
  rcases hop with rfl | rfl | rfl <;>
    simp only [StableHlo.unary_writes, StableHlo.binary_writes, StableHlo.nullary_writes, Finset.mem_singleton] <;>
    exact StableHlo.devRef_ne_of_ne ‹_›

/-- The last stretch writes its ten results only. -/
theorem nw1_2 (b : Ref sig .tc)
    (hb : b ≠ main_cst_1 ∧ b ≠ main_v20 ∧ b ≠ main_cst_2 ∧ b ≠ main_v21 ∧ b ≠ main_cst_3 ∧ b ≠ main_v22 ∧ b ≠ main_v23
      ∧ b ≠ main_v24 ∧ b ≠ main_c ∧ b ≠ main_v25) :
    ∀ op ∈ (hostOps1_2 (F := F)), Proc.devRef (τ := τ) .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- A buffer none of the twenty-seven later operations writes ends as the region left it. -/
theorem W5_eq_W2 (c : Dev nD) (b : Ref sig .tc)
    (h1 : b ≠ main_v6 ∧ b ≠ main_v7 ∧ b ≠ main_v8 ∧ b ≠ main_v9 ∧ b ≠ main_v10 ∧ b ≠ main_v11 ∧ b ≠ main_v12 ∧ b ≠ main_v13
      ∧ b ≠ main_v14 ∧ b ≠ main_v15 ∧ b ≠ main_v16 ∧ b ≠ main_cst_0 ∧ b ≠ main_v17 ∧ b ≠ main_v18)
    (h2 : b ≠ main_call0_cst ∧ b ≠ main_call0_v0 ∧ b ≠ main_v19)
    (h3 : b ≠ main_cst_1 ∧ b ≠ main_v20 ∧ b ≠ main_cst_2 ∧ b ≠ main_v21 ∧ b ≠ main_cst_3 ∧ b ≠ main_v22 ∧ b ≠ main_v23
      ∧ b ≠ main_v24 ∧ b ≠ main_c ∧ b ≠ main_v25) :
    W5 m c (Proc.devRef .tc b) = W2 m c (Proc.devRef .tc b) := by
  show StableHlo.after hostOps1_2 (W4 m c) (Proc.devRef .tc b) = _
  rw [StableHlo.after_of_forall_not_mem hostOps1_2 _ (nw1_2 b h3)]
  show StableHlo.after hostOps1_1 (W3 m c) (Proc.devRef .tc b) = _
  rw [StableHlo.after_of_forall_not_mem hostOps1_1 _ (nw1_1 b h2)]
  show StableHlo.after hostOps1 (W2 m c) (Proc.devRef .tc b) = _
  rw [StableHlo.after_of_forall_not_mem hostOps1 _ (nw1 b h1)]

/-- An argument array is as launched when the region is left: nothing before writes it and the region's results are other
    buffers. -/
theorem W2_of_arg (c : Dev nD) (b : Ref sig .tc) (h5 : b ≠ main_v5_0 ∧ b ≠ main_v5_1)
    (h0 : b ≠ main_v0 ∧ b ≠ main_cst ∧ b ≠ main_v1 ∧ b ≠ main_v2 ∧ b ≠ main_v3 ∧ b ≠ main_v4) :
    W2 m c (Proc.devRef .tc b) = m ((c : Thread nD τ).loc b) := by
  unfold W2
  rw [Function.update_of_ne (StableHlo.devRef_ne_of_ne h5.2), Function.update_of_ne (StableHlo.devRef_ne_of_ne h5.1)]
  exact StableHlo.after_of_forall_not_mem (b := Proc.devRef .tc b) hostOps0 (V0 m c) (nw0 b h0)

/-- The arguments end as launched. -/
theorem W5_arg0 (c : Dev nD) : W5 m c (Proc.devRef .tc main_arg0) = m ((c : Thread nD τ).loc main_arg0) := by
  rw [W5_eq_W2 m c main_arg0 (by decide) (by decide) (by decide)]
  exact W2_of_arg m c main_arg0 (by decide) (by decide)
theorem W5_arg1 (c : Dev nD) : W5 m c (Proc.devRef .tc main_arg1) = m ((c : Thread nD τ).loc main_arg1) := by
  rw [W5_eq_W2 m c main_arg1 (by decide) (by decide) (by decide)]
  exact W2_of_arg m c main_arg1 (by decide) (by decide)

/-- The distance array ends as the region left it. -/
theorem W5_v5_0 (c : Dev nD) : W5 m c (Proc.devRef .tc main_v5_0) = (dats m 0 c).arrAt 5 cfg0.N := by
  rw [W5_eq_W2 m c main_v5_0 (by decide) (by decide) (by decide)]
  unfold W2
  rw [Function.update_of_ne (StableHlo.devRef_ne_of_ne (by decide)), Function.update_self]

/-! ## The columns of the statistics array -/

/-- Column `k` cut out of the array and flattened is column `k` as a vector: the flattened index `i` is row `i` of the
    one-column slice, which is entry `(i, k)` of the array. -/
theorem col_read (st : FVec F S4096x4 .f32) (k : Fin 4) (hs : S4096x4.Slices ![0, k.val] S4096x1)
    (hc : S4096x1.ShapeCasts S4096) :
    shapeCast S4096 (extractStridedSlice S4096x1 ![0, k.val] st hs) hc = colOf st k := by
  funext i
  refine (shapeCast_apply _ hc i (ix2 (i 0) (0 : Fin 1)) ?_).trans ?_
  · rw [Shape.rowMajor_val_two, Shape.rowMajor_val_one]
    show (i 0).val * 1 + 0 = (i 0).val
    omega
  · exact slice2_axis1_apply k.val st hs (i 0) (0 : Fin 1) k (by show k.val = k.val + 0; omega)

/-! ## The three later stretches, each from any contents before it -/

section Layers

variable (W : Valuation τ sig (Elt F))

/-- The fourth column reaches `%13`. -/
theorem L1_v13 :
    StableHlo.after hostOps1 W (Proc.devRef .tc main_v13) = colOf (W (Proc.devRef .tc main_v5_1)) 3 := by
  after_results
  exact col_read (W (Proc.devRef .tc main_v5_1)) 3 slices_S4096x4_S4096x1_0_3 shapeCasts_S4096x1_S4096

/-- `%18` is the hinge's argument, from the first three columns. -/
theorem L1_v18 :
    StableHlo.after hostOps1 W (Proc.devRef .tc main_v18)
      = addf (subf (colOf (W (Proc.devRef .tc main_v5_1)) 0)
            (Host.absf (subf (colOf (W (Proc.devRef .tc main_v5_1)) 1) (colOf (W (Proc.devRef .tc main_v5_1)) 2))))
          (broadcastInDim S4096 ![] bcast_S_S4096 (constant (F := F) S_ .f32 0x3E99999A#32)) := by
  after_results
  rw [← col_read (W (Proc.devRef .tc main_v5_1)) 0 slices_S4096x4_S4096x1_0_0 shapeCasts_S4096x1_S4096,
    ← col_read (W (Proc.devRef .tc main_v5_1)) 1 slices_S4096x4_S4096x1_0_1 shapeCasts_S4096x1_S4096,
    ← col_read (W (Proc.devRef .tc main_v5_1)) 2 slices_S4096x4_S4096x1_0_2 shapeCasts_S4096x1_S4096]
  rfl

/-- The inlined function clamps `%18` below at zero. -/
theorem L2_v19 :
    StableHlo.after hostOps1_1 W (Proc.devRef .tc main_v19)
      = maximumf (W (Proc.devRef .tc main_v18)) (broadcastInDim S4096 ![] bcast_S_S4096 (constant (F := F) S_ .f32 0x00000000#32)) := by
  after_results
  rfl

/-- and leaves `%13` alone. -/
theorem L2_v13 : StableHlo.after hostOps1_1 W (Proc.devRef .tc main_v13) = W (Proc.devRef .tc main_v13) :=
  StableHlo.after_of_forall_not_mem (b := Proc.devRef .tc main_v13) hostOps1_1 W (nw1_1 main_v13 (by decide))

/-- `%21` is the sum of `%19` over the rows, divided by 4096. -/
theorem L3_v21 :
    StableHlo.after hostOps1_2 W (Proc.devRef .tc main_v21)
      = Host.divf (Host.reduceAdd (W (Proc.devRef .tc main_v19)) (constant (F := F) S_ .f32 0x00000000#32) reducesTo_S4096_S_d0 h_S_)
          (constant (F := F) S_ .f32 0x45800000#32) := by
  after_results

/-- `%25` is the number of rows at which `%13` equals 1.0. -/
theorem L3_v25 :
    StableHlo.after hostOps1_2 W (Proc.devRef .tc main_v25)
      = Host.reduce IntOp.addi
          (extui 32 (cmpf .oeq (W (Proc.devRef .tc main_v13))
            (broadcastInDim S4096 ![] bcast_S_S4096 (constant (F := F) S_ .f32 0x3F800000#32))) natLt_1_32)
          (constantI S_ 32 0#32) reducesTo_S4096_S_d0 h_S_ := by
  after_results

end Layers

/-- The statistics array is what the region leaves in its second result buffer. -/
theorem W2_stat (c : Dev nD) : W2 m c (Proc.devRef .tc main_v5_1) = statArr m c := by
  unfold W2
  rw [Function.update_self]

/-- The loss. -/
theorem W5_v21 (c : Dev nD) :
    W5 m c (Proc.devRef .tc main_v21)
      = Cert.TripletSpec.lossOf (F := F) bcast_S_S4096 reducesTo_S4096_S_d0 h_S_
          (colOf (statArr m c) 0) (colOf (statArr m c) 1) (colOf (statArr m c) 2) := by
  show StableHlo.after hostOps1_2 (W4 m c) (Proc.devRef .tc main_v21) = _
  rw [L3_v21]
  show Host.divf (Host.reduceAdd (StableHlo.after hostOps1_1 (W3 m c) (Proc.devRef .tc main_v19)) _ _ _) _ = _
  rw [L2_v19]
  show Host.divf (Host.reduceAdd (maximumf (StableHlo.after hostOps1 (W2 m c) (Proc.devRef .tc main_v18)) _) _ _ _) _ = _
  rw [L1_v18, W2_stat]
  rfl

/-- The count. -/
theorem W5_v25 (c : Dev nD) :
    W5 m c (Proc.devRef .tc main_v25)
      = Cert.TripletSpec.cntOf reducesTo_S4096_S_d0 h_S_ natLt_1_32
          (cmpf .oeq (colOf (statArr m c) 3) (broadcastInDim S4096 ![] bcast_S_S4096 (constant (F := F) S_ .f32 0x3F800000#32))) := by
  show StableHlo.after hostOps1_2 (W4 m c) (Proc.devRef .tc main_v25) = _
  rw [L3_v25]
  show Host.reduce IntOp.addi (extui 32 (cmpf .oeq (StableHlo.after hostOps1_1 (W3 m c) (Proc.devRef .tc main_v13)) _) _) _ _ _ = _
  rw [L2_v13]
  show Host.reduce IntOp.addi (extui 32 (cmpf .oeq (StableHlo.after hostOps1 (W2 m c) (Proc.devRef .tc main_v13)) _) _) _ _ _ = _
  rw [L1_v13, W2_stat]
  rfl

end Cert.KernelIdeal.Hand

end
-- ==== Proof.KI.Frame.lean ====
/-
  The frame: @main runs to the end, nothing faulting, and the two argument arrays end as launched — no host operation writes
  them and the kernel region only reads the embeddings.
-/
import proofs.«131017_j6536940224734_1_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_ucRefs (b : Ref sig .tc) (hb : (Proc.devRef (τ := τ) .tc b).isScoped = false) :
    Proc.devRef (τ := τ) .tc b ∈ Pipeline.ucRefs τ sig :=
  Finset.mem_filter.mpr ⟨StableHlo.devRef_mem_tcRefs b, by simp [hb]⟩

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c (Proc.devRef .tc main_arg0) (mem_ucRefs main_arg0 (by decide))).trans (W5_arg0 m c),
       (h c (Proc.devRef .tc main_arg1) (mem_ucRefs main_arg1 (by decide))).trans (W5_arg1 m c)⟩)
    (run_main m ρ)

end Cert.KernelIdeal.Hand

end
-- ==== Proof.KI.Pay.lean ====
/-
  The body's stored values read at an index, over the extended reals.

  For a row `r` of the 128-row block and a column `j`: the distance entry is
  `√(max ((Σ_k x0[r,k]² + x2[0,j]) − 2·Σ_k x0[r,k]·x1[j,k]) 0)`; the label masks compare `x4[0,j]` with `x3[r,0]`; the hardest
  positive is the maximum over `j` (from `−∞`) of the distance where the labels agree; the nearest negatives are minima over `j`
  (from `+∞`), with 10000 in place of `+∞`; the count is the sum over `j` of the equal-label bits as reals.
-/
import proofs.«131017_j6536940224734_1_alg».proof.Proof.Gen.KernelIdeal.Skeleton
import proofs.«131017_j6536940224734_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.TripletSpec (wZero wTwo wNegInf wPosInf wBig wOne)

/-! ### Layout and row-reduction readings used below -/

section RowForms
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the second axis of an `[a, b]` array, the source index above row `r` with coordinate `k` inserted is `(r, k)`. -/
theorem lift_row {a b : ℕ} (h : Shape.Reduces ⟨2, ![a, b]⟩ [1] ⟨1, ![a]⟩) (r : Fin a) (k : Fin b) :
    h.lift (ix1 r) k = ix2 r k :=
  funext fun c => Fin.ext (match c with | ⟨0, _⟩ => rfl | ⟨1, _⟩ => rfl)

end RowForms

/-- A row sum: the lane sum of an `[a, b]` array at row `r` is the sum over the row. -/
theorem multiReduction_add_row {φ : FTy} {a b : ℕ} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A row maximum: the fold of `max` from the accumulator's value over the row. -/
theorem multiReduction_maximumf_row {φ : FTy} {a b : ℕ} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => (Finset.univ : Finset (Fin b)).fold max (Ideal.ofBits φ acc) f)
      (funext fun k => congrArg src (lift_row h r k)))

/-- A row minimum: the fold of `min` from the accumulator's value over the row. -/
theorem multiReduction_minimumf_row {φ : FTy} {a b : ℕ} (src : FVec Ideal ⟨2, ![a, b]⟩ φ) (acc : BitVec φ.bits)
    (h : Shape.Reduces ⟨2, ![a, b]⟩ [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  refine (multiReduction_minimumf_eq_fold src acc h hφ hacc (ix1 r)).trans ?_
  refine (h.fold_filter_drop_single _ _ src (ix1 r)).trans ?_
  exact congrArg (fun f => (Finset.univ : Finset (Fin b)).fold min (Ideal.ofBits φ acc) f)
    (funext fun k => congrArg src (lift_row h r k))

/-- The pointwise square root and integer compare read at an index. -/
theorem sqrt_apply {s : Shape} {φ : FTy} (a : FVec Ideal s φ) (i : s.Idx) : sqrt a i = Ideal.sqrt (a i) := rfl
theorem cmpi_apply {s : Shape} {w : ℕ} (p : CmpIPredicate) (a b : IVec s w) (i : s.Idx) : cmpi p a b i = IntOp.cmpi p (a i) (b i) := rfl

/-! ### The product of the block's rows with every row -/

theorem lhs_dot_0 (i : S128x4096.Idx) (q : dot_S128x256_S4096x256_S128x4096_1_1_0_0_n_n.contr.Idx) :
    (dot_S128x256_S4096x256_S128x4096_1_1_0_0_n_n.lhsIdx i q 0).val = (i 0).val := by
  unfold DotDims.lhsIdx
  rw [dif_neg (show ¬(0 : Fin S128x256.rank) ∈ dot_S128x256_S4096x256_S128x4096_1_1_0_0_n_n.lhsBatch by decide), dif_pos (show (0 : Fin S128x256.rank) ∈ dot_S128x256_S4096x256_S128x4096_1_1_0_0_n_n.lhsNonContracting by decide)]
  rfl
theorem lhs_dot_1 (i : S128x4096.Idx) (q : dot_S128x256_S4096x256_S128x4096_1_1_0_0_n_n.contr.Idx) :
    (dot_S128x256_S4096x256_S128x4096_1_1_0_0_n_n.lhsIdx i q 1).val = (q ⟨0, by decide⟩).val :=
  dot_S128x256_S4096x256_S128x4096_1_1_0_0_n_n.lhsIdx_val_of_single rfl i q
theorem rhs_dot_0 (i : S128x4096.Idx) (q : dot_S128x256_S4096x256_S128x4096_1_1_0_0_n_n.contr.Idx) :
    (dot_S128x256_S4096x256_S128x4096_1_1_0_0_n_n.rhsIdx i q 0).val = (i 1).val := by
  unfold DotDims.rhsIdx
  rw [dif_neg (show ¬(0 : Fin S4096x256.rank) ∈ dot_S128x256_S4096x256_S128x4096_1_1_0_0_n_n.rhsBatch by decide), dif_pos (show (0 : Fin S4096x256.rank) ∈ dot_S128x256_S4096x256_S128x4096_1_1_0_0_n_n.rhsNonContracting by decide)]
  rfl
theorem rhs_dot_1 (i : S128x4096.Idx) (q : dot_S128x256_S4096x256_S128x4096_1_1_0_0_n_n.contr.Idx) :
    (dot_S128x256_S4096x256_S128x4096_1_1_0_0_n_n.rhsIdx i q 1).val = (q ⟨0, by decide⟩).val :=
  dot_S128x256_S4096x256_S128x4096_1_1_0_0_n_n.rhsIdx_val_of_single rfl i q

/-- Into the zero accumulator the product at `(r, j)` is the inner product of row `r` of the block with row `j` of the whole. -/
theorem matmul_rows_apply (x0 : FVec Ideal S128x256 .f32) (x1 : FVec Ideal S4096x256 .f32) (r : Fin 128) (j : Fin 4096) :
    matmul dot_S128x256_S4096x256_S128x4096_1_1_0_0_n_n (some .fp32) x0 x1 (constant (F := Ideal) S128x4096 .f32 0x00000000#32) (ix2 r j)
      = ∑ k : Fin 256, x0 (ix2 r k) * x1 (ix2 j k) := by
  simp only [matmul]
  rw [Ideal.matmul_constant_zero_apply, ← Equiv.sum_comp (contrEquiv1 dot_S128x256_S4096x256_S128x4096_1_1_0_0_n_n 256 rfl rfl).symm]
  refine Finset.sum_congr rfl fun k _ => ?_
  have hk := contrEquiv1_symm_val dot_S128x256_S4096x256_S128x4096_1_1_0_0_n_n 256 rfl rfl k
  have el : dot_S128x256_S4096x256_S128x4096_1_1_0_0_n_n.lhsIdx (ix2 r j) ((contrEquiv1 dot_S128x256_S4096x256_S128x4096_1_1_0_0_n_n 256 rfl rfl).symm k) = ix2 r k := funext fun a => Fin.ext (by
    match a with
    | ⟨0, _⟩ => exact lhs_dot_0 _ _
    | ⟨1, _⟩ => exact (lhs_dot_1 _ _).trans hk)
  have er : dot_S128x256_S4096x256_S128x4096_1_1_0_0_n_n.rhsIdx (ix2 r j) ((contrEquiv1 dot_S128x256_S4096x256_S128x4096_1_1_0_0_n_n 256 rfl rfl).symm k) = ix2 j k := funext fun a => Fin.ext (by
    match a with
    | ⟨0, _⟩ => exact rhs_dot_0 _ _
    | ⟨1, _⟩ => exact (rhs_dot_1 _ _).trans hk)
  rw [el, er]

/-- A label compare of the broadcast row of labels against the broadcast column of labels, read at `(r, j)`. -/
theorem label_mask_apply (p : CmpIPredicate) (x3 : Vec Ideal S128x1 .i32) (x4 : Vec Ideal S1x4096 .i32) (r : Fin 128) (j : Fin 4096) :
    cmpi p (broadcastTo S128x4096 (k0_pay6 (F := Ideal) x4) broadcasts_S1x4096_S128x4096)
        (broadcastTo S128x4096 (k0_pay5 (F := Ideal) x3) broadcasts_S128x1_S128x4096) (ix2 r j)
      = IntOp.cmpi p (x4 (ix2 (0 : Fin 1) j)) (x3 (ix2 r (0 : Fin 1))) := by
  unfold k0_pay6 k0_pay5
  rw [cmpi_apply, shapeCast_self, shapeCast_self, broadcastTo_1b_ab_apply, broadcastTo_a1_ab_apply]

/-- The distance block's entry. -/
theorem pay4_apply (x0 : Vec Ideal S128x256 .f32) (x1 : Vec Ideal S4096x256 .f32) (x2 : Vec Ideal S1x4096 .f32) (r : Fin 128) (j : Fin 4096) :
    k0_pay4 (F := Ideal) x0 x1 x2 (ix2 r j)
      = Ideal.sqrt (max (((∑ k : Fin 256, x0 (ix2 r k) * x0 (ix2 r k)) + x2 (ix2 (0 : Fin 1) j))
          - wTwo * ∑ k : Fin 256, x0 (ix2 r k) * x1 (ix2 j k)) wZero) := by
  unfold k0_pay4
  rw [sqrt_apply, maximumf_apply, subf_apply, mulf_apply, addf_apply, broadcast_apply, broadcast_apply,
    broadcastTo_a1_ab_apply, broadcastTo_1b_ab_apply, shapeCast_a_a1_apply, shapeCast_self, matmul_rows_apply]
  exact congrArg (fun m => Ideal.sqrt (max ((m + x2 (ix2 (0 : Fin 1) j)) - wTwo * ∑ k : Fin 256, x0 (ix2 r k) * x1 (ix2 j k)) wZero))
    (multiReduction_add_row (mulf x0 x0) _ reduces_S128x256_S128 _ _ r)

/-- The label masks' entries: column `j`'s label against row `r`'s. -/
theorem pay7_apply (x3 : Vec Ideal S128x1 .i32) (x4 : Vec Ideal S1x4096 .i32) (r : Fin 128) (j : Fin 4096) :
    k0_pay7 (F := Ideal) x3 x4 (ix2 r j) = IntOp.cmpi .eq (x4 (ix2 (0 : Fin 1) j)) (x3 (ix2 r (0 : Fin 1))) := by
  unfold k0_pay7
  exact label_mask_apply .eq x3 x4 r j
theorem pay8_apply (x3 : Vec Ideal S128x1 .i32) (x4 : Vec Ideal S1x4096 .i32) (r : Fin 128) (j : Fin 4096) :
    k0_pay8 (F := Ideal) x3 x4 (ix2 r j) = IntOp.cmpi .slt (x4 (ix2 (0 : Fin 1) j)) (x3 (ix2 r (0 : Fin 1))) := by
  unfold k0_pay8
  exact label_mask_apply .slt x3 x4 r j

/-- The hardest positive of row `r`. -/
theorem pay9_apply (x0 : Vec Ideal S128x256 .f32) (x1 : Vec Ideal S4096x256 .f32) (x2 : Vec Ideal S1x4096 .f32)
    (x3 : Vec Ideal S128x1 .i32) (x4 : Vec Ideal S1x4096 .i32) (r : Fin 128) :
    k0_pay9 (F := Ideal) x0 x1 x2 x3 x4 (ix2 r (0 : Fin 1))
      = (Finset.univ : Finset (Fin 4096)).fold max wNegInf fun j =>
          Scalar.select (IntOp.cmpi .eq (x4 (ix2 (0 : Fin 1) j)) (x3 (ix2 r (0 : Fin 1)))) (k0_pay4 (F := Ideal) x0 x1 x2 (ix2 r j)) wNegInf := by
  unfold k0_pay9
  rw [shapeCast_a_a1_apply]
  refine (multiReduction_maximumf_row _ _ reduces_S128x4096_S128 _ _ r).trans ?_
  refine congrArg (fun f => (Finset.univ : Finset (Fin 4096)).fold max wNegInf f) (funext fun j => ?_)
  rw [select_apply, broadcast_apply, pay7_apply]
  rfl

/-- The nearest negative above of row `r`, before the sentinel. -/
theorem pay10_apply (x0 : Vec Ideal S128x256 .f32) (x1 : Vec Ideal S4096x256 .f32) (x2 : Vec Ideal S1x4096 .f32)
    (x3 : Vec Ideal S128x1 .i32) (x4 : Vec Ideal S1x4096 .i32) (r : Fin 128) :
    k0_pay10 (F := Ideal) x0 x1 x2 x3 x4 (ix1 r)
      = (Finset.univ : Finset (Fin 4096)).fold min wPosInf fun j =>
          Scalar.select (IntOp.cmpi .sgt (x4 (ix2 (0 : Fin 1) j)) (x3 (ix2 r (0 : Fin 1)))) (k0_pay4 (F := Ideal) x0 x1 x2 (ix2 r j)) wPosInf := by
  unfold k0_pay10
  refine (multiReduction_minimumf_row _ _ reduces_S128x4096_S128 _ _ r).trans ?_
  refine congrArg (fun f => (Finset.univ : Finset (Fin 4096)).fold min wPosInf f) (funext fun j => ?_)
  rw [select_apply, broadcast_apply, label_mask_apply]
  rfl

/-- The sentinel: 10000 where the minimum is `+∞`. -/
theorem pay1_apply (v37 : FVec Ideal S128 .f32) (r : Fin 128) :
    k0_pay1 (F := Ideal) v37 (ix2 r (0 : Fin 1)) = Scalar.select (Ideal.cmp .oeq (v37 (ix1 r)) wPosInf) wBig (v37 (ix1 r)) := by
  unfold k0_pay1
  rw [select_apply, cmpf_apply, broadcast_apply, broadcast_apply, shapeCast_a_a1_apply]
  rfl

/-- The nearest negative below of row `r`, with the sentinel, from the distance block and the mask. -/
theorem pay2_apply (v16 : FVec Ideal S128x4096 .f32) (v30 : IVec S128x4096 1) (r : Fin 128) :
    k0_pay2 (F := Ideal) v16 v30 (ix2 r (0 : Fin 1))
      = Scalar.select (Ideal.cmp .oeq
            ((Finset.univ : Finset (Fin 4096)).fold min wPosInf fun j => Scalar.select (v30 (ix2 r j)) (v16 (ix2 r j)) wPosInf) wPosInf) wBig
          ((Finset.univ : Finset (Fin 4096)).fold min wPosInf fun j => Scalar.select (v30 (ix2 r j)) (v16 (ix2 r j)) wPosInf) := by
  unfold k0_pay2
  rw [select_apply, cmpf_apply, broadcast_apply, broadcast_apply, shapeCast_a_a1_apply]
  exact congrArg (fun m => Scalar.select (Ideal.cmp .oeq m wPosInf) wBig m)
    (multiReduction_minimumf_row (select v30 v16 (broadcast S128x4096 wPosInf)) _ reduces_S128x4096_S128 _ _ r)

/-- The count of row `r`: the equal-label bits, each widened to a word and read as a real, summed. -/
theorem pay3_apply (v24 : IVec S128x4096 1) (r : Fin 128) :
    k0_pay3 (F := Ideal) v24 (ix2 r (0 : Fin 1)) = ∑ j : Fin 4096, (((((v24 (ix2 r j)).setWidth 32).toInt : ℤ) : ℝ) : EReal) := by
  unfold k0_pay3
  rw [shapeCast_a_a1_apply]
  exact multiReduction_add_row (sitofp .f32 (extui 32 v24 natLt_1_32)) _ reduces_S128x4096_S128 _ _ r

end Cert.KernelIdeal.Hand

end
-- ==== Proof.SpecLemmas.lean ====
/-
  Facts about the specification that join the two programs' spellings.

  A distance is never negative, so the least distance over a row (a minimum of distances and `+∞`) is never `−∞`, and
  "its absolute value is `+∞`" (the reference's `isinf`) says the same as "it is `+∞`" (the kernel's compare).
  The count of a row's equal labels, summed as reals (each bit widened to a word, read signed, as a real) is the count summed
  as 32-bit words (at most 4096 of them: no wrap-around); so "the real sum equals 1.0" and "the word sum equals 1" are one bit.
-/
import proofs.«131017_j6536940224734_1_alg».proof.Proof.Spec
import Idealize.ShloMosaic.PureOps.Ideal.Laws
import Idealize.ShloMosaic.Lib.StableHlo.Predicate

noncomputable section

namespace Cert.TripletSpec

open Idealize.ShloMosaic Idealize.ShloMosaic.ValueIdx

variable (x : SX.Idx → EReal) (tg : ST.Idx → BitVec 32)

/-- The literal words' values. -/
theorem wZero_eq : wZero = (0 : EReal) := by simp [wZero, Ideal.ofBits, Ideal.ieee]
theorem wOne_eq : wOne = ((1 : ℝ) : EReal) := by
  simp [wOne, Ideal.ofBits, Ideal.ieee, -EReal.coe_mul]; norm_num
theorem wPosInf_eq : wPosInf = (⊤ : EReal) := by simp [wPosInf, Ideal.ofBits, Ideal.ieee]
theorem wNegInf_eq : wNegInf = (⊥ : EReal) := by simp [wNegInf, Ideal.ofBits, Ideal.ieee]

/-- The square root of a nonnegative extended real is nonnegative. -/
theorem sqrt_nonneg_of_nonneg {a : EReal} (ha : 0 ≤ a) : 0 ≤ Ideal.sqrt a := by
  induction a using EReal.rec with
  | bot => simp at ha
  | top => simp
  | coe r =>
    have hr : 0 ≤ r := EReal.coe_nonneg.mp ha
    rw [Ideal.sqrt_coe, if_neg (not_lt.mpr hr)]
    exact EReal.coe_nonneg.mpr (Real.sqrt_nonneg r)

/-- A distance is not negative. -/
theorem dist_nonneg (i j : Fin 4096) : 0 ≤ dist x i j := by
  unfold dist
  apply sqrt_nonneg_of_nonneg
  rw [wZero_eq]
  exact le_max_right _ _

/-- The least distance over the columns a mask selects is not negative. -/
theorem anRaw_nonneg (M : Fin 4096 → Fin 4096 → BitVec 1) (i : Fin 4096) : 0 ≤ anRaw x M i := by
  unfold anRaw
  rw [Finset.le_fold_min]
  refine ⟨?_, fun j _ => ?_⟩
  · rw [wPosInf_eq]; exact le_top
  · unfold Scalar.select
    split
    · exact dist_nonneg x i j
    · rw [wPosInf_eq]; exact le_top

/-- For a nonnegative extended real, "its absolute value (`max a (−a)`) is `+∞`" and "it is `+∞`" are one bit. -/
theorem cmp_abs_posInf {a : EReal} (ha : 0 ≤ a) :
    Ideal.cmp .oeq (max a (-a)) wPosInf = Ideal.cmp .oeq a wPosInf := by
  have h : -a ≤ a := le_trans (EReal.neg_le_zero.mpr ha) ha
  rw [max_eq_left h]

/-- So the reference's selection by `isinf` is the specification's `an`. -/
theorem an_of_abs (M : Fin 4096 → Fin 4096 → BitVec 1) (i : Fin 4096) :
    Scalar.select (Ideal.cmp .oeq (max (anRaw x M i) (-(anRaw x M i))) wPosInf) wBig (anRaw x M i) = an x M i := by
  rw [cmp_abs_posInf (anRaw_nonneg x M i)]
  rfl

/-- A bit widened to a word and read signed is 1 when set and 0 when clear. -/
theorem bit_toInt (b : BitVec 1) : ((b.setWidth 32).toInt : ℤ) = if b = 1#1 then 1 else 0 := by
  revert b; decide

/-- The coercion of reals into the extended reals goes through a finite sum. -/
theorem coe_sum_real {ι : Type} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- The equal-label bits of a row, each widened to a word, read signed and as a real, sum to the count. -/
theorem sum_bits_real (i : Fin 4096) :
    (∑ j : Fin 4096, (((((eqM tg i j).setWidth 32).toInt : ℤ) : ℝ) : EReal)) = (((eqCount tg i : ℕ) : ℝ) : EReal) := by
  rw [coe_sum_real]
  congr 1
  unfold eqCount
  rw [Finset.card_filter]
  push_cast
  refine Finset.sum_congr rfl fun j _ => ?_
  rw [bit_toInt]
  split <;> simp

/-- "The real count is 1.0" is the bit `single`. -/
theorem cmp_count_one (i : Fin 4096) :
    Ideal.cmp .oeq (((eqCount tg i : ℕ) : ℝ) : EReal) wOne = single tg i := by
  rw [wOne_eq]
  unfold Ideal.cmp single
  congr 1
  simp only [EReal.coe_eq_coe_iff, Nat.cast_eq_one]

/-- "The word count is 1" is the same bit, for any word whose value is the count. -/
theorem cmpi_count_one (i : Fin 4096) (w : BitVec 32) (hw : w.toNat = eqCount tg i) :
    IntOp.cmpi .eq w 1#32 = single tg i := by
  unfold IntOp.cmpi single
  congr 1
  rw [← hw]
  by_cases h : w = 1#32
  · subst h; simp
  · have h' : w.toNat ≠ 1 := fun e => h (BitVec.eq_of_toNat_eq (by simpa using e))
    simp [h, h']

end Cert.TripletSpec

end
-- ==== Proof.KI.Blocks.lean ====
/-
  The arrays the region finds, and each input window's block at a grid point, over the extended reals.

  Six host operations run before the region: they square the embeddings, sum each row (the squared norms), lay the norms out
  as a row, and lay the labels out as a column and as a row; none writes an argument. At grid point `t` window 0 holds rows
  `128·t … 128·t + 127` of the embeddings and window 3 the same rows of the labels' column; windows 1, 2 and 4 hold the whole
  embeddings, the squared norms' row and the labels' row at every point.
-/
import proofs.«131017_j6536940224734_1_alg».proof.Proof.KI.Data
import proofs.«131017_j6536940224734_1_alg».proof.Proof.SpecLemmas
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.TripletSpec (wZero wTwo wNegInf wPosInf wBig wOne)

open Cert.TripletSpec (dist hardAp an anRaw gtM ltM eqM eqCount)

variable (m : (ℓ : Loc nD τ sig) → Buf (Elt Ideal) ℓ)

/-- The two argument arrays on core `c`, as the specification takes them. -/
abbrev xOf (c : Dev nD) : Cert.TripletSpec.SX.Idx → EReal := m ((c : Thread nD τ).loc main_arg0)
abbrev tgOf (c : Dev nD) : Cert.TripletSpec.ST.Idx → BitVec 32 := m ((c : Thread nD τ).loc main_arg1)

/-! ## The arrays when the region is entered -/

/-- No host operation before the region writes an argument. -/
theorem not_written0 (b : Ref sig .tc) (hb : b ≠ main_v0 ∧ b ≠ main_cst ∧ b ≠ main_v1 ∧ b ≠ main_v2 ∧ b ≠ main_v3 ∧ b ≠ main_v4) :
    ∀ op ∈ (hostOps0 (F := Ideal)), Proc.devRef .tc b ∉ op.writes := by
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- The embeddings reach the region as launched; -/
theorem V1_arg0 (c : Dev nD) : V1 m c main_arg0 = m ((c : Thread nD τ).loc main_arg0) :=
  StableHlo.after_of_forall_not_mem (b := Proc.devRef .tc main_arg0) hostOps0 (V0 m c) (not_written0 main_arg0 (by decide))
/-- and so do the labels. -/
theorem V1_arg1 (c : Dev nD) : V1 m c main_arg1 = m ((c : Thread nD τ).loc main_arg1) :=
  StableHlo.after_of_forall_not_mem (b := Proc.devRef .tc main_arg1) hostOps0 (V0 m c) (not_written0 main_arg1 (by decide))

/-- The squared norms' row, as the host operations before the region leave it. -/
theorem V1_v2 (c : Dev nD) : (V1 m c main_v2 : S1x4096.Idx → EReal) =
    shapeCast S1x4096 (Host.reduceAdd (F := Ideal) (mulf (F := Ideal) (φ := .f32) (xOf m c) (xOf m c)) (constant S_ .f32 0x00000000#32)
      reducesTo_S4096x256_S4096_d1 h_S_) shapeCasts_S4096_S1x4096 := by
  show StableHlo.after hostOps0 (V0 m c) (Proc.devRef .tc main_v2) = _
  after_results
  rfl

/-- The host's squared-norm row of an array `x`, read at `(0, j)`, is row `j`'s squared norm. -/
theorem rowSq_apply (x : Vec Ideal S4096x256 .f32) (j : Fin 4096) :
    shapeCast S1x4096 (Host.reduceAdd (F := Ideal) (mulf (F := Ideal) (φ := .f32) x x) (constant S_ .f32 0x00000000#32)
      reducesTo_S4096x256_S4096_d1 h_S_) shapeCasts_S4096_S1x4096 (ix2 (0 : Fin 1) j) = Cert.TripletSpec.sq x j := by
  rw [shapeCast_apply _ shapeCasts_S4096_S1x4096 (ix2 (0 : Fin 1) j) (ix1 j) (by
    rw [Shape.rowMajor_val_two, Shape.rowMajor_val_one]; show j.val = 0 * 4096 + j.val; omega)]
  simp only [Host.reduceAdd, Ideal.hostReduceAdd_def]
  rw [Ideal.hostReduceAdd_single reducesTo_S4096x256_S4096_d1 (by decide)]
  have hz : (constant (F := Ideal) S_ .f32 (0x00000000#32) (Shape.Idx.first h_S_) : EReal) = 0 := Cert.TripletSpec.wZero_eq
  rw [hz, zero_add]
  unfold Cert.TripletSpec.sq
  refine Finset.sum_congr rfl fun k _ => ?_
  exact congrArg (fun i => x i * x i)
    (funext fun a => Fin.ext (by match a with | ⟨0, _⟩ => rfl | ⟨1, _⟩ => rfl))

/-- Entry `j` of the squared norms' row is row `j`'s squared norm. -/
theorem V1_v2_apply (c : Dev nD) (j : Fin 4096) :
    (V1 m c main_v2 : S1x4096.Idx → EReal) (ix2 (0 : Fin 1) j) = Cert.TripletSpec.sq (xOf m c) j := by
  rw [V1_v2]
  exact rowSq_apply (xOf m c) j

/-- The labels as a column: entry `(i, 0)` is label `i`; -/
theorem V1_v3_apply (c : Dev nD) (i : Fin 4096) :
    (V1 m c main_v3 : S4096x1.Idx → BitVec 32) (ix2 i (0 : Fin 1)) = tgOf m c (ix1 i) := by
  have e : (V1 m c main_v3 : S4096x1.Idx → BitVec 32) = shapeCast S4096x1 (tgOf m c) shapeCasts_S4096_S4096x1 := by
    show StableHlo.after hostOps0 (V0 m c) (Proc.devRef .tc main_v3) = _
    after_results
    rfl
  rw [e]
  exact shapeCast_apply _ shapeCasts_S4096_S4096x1 (ix2 i (0 : Fin 1)) (ix1 i) (by
    rw [Shape.rowMajor_val_two, Shape.rowMajor_val_one]; show i.val = i.val * 1 + 0; omega)

/-- as a row: entry `(0, j)` is label `j`. -/
theorem V1_v4_apply (c : Dev nD) (j : Fin 4096) :
    (V1 m c main_v4 : S1x4096.Idx → BitVec 32) (ix2 (0 : Fin 1) j) = tgOf m c (ix1 j) := by
  have e : (V1 m c main_v4 : S1x4096.Idx → BitVec 32) = shapeCast S1x4096 (tgOf m c) shapeCasts_S4096_S1x4096 := by
    show StableHlo.after hostOps0 (V0 m c) (Proc.devRef .tc main_v4) = _
    after_results
    rfl
  rw [e]
  exact shapeCast_apply _ shapeCasts_S4096_S1x4096 (ix2 (0 : Fin 1) j) (ix1 j) (by
    rw [Shape.rowMajor_val_two, Shape.rowMajor_val_one]; show j.val = 0 * 4096 + j.val; omega)

/-! ## The input blocks at a grid point -/

/-- The index maps over the grid, decided once: windows 0, 3 (and the outputs' 5, 6) move with the point along the rows;
    windows 1, 2, 4 stay at the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Window 0's block at point `t`: rows `128·t … 128·t + 127` of the embeddings. -/
theorem iblk0_apply (c : Dev nD) (t : Fin cfg0.N) (y : S128x256.Idx) (k : S4096x256.Idx)
    (hk0 : (k 0).val = 128 * t.val + (y 0).val) (hk1 : (k 1).val = (y 1).val) :
    (iblk m c 0 t : Vec Ideal S128x256 .f32) y = xOf m c k := by
  obtain ⟨e0, e1, -⟩ := idx_facts t
  unfold iblk
  rw [View.read_apply]
  show V1 m c main_arg0 _ = xOf m c k
  rw [V1_arg0]
  refine congrArg (xOf m c) (funext fun a => Fin.ext ?_)
  match a with
  | ⟨0, _⟩ => show win0_0.index t (0 : Fin 2) * 128 + 1 * (y 0).val = (k 0).val; rw [e0, hk0]; omega
  | ⟨1, _⟩ => show win0_0.index t (1 : Fin 2) * 256 + 1 * (y 1).val = (k 1).val; rw [e1, hk1]; omega

/-- Window 1's block at every point: all rows of the embeddings. -/
theorem iblk1_apply (c : Dev nD) (t : Fin cfg0.N) (y : S4096x256.Idx) :
    (iblk m c 1 t : Vec Ideal S4096x256 .f32) y = xOf m c y := by
  obtain ⟨-, -, e0, e1, -⟩ := idx_facts t
  unfold iblk
  rw [View.read_apply]
  show V1 m c main_arg0 _ = xOf m c y
  rw [V1_arg0]
  refine congrArg (xOf m c) (funext fun a => Fin.ext ?_)
  match a with
  | ⟨0, _⟩ => show win0_1.index t (0 : Fin 2) * 4096 + 1 * (y 0).val = (y 0).val; rw [e0]; omega
  | ⟨1, _⟩ => show win0_1.index t (1 : Fin 2) * 256 + 1 * (y 1).val = (y 1).val; rw [e1]; omega

/-- Window 2's block at every point: the squared norms' row. -/
theorem iblk2_apply (c : Dev nD) (t : Fin cfg0.N) (j : Fin 4096) :
    (iblk m c 2 t : Vec Ideal S1x4096 .f32) (ix2 (0 : Fin 1) j) = Cert.TripletSpec.sq (xOf m c) j := by
  obtain ⟨-, -, -, -, e0, e1, -⟩ := idx_facts t
  unfold iblk
  rw [View.read_apply]
  show (V1 m c main_v2 : S1x4096.Idx → EReal) _ = _
  refine Eq.trans (congrArg (V1 m c main_v2 : S1x4096.Idx → EReal) (funext fun a => Fin.ext ?_)) (V1_v2_apply m c j)
  match a with
  | ⟨0, _⟩ => show win0_2.index t (0 : Fin 2) * 1 + 1 * 0 = 0; rw [e0]
  | ⟨1, _⟩ => show win0_2.index t (1 : Fin 2) * 4096 + 1 * j.val = j.val; rw [e1]; omega

/-- Window 3's block at point `t`: labels `128·t … 128·t + 127`, as a column. -/
theorem iblk3_apply (c : Dev nD) (t : Fin cfg0.N) (r : Fin 128) (i : Fin 4096) (hi : i.val = 128 * t.val + r.val) :
    (iblk m c 3 t : Vec Ideal S128x1 .i32) (ix2 r (0 : Fin 1)) = tgOf m c (ix1 i) := by
  obtain ⟨-, -, -, -, -, -, e0, e1, -⟩ := idx_facts t
  unfold iblk
  rw [View.read_apply]
  show (V1 m c main_v3 : S4096x1.Idx → BitVec 32) _ = _
  refine Eq.trans (congrArg (V1 m c main_v3 : S4096x1.Idx → BitVec 32) (funext fun a => Fin.ext ?_)) (V1_v3_apply m c i)
  match a with
  | ⟨0, _⟩ => show win0_3.index t (0 : Fin 2) * 128 + 1 * r.val = i.val; rw [e0, hi]; omega
  | ⟨1, _⟩ => show win0_3.index t (1 : Fin 2) * 1 + 1 * 0 = 0; rw [e1]

/-- Window 4's block at every point: the labels' row. -/
theorem iblk4_apply (c : Dev nD) (t : Fin cfg0.N) (j : Fin 4096) :
    (iblk m c 4 t : Vec Ideal S1x4096 .i32) (ix2 (0 : Fin 1) j) = tgOf m c (ix1 j) := by
  obtain ⟨-, -, -, -, -, -, -, -, e0, e1, -⟩ := idx_facts t
  unfold iblk
  rw [View.read_apply]
  show (V1 m c main_v4 : S1x4096.Idx → BitVec 32) _ = _
  refine Eq.trans (congrArg (V1 m c main_v4 : S1x4096.Idx → BitVec 32) (funext fun a => Fin.ext ?_)) (V1_v4_apply m c j)
  match a with
  | ⟨0, _⟩ => show win0_4.index t (0 : Fin 2) * 1 + 1 * 0 = 0; rw [e0]
  | ⟨1, _⟩ => show win0_4.index t (1 : Fin 2) * 4096 + 1 * j.val = j.val; rw [e1]; omega

end Cert.KernelIdeal.Hand

end
-- ==== Proof.KI.BlockMath.lean ====
/-
  One row of the two stored blocks, from what the input blocks hold, over the extended reals.

  Suppose local row `r` of the 128-row block is row `i` of the arrays: the embeddings' block holds row `i` there, the
  whole-array windows hold the embeddings, the squared norms and the labels, and the labels' column holds `tg i`. Then row `r` of
  the distance block is `dist x i ·`, and row `r` of the statistics block is (hardest positive, nearest negative above,
  nearest negative below, count) of row `i`.
-/
import proofs.«131017_j6536940224734_1_alg».proof.Proof.KI.Body
import proofs.«131017_j6536940224734_1_alg».proof.Proof.KI.Pay
import proofs.«131017_j6536940224734_1_alg».proof.Proof.SpecLemmas

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.TripletSpec (wZero wTwo wNegInf wPosInf wBig wOne)

open Cert.TripletSpec (sq dist hardAp an anRaw gtM ltM eqM eqCount)

variable (x : Cert.TripletSpec.SX.Idx → EReal) (tg : Cert.TripletSpec.ST.Idx → BitVec 32)
variable (x0 : Vec Ideal S128x256 .f32) (x1 : Vec Ideal S4096x256 .f32) (x2 : Vec Ideal S1x4096 .f32)
  (x3 : Vec Ideal S128x1 .i32) (x4 : Vec Ideal S1x4096 .i32) (i : Fin 4096) (r : Fin 128)

/-- The distance entry of local row `r` against column `j` is the specification's distance of row `i` to `j`. -/
theorem pay4_at (h0 : ∀ k : Fin 256, x0 (ix2 r k) = x (ix2 i k)) (h1 : ∀ (j : Fin 4096) (k : Fin 256), x1 (ix2 j k) = x (ix2 j k))
    (h2 : ∀ j : Fin 4096, x2 (ix2 (0 : Fin 1) j) = sq x j) (j : Fin 4096) :
    k0_pay4 (F := Ideal) x0 x1 x2 (ix2 r j) = dist x i j := by
  have e1 : (∑ k : Fin 256, x0 (ix2 r k) * x0 (ix2 r k)) = Cert.TripletSpec.sq x i := by
    unfold Cert.TripletSpec.sq
    exact Finset.sum_congr rfl fun k _ => by rw [h0 k]
  have e2 : (∑ k : Fin 256, x0 (ix2 r k) * x1 (ix2 j k)) = Cert.TripletSpec.gram x i j := by
    unfold Cert.TripletSpec.gram
    exact Finset.sum_congr rfl fun k _ => by rw [h0 k, h1 j k]
  rw [pay4_apply, h2 j, e1, e2]
  rfl

/-- The distance block's row. -/
theorem out5_at (h0 : ∀ k : Fin 256, x0 (ix2 r k) = x (ix2 i k)) (h1 : ∀ (j : Fin 4096) (k : Fin 256), x1 (ix2 j k) = x (ix2 j k))
    (h2 : ∀ j : Fin 4096, x2 (ix2 (0 : Fin 1) j) = sq x j) (j : Fin 4096) :
    out5 (F := Ideal) x0 x1 x2 (ix2 r j) = dist x i j := by
  unfold out5
  exact pay4_at x x0 x1 x2 i r h0 h1 h2 j

/-- The statistics block's row: the hardest positive; -/
theorem out6_at0 (h0 : ∀ k : Fin 256, x0 (ix2 r k) = x (ix2 i k)) (h1 : ∀ (j : Fin 4096) (k : Fin 256), x1 (ix2 j k) = x (ix2 j k))
    (h2 : ∀ j : Fin 4096, x2 (ix2 (0 : Fin 1) j) = sq x j) (h3 : x3 (ix2 r (0 : Fin 1)) = tg (ix1 i))
    (h4 : ∀ j : Fin 4096, x4 (ix2 (0 : Fin 1) j) = tg (ix1 j)) :
    out6 (F := Ideal) x0 x1 x2 x3 x4 (ix2 r (0 : Fin 4)) = hardAp x tg i := by
  rw [out6_col0, pay9_apply]
  unfold Cert.TripletSpec.hardAp
  refine congrArg (fun f => (Finset.univ : Finset (Fin 4096)).fold max wNegInf f) (funext fun j => ?_)
  rw [pay4_at x x0 x1 x2 i r h0 h1 h2 j, h3, h4 j]
  rfl
/-- the nearest negative above, with the sentinel; -/
theorem out6_at1 (h0 : ∀ k : Fin 256, x0 (ix2 r k) = x (ix2 i k)) (h1 : ∀ (j : Fin 4096) (k : Fin 256), x1 (ix2 j k) = x (ix2 j k))
    (h2 : ∀ j : Fin 4096, x2 (ix2 (0 : Fin 1) j) = sq x j) (h3 : x3 (ix2 r (0 : Fin 1)) = tg (ix1 i))
    (h4 : ∀ j : Fin 4096, x4 (ix2 (0 : Fin 1) j) = tg (ix1 j)) :
    out6 (F := Ideal) x0 x1 x2 x3 x4 (ix2 r (1 : Fin 4)) = an x (gtM tg) i := by
  have e : ((Finset.univ : Finset (Fin 4096)).fold min wPosInf fun j =>
        Scalar.select (IntOp.cmpi .sgt (x4 (ix2 (0 : Fin 1) j)) (x3 (ix2 r (0 : Fin 1)))) (k0_pay4 (F := Ideal) x0 x1 x2 (ix2 r j)) wPosInf)
      = anRaw x (gtM tg) i := by
    unfold Cert.TripletSpec.anRaw
    refine congrArg (fun f => (Finset.univ : Finset (Fin 4096)).fold min wPosInf f) (funext fun j => ?_)
    rw [pay4_at x x0 x1 x2 i r h0 h1 h2 j, h3, h4 j]
    rfl
  rw [out6_col1, pay1_apply, pay10_apply, e]
  rfl
/-- the nearest negative below, with the sentinel; -/
theorem out6_at2 (h0 : ∀ k : Fin 256, x0 (ix2 r k) = x (ix2 i k)) (h1 : ∀ (j : Fin 4096) (k : Fin 256), x1 (ix2 j k) = x (ix2 j k))
    (h2 : ∀ j : Fin 4096, x2 (ix2 (0 : Fin 1) j) = sq x j) (h3 : x3 (ix2 r (0 : Fin 1)) = tg (ix1 i))
    (h4 : ∀ j : Fin 4096, x4 (ix2 (0 : Fin 1) j) = tg (ix1 j)) :
    out6 (F := Ideal) x0 x1 x2 x3 x4 (ix2 r (2 : Fin 4)) = an x (ltM tg) i := by
  have e : ((Finset.univ : Finset (Fin 4096)).fold min wPosInf fun j =>
        Scalar.select (k0_pay8 (F := Ideal) x3 x4 (ix2 r j)) (k0_pay4 (F := Ideal) x0 x1 x2 (ix2 r j)) wPosInf)
      = anRaw x (ltM tg) i := by
    unfold Cert.TripletSpec.anRaw
    refine congrArg (fun f => (Finset.univ : Finset (Fin 4096)).fold min wPosInf f) (funext fun j => ?_)
    rw [pay8_apply, pay4_at x x0 x1 x2 i r h0 h1 h2 j, h3, h4 j]
    rfl
  rw [out6_col2, pay2_apply, e]
  rfl
/-- the count, as a real. -/
theorem out6_at3 (h3 : x3 (ix2 r (0 : Fin 1)) = tg (ix1 i)) (h4 : ∀ j : Fin 4096, x4 (ix2 (0 : Fin 1) j) = tg (ix1 j)) :
    out6 (F := Ideal) x0 x1 x2 x3 x4 (ix2 r (3 : Fin 4)) = (((eqCount tg i : ℕ) : ℝ) : EReal) := by
  rw [out6_col3, pay3_apply, ← Cert.TripletSpec.sum_bits_real tg i]
  refine Finset.sum_congr rfl fun j _ => ?_
  rw [pay7_apply, h3, h4 j]
  rfl

end Cert.KernelIdeal.Hand

end
-- ==== Proof.KI.Value.lean ====
/-
  The two result arrays after the grid, over the extended reals, as whole-array functions of the argument arrays.

  Grid point `t` handles rows `128·t … 128·t + 127`: it reads those rows of the embeddings and of the labels' column, all
  4096 rows, the squared norms' row and the labels' row, and writes back block `t` of the distance array (128 × 4096) and of
  the statistics array (128 × 4). The 32 blocks tile each array, so the distance array ends at `dist x i j` everywhere and row
  `i` of the statistics array at (hardest positive, nearest negative above, nearest negative below, count) of row `i`.
-/
import proofs.«131017_j6536940224734_1_alg».proof.Proof.KI.Data
import proofs.«131017_j6536940224734_1_alg».proof.Proof.KI.Pay
import proofs.«131017_j6536940224734_1_alg».proof.Proof.KI.Blocks
import proofs.«131017_j6536940224734_1_alg».proof.Proof.KI.BlockMath
import proofs.«131017_j6536940224734_1_alg».proof.Proof.SpecLemmas

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.TripletSpec (wZero wTwo wNegInf wPosInf wBig wOne)

open Cert.TripletSpec (dist hardAp an anRaw gtM ltM eqM eqCount)

variable (m : (ℓ : Loc nD τ sig) → Buf (Elt Ideal) ℓ)

/-- Row `r` of the statistics array: hardest positive, nearest negative above, nearest negative below, count. -/
def statOf (x : Cert.TripletSpec.SX.Idx → EReal) (tg : Cert.TripletSpec.ST.Idx → BitVec 32) (r : Fin 4096) (k : Fin 4) : EReal :=
  match k with
  | 0 => hardAp x tg r
  | 1 => an x (gtM tg) r
  | 2 => an x (ltM tg) r
  | 3 => (((eqCount tg r : ℕ) : ℝ) : EReal)

/-! ## The distance array -/

/-- The array row that local row `r` of point `t`'s blocks is. -/
def rowAt (t : Fin cfg0.N) (r : Fin 128) : Fin 4096 :=
  ⟨128 * t.val + r.val, by have ht : t.val < 32 := lt_of_lt_of_eq t.isLt N_0; have := r.isLt; omega⟩

/-- Output window 5's block at point `t`, read at `(r, j)`: the array at `(128·t + r, j)`. -/
theorem blk5_apply (t : Fin cfg0.N) (G : S4096x4096.Idx → EReal) (r : Fin 128) (j : Fin 4096) :
    (((cfg0.win 5).blk t).view.read (Elt Ideal) G : S128x4096.Idx → EReal) (ix2 r j) = G (ix2 (rowAt t r) j) := by
  obtain ⟨-, -, -, -, -, -, -, -, -, -, e0, e1, -⟩ := idx_facts t
  rw [View.read_apply]
  show G _ = G _
  refine congrArg G (funext fun a => Fin.ext ?_)
  match a with
  | ⟨0, _⟩ => show win0_5.index t (0 : Fin 2) * 128 + 1 * r.val = 128 * t.val + r.val; rw [e0]; omega
  | ⟨1, _⟩ => show win0_5.index t (1 : Fin 2) * 4096 + 1 * j.val = j.val; rw [e1]; omega

/-- WHAT POINT `t` WRITES BACK to the distance array is block `t` of the distances. -/
theorem flushed5_eq (c : Dev nD) (t : Fin cfg0.N) :
    (dats (F := Ideal) m 0 c).flushed 5 t
      = ((cfg0.win 5).blk t).view.read (Elt Ideal) (fun i : S4096x4096.Idx => dist (xOf m c) (i 0) (i 1)) := by
  show (cfg0.win 5).cut (grid0.coords t) ((dats m 0 c).after 5 t) = _
  rw [after0_5]
  funext y
  obtain ⟨r, j, rfl⟩ : ∃ (r : Fin 128) (j : Fin 4096), y = ix2 r j := ⟨y 0, y 1, eq_ix2 (n0 := 128) (n1 := 4096) y⟩
  refine Eq.trans ?_ (blk5_apply t (fun i : S4096x4096.Idx => dist (xOf m c) (i 0) (i 1)) r j).symm
  show out5 (iblk m c 0 t) (iblk m c 1 t) (iblk m c 2 t) (ix2 r j) = dist (xOf m c) (rowAt t r) j
  exact out5_at (x := xOf m c) (x0 := iblk m c 0 t) (x1 := iblk m c 1 t) (x2 := iblk m c 2 t) (i := rowAt t r) (r := r)
    (fun k => iblk0_apply m c t (ix2 r k) (ix2 (rowAt t r) k) rfl rfl)
    (fun j k => iblk1_apply m c t (ix2 j k))
    (fun j => iblk2_apply m c t j) j

/-- An index of the distance array is in point `t`'s block iff each coordinate is in the block's range on its axis. -/
theorem mem_blk5 (t : Fin cfg0.N) (i : S4096x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v5_0).slice (win0_5.rect t)).set ↔ _
  rw [View.set_slice_whole, Rect.mem_set_unit]
  exact Iff.rfl

/-- Every index of the distance array is in the block of the point its row falls to. -/
theorem covered5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 32 := N_0
  let t : Fin cfg0.N := ⟨(i 0).val / 128, by rw [hN]; omega⟩
  obtain ⟨-, -, -, -, -, -, -, -, -, -, e0, e1, -⟩ := idx_facts t
  refine ⟨t, flush0_5 t, ?_⟩
  rw [mem_blk5]
  intro a
  have ht : t.val = (i 0).val / 128 := rfl
  match a with
  | ⟨0, _⟩ => show win0_5.index t (0 : Fin 2) * 128 ≤ (i 0).val ∧ (i 0).val < win0_5.index t (0 : Fin 2) * 128 + 128; rw [e0, ht]; omega
  | ⟨1, _⟩ => show win0_5.index t (1 : Fin 2) * 4096 ≤ (i 1).val ∧ (i 1).val < win0_5.index t (1 : Fin 2) * 4096 + 4096; rw [e1]; omega

/-- THE DISTANCE ARRAY after the grid. -/
theorem final5 (c : Dev nD) :
    (dats (F := Ideal) m 0 c).arrAt 5 cfg0.N = fun i : S4096x4096.Idx => dist (xOf m c) (i 0) (i 1) :=
  (dats (F := Ideal) m 0 c).arrAt_eq_of_cover 5 (fun i : S4096x4096.Idx => dist (xOf m c) (i 0) (i 1))
    (fun t _ => flushed5_eq m c t) covered5

/-! ## The statistics array -/

/-- Output window 6's block at point `t`, read at `(r, k)`: the array at `(128·t + r, k)`. -/
theorem blk6_apply (t : Fin cfg0.N) (G : S4096x4.Idx → EReal) (r : Fin 128) (k : Fin 4) :
    (((cfg0.win 6).blk t).view.read (Elt Ideal) G : S128x4.Idx → EReal) (ix2 r k) = G (ix2 (rowAt t r) k) := by
  obtain ⟨-, -, -, -, -, -, -, -, -, -, -, -, e0, e1⟩ := idx_facts t
  rw [View.read_apply]
  show G _ = G _
  refine congrArg G (funext fun a => Fin.ext ?_)
  match a with
  | ⟨0, _⟩ => show win0_6.index t (0 : Fin 2) * 128 + 1 * r.val = 128 * t.val + r.val; rw [e0]; omega
  | ⟨1, _⟩ => show win0_6.index t (1 : Fin 2) * 4 + 1 * k.val = k.val; rw [e1]; omega

/-- WHAT POINT `t` WRITES BACK to the statistics array is block `t` of the rows' statistics. -/
theorem flushed6_eq (c : Dev nD) (t : Fin cfg0.N) :
    (dats (F := Ideal) m 0 c).flushed 6 t
      = ((cfg0.win 6).blk t).view.read (Elt Ideal) (fun i : S4096x4.Idx => statOf (xOf m c) (tgOf m c) (i 0) (i 1)) := by
  show (cfg0.win 6).cut (grid0.coords t) ((dats m 0 c).after 6 t) = _
  rw [after0_6]
  funext y
  obtain ⟨r, k, rfl⟩ : ∃ (r : Fin 128) (k : Fin 4), y = ix2 r k := ⟨y 0, y 1, eq_ix2 (n0 := 128) (n1 := 4) y⟩
  refine Eq.trans ?_ (blk6_apply t (fun i : S4096x4.Idx => statOf (xOf m c) (tgOf m c) (i 0) (i 1)) r k).symm
  show out6 (iblk m c 0 t) (iblk m c 1 t) (iblk m c 2 t) (iblk m c 3 t) (iblk m c 4 t) (ix2 r k)
    = statOf (xOf m c) (tgOf m c) (rowAt t r) k
  have h0 : ∀ k : Fin 256, (iblk m c 0 t : Vec Ideal S128x256 .f32) (ix2 r k) = xOf m c (ix2 (rowAt t r) k) :=
    fun k => iblk0_apply m c t (ix2 r k) (ix2 (rowAt t r) k) rfl rfl
  have h1 : ∀ (j : Fin 4096) (k : Fin 256), (iblk m c 1 t : Vec Ideal S4096x256 .f32) (ix2 j k) = xOf m c (ix2 j k) :=
    fun j k => iblk1_apply m c t (ix2 j k)
  have h2 : ∀ j : Fin 4096, (iblk m c 2 t : Vec Ideal S1x4096 .f32) (ix2 (0 : Fin 1) j) = Cert.TripletSpec.sq (xOf m c) j :=
    fun j => iblk2_apply m c t j
  have h3 : (iblk m c 3 t : Vec Ideal S128x1 .i32) (ix2 r (0 : Fin 1)) = tgOf m c (ix1 (rowAt t r)) :=
    iblk3_apply m c t r (rowAt t r) rfl
  have h4 : ∀ j : Fin 4096, (iblk m c 4 t : Vec Ideal S1x4096 .i32) (ix2 (0 : Fin 1) j) = tgOf m c (ix1 j) :=
    fun j => iblk4_apply m c t j
  match k with
  | ⟨0, _⟩ =>
    exact out6_at0 (x := xOf m c) (tg := tgOf m c) (x0 := iblk m c 0 t) (x1 := iblk m c 1 t) (x2 := iblk m c 2 t)
      (x3 := iblk m c 3 t) (x4 := iblk m c 4 t) (i := rowAt t r) (r := r) h0 h1 h2 h3 h4
  | ⟨1, _⟩ =>
    exact out6_at1 (x := xOf m c) (tg := tgOf m c) (x0 := iblk m c 0 t) (x1 := iblk m c 1 t) (x2 := iblk m c 2 t)
      (x3 := iblk m c 3 t) (x4 := iblk m c 4 t) (i := rowAt t r) (r := r) h0 h1 h2 h3 h4
  | ⟨2, _⟩ =>
    exact out6_at2 (x := xOf m c) (tg := tgOf m c) (x0 := iblk m c 0 t) (x1 := iblk m c 1 t) (x2 := iblk m c 2 t)
      (x3 := iblk m c 3 t) (x4 := iblk m c 4 t) (i := rowAt t r) (r := r) h0 h1 h2 h3 h4
  | ⟨3, _⟩ =>
    exact out6_at3 (tg := tgOf m c) (x0 := iblk m c 0 t) (x1 := iblk m c 1 t) (x2 := iblk m c 2 t)
      (x3 := iblk m c 3 t) (x4 := iblk m c 4 t) (i := rowAt t r) (r := r) h3 h4

/-- An index of the statistics array is in point `t`'s block iff each coordinate is in the block's range on its axis. -/
theorem mem_blk6 (t : Fin cfg0.N) (i : S4096x4.Idx) :
    i ∈ ((cfg0.win 6).blk t).view.set ↔ ∀ a : Fin 2, win0_6.index t a * S128x4.size a ≤ (i a).val ∧ (i a).val < win0_6.index t a * S128x4.size a + S128x4.size a := by
  show i ∈ ((View.whole main_v5_1).slice (win0_6.rect t)).set ↔ _
  rw [View.set_slice_whole, Rect.mem_set_unit]
  exact Iff.rfl

/-- Every index of the statistics array is in the block of the point its row falls to. -/
theorem covered6 (i : S4096x4.Idx) : ∃ t : Fin cfg0.N, (cfg0.win 6).flush t = true ∧ i ∈ ((cfg0.win 6).blk t).view.set := by
  have hi0 : (i 0).val < 4096 := (i 0).isLt
  have hi1 : (i 1).val < 4 := (i 1).isLt
  have hN : cfg0.N = 32 := N_0
  let t : Fin cfg0.N := ⟨(i 0).val / 128, by rw [hN]; omega⟩
  obtain ⟨-, -, -, -, -, -, -, -, -, -, -, -, e0, e1⟩ := idx_facts t
  refine ⟨t, flush0_6 t, ?_⟩
  rw [mem_blk6]
  intro a
  have ht : t.val = (i 0).val / 128 := rfl
  match a with
  | ⟨0, _⟩ => show win0_6.index t (0 : Fin 2) * 128 ≤ (i 0).val ∧ (i 0).val < win0_6.index t (0 : Fin 2) * 128 + 128; rw [e0, ht]; omega
  | ⟨1, _⟩ => show win0_6.index t (1 : Fin 2) * 4 ≤ (i 1).val ∧ (i 1).val < win0_6.index t (1 : Fin 2) * 4 + 4; rw [e1]; omega

/-- THE STATISTICS ARRAY after the grid. -/
theorem final6 (c : Dev nD) :
    (dats (F := Ideal) m 0 c).arrAt 6 cfg0.N = fun i : S4096x4.Idx => statOf (xOf m c) (tgOf m c) (i 0) (i 1) :=
  (dats (F := Ideal) m 0 c).arrAt_eq_of_cover 6 (fun i : S4096x4.Idx => statOf (xOf m c) (tgOf m c) (i 0) (i 1))
    (fun t _ => flushed6_eq m c t) covered6

end Cert.KernelIdeal.Hand

end
-- ==== Proof.KI.Final.lean ====
/-
  The kernel's run over the extended reals, with its three results named by the specification: the loss is the host chain of
  the per-row hardest positive and nearest negatives, the distance array is `dist`, the count is the host chain of the bits
  "the row's label occurs once".
-/
import proofs.«131017_j6536940224734_1_alg».proof.Proof.KI.Frame
import proofs.«131017_j6536940224734_1_alg».proof.Proof.KI.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.TripletSpec (wZero wTwo wNegInf wPosInf wBig wOne)

open Cert.TripletSpec (dist hardAp an anRaw gtM ltM eqM eqCount single lossOf cntOf)

variable (m : (ℓ : Loc nD τ sig) → Buf (Elt Ideal) ℓ) (ρ : Dev nD → PrngReg)

/-- The statistics array's columns are the specification's per-row vectors. -/
theorem col0_eq (c : Dev nD) : colOf (statArr (F := Ideal) m c) 0 = fun i : S4096.Idx => hardAp (xOf m c) (tgOf m c) (i 0) := by
  funext i; unfold colOf statArr; rw [final6]; rfl
theorem col1_eq (c : Dev nD) : colOf (statArr (F := Ideal) m c) 1 = fun i : S4096.Idx => an (xOf m c) (gtM (tgOf m c)) (i 0) := by
  funext i; unfold colOf statArr; rw [final6]; rfl
theorem col2_eq (c : Dev nD) : colOf (statArr (F := Ideal) m c) 2 = fun i : S4096.Idx => an (xOf m c) (ltM (tgOf m c)) (i 0) := by
  funext i; unfold colOf statArr; rw [final6]; rfl
theorem col3_eq (c : Dev nD) :
    colOf (statArr (F := Ideal) m c) 3 = fun i : S4096.Idx => (((eqCount (tgOf m c) (i 0) : ℕ) : ℝ) : EReal) := by
  funext i; unfold colOf statArr; rw [final6]; rfl

/-- The count's bits: "the real count equals 1.0" is `single`. -/
theorem mask_eq (c : Dev nD) :
    cmpf .oeq (colOf (statArr (F := Ideal) m c) 3) (broadcastInDim S4096 ![] bcast_S_S4096 (constant (F := Ideal) S_ .f32 0x3F800000#32))
      = fun i : S4096.Idx => single (tgOf m c) (i 0) := by
  rw [col3_eq]
  funext i
  exact Cert.TripletSpec.cmp_count_one (tgOf m c) (i 0)

/-- THE KERNEL'S RUN over the extended reals. -/
theorem kernel_run : θ_run defs (onTc (τ := τ) (main (F := Ideal))) ⟨m, fun _ => 0, ρ⟩ (fun r => ∀ c : Dev nD,
      r.2.mem ((c.tc : Thread nD τ).loc main_v21)
        = lossOf (F := Ideal) bcast_S_S4096 reducesTo_S4096_S_d0 h_S_
            (fun i : S4096.Idx => hardAp (xOf m c) (tgOf m c) (i 0)) (fun i : S4096.Idx => an (xOf m c) (gtM (tgOf m c)) (i 0))
            (fun i : S4096.Idx => an (xOf m c) (ltM (tgOf m c)) (i 0))
      ∧ r.2.mem ((c.tc : Thread nD τ).loc main_v5_0) = (fun i : S4096x4096.Idx => dist (xOf m c) (i 0) (i 1))
      ∧ r.2.mem ((c.tc : Thread nD τ).loc main_v25)
        = cntOf reducesTo_S4096_S_d0 h_S_ natLt_1_32 (fun i : S4096.Idx => single (tgOf m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c (Proc.devRef .tc main_v21) (mem_ucRefs main_v21 (by decide))).trans
          ((W5_v21 m c).trans (by rw [col0_eq, col1_eq, col2_eq])),
       (h c (Proc.devRef .tc main_v5_0) (mem_ucRefs main_v5_0 (by decide))).trans ((W5_v5_0 m c).trans (final5 m c)),
       (h c (Proc.devRef .tc main_v25) (mem_ucRefs main_v25 (by decide))).trans
          ((W5_v25 m c).trans (by rw [mask_eq])),
       (h c (Proc.devRef .tc main_arg0) (mem_ucRefs main_arg0 (by decide))).trans (W5_arg0 m c),
       (h c (Proc.devRef .tc main_arg1) (mem_ucRefs main_arg1 (by decide))).trans (W5_arg1 m c)⟩)
    (run_main m ρ)

end Cert.KernelIdeal.Hand

end
-- ==== Proof.RefRun.lean ====
/-
  The reference program's run and its operations read at an index (patched copies of the generated modules: see their first lines).
-/
import proofs.«131017_j6536940224734_1_alg».proof.Proof.RefRunPatched
import proofs.«131017_j6536940224734_1_alg».proof.Proof.RefReadPatched
-- ==== Proof.RefValueB.lean ====
/-
  The reference's run, read back over its named stages: the count, and the arguments.

  @main is 89 host operations in a line; after them each buffer holds the fold of the operations' results over the launch
  contents. Read at the three results, that fold is the stage function of the two arguments — `val_main_v47` (the loss),
  `val_main_v14` (the distance array), `val_main_v53` (the count) —, and at the arguments, the launch contents.
-/
import proofs.«131017_j6536940224734_1_alg».proof.Proof.RefRun
import Idealize.ShloMosaic.Lib.StableHlo.Run

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ)

namespace Count

/-! ### The line cut into four stretches -/

/-- The distance array's operations (the squared norms, the products, the root). -/
abbrev opsA : List (HloOp τ sig (Elt F)) :=
  [ binary main_arg0 main_arg0 main_v0 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    unary main_arg0 main_v7 ((transpose S256x4096 [1, 0] · transposes_S4096x256_S256x4096_1_0) : (⟨S4096x256, .f32⟩ : BufTy).Contents (Elt F) → (⟨S256x4096, .f32⟩ : BufTy).Contents (Elt F)),
    binary main_arg0 main_v7 main_v8 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    unary main_cst_1 main_v12 (broadcastInDim S4096x4096 ![] bcast_S_S4096x4096 : (⟨S_, .f32⟩ : BufTy).Contents (Elt F) → (⟨S4096x4096, .f32⟩ : BufTy).Contents (Elt F)),
    binary main_v11 main_v12 main_v13 (maximumf : (⟨S4096x4096, .f32⟩ : BufTy).Contents (Elt F) → (⟨S4096x4096, .f32⟩ : BufTy).Contents (Elt F) → (⟨S4096x4096, .f32⟩ : BufTy).Contents (Elt F)),
    unary main_v13 main_v14 (Host.sqrt : (⟨S4096x4096, .f32⟩ : BufTy).Contents (Elt F) → (⟨S4096x4096, .f32⟩ : BufTy).Contents (Elt F)) ]

/-- The equal-label mask: the labels broadcast each way and compared. -/
abbrev opsB : List (HloOp τ sig (Elt F)) :=
  [ unary main_arg1 main_v15 (broadcastInDim S1x4096 ![1] bcast_S4096_S1x4096_1 : (⟨S4096, .i32⟩ : BufTy).Contents (Elt F) → (⟨S1x4096, .i32⟩ : BufTy).Contents (Elt F)),
    unary main_arg1 main_v16 (broadcastInDim S4096x1 ![0] bcast_S4096_S4096x1_0 : (⟨S4096, .i32⟩ : BufTy).Contents (Elt F) → (⟨S4096x1, .i32⟩ : BufTy).Contents (Elt F)),
    unary main_v15 main_v17 (broadcastInDim S4096x4096 ![0, 1] bcast_S1x4096_S4096x4096_0_1 : (⟨S1x4096, .i32⟩ : BufTy).Contents (Elt F) → (⟨S4096x4096, .i32⟩ : BufTy).Contents (Elt F)),
    unary main_v16 main_v18 (broadcastInDim S4096x4096 ![0, 1] bcast_S4096x1_S4096x4096_0_1 : (⟨S4096x1, .i32⟩ : BufTy).Contents (Elt F) → (⟨S4096x4096, .i32⟩ : BufTy).Contents (Elt F)),
    binary main_v17 main_v18 main_v19 (cmpi .eq : (⟨S4096x4096, .i32⟩ : BufTy).Contents (Elt F) → (⟨S4096x4096, .i32⟩ : BufTy).Contents (Elt F) → (⟨S4096x4096, .i1⟩ : BufTy).Contents (Elt F)) ]

/-- The other two masks, the three row reductions with their sentinels, and the loss. -/
abbrev opsC : List (HloOp τ sig (Elt F)) :=
  [ unary main_arg1 main_v20 (broadcastInDim S1x4096 ![1] bcast_S4096_S1x4096_1 : (⟨S4096, .i32⟩ : BufTy).Contents (Elt F) → (⟨S1x4096, .i32⟩ : BufTy).Contents (Elt F)),
    unary main_arg1 main_v21 (broadcastInDim S4096x1 ![0] bcast_S4096_S4096x1_0 : (⟨S4096, .i32⟩ : BufTy).Contents (Elt F) → (⟨S4096x1, .i32⟩ : BufTy).Contents (Elt F)),
    unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    unary main_v21 main_v23 (broadcastInDim S4096x4096 ![0, 1] bcast_S4096x1_S4096x4096_0_1 : (⟨S4096x1, .i32⟩ : BufTy).Contents (Elt F) → (⟨S4096x4096, .i32⟩ : BufTy).Contents (Elt F)),
    binary main_v22 main_v23 main_v24 (cmpi .sgt : (⟨S4096x4096, .i32⟩ : BufTy).Contents (Elt F) → (⟨S4096x4096, .i32⟩ : BufTy).Contents (Elt F) → (⟨S4096x4096, .i1⟩ : BufTy).Contents (Elt F)),
    unary main_arg1 main_v25 (broadcastInDim S1x4096 ![1] bcast_S4096_S1x4096_1 : (⟨S4096, .i32⟩ : BufTy).Contents (Elt F) → (⟨S1x4096, .i32⟩ : BufTy).Contents (Elt F)),
    unary main_arg1 main_v26 (broadcastInDim S4096x1 ![0] bcast_S4096_S4096x1_0 : (⟨S4096, .i32⟩ : BufTy).Contents (Elt F) → (⟨S4096x1, .i32⟩ : BufTy).Contents (Elt F)),
    unary main_v25 main_v27 (broadcastInDim S4096x4096 ![0, 1] bcast_S1x4096_S4096x4096_0_1 : (⟨S1x4096, .i32⟩ : BufTy).Contents (Elt F) → (⟨S4096x4096, .i32⟩ : BufTy).Contents (Elt F)),
    unary main_v26 main_v28 (broadcastInDim S4096x4096 ![0, 1] bcast_S4096x1_S4096x4096_0_1 : (⟨S4096x1, .i32⟩ : BufTy).Contents (Elt F) → (⟨S4096x4096, .i32⟩ : BufTy).Contents (Elt F)),
    binary main_v27 main_v28 main_v29 (cmpi .slt : (⟨S4096x4096, .i32⟩ : BufTy).Contents (Elt F) → (⟨S4096x4096, .i32⟩ : BufTy).Contents (Elt F) → (⟨S4096x4096, .i1⟩ : BufTy).Contents (Elt F)),
    nullary main_cst_2 (constant S_ .f32 0xFF800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.ternary (TRef.of (T := ⟨S4096x4096, .i1⟩) main_v19) (TRef.of (T := ⟨S4096x4096, .f32⟩) main_v14) (TRef.of (T := ⟨S4096x4096, .f32⟩) main_call0_v1) (TRef.of (T := ⟨S4096x4096, .f32⟩) main_v30) select,
    nullary main_cst_3 (constant S_ .f32 0xFF800000#32),
    binary main_v30 main_cst_3 main_v31 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_4 (constant S_ .f32 0x7F800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v24) (TRef.of (T := ⟨S4096x4096, .f32⟩) main_v14) (TRef.of (T := ⟨S4096x4096, .f32⟩) main_call1_v1) (TRef.of (T := ⟨S4096x4096, .f32⟩) main_v32) select,
    nullary main_cst_5 (constant S_ .f32 0x7F800000#32),
    binary main_v32 main_cst_5 main_v33 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    TRef.unary (TRef.of (T := ⟨S4096, .f32⟩) main_v33) (TRef.of (T := ⟨S4096, .f32⟩) main_call2_v0) Host.absf,
    TRef.nullary (TRef.of (T := ⟨S_, .f32⟩) main_call2_cst) (constant S_ .f32 0x7F800000#32),
    TRef.unary (TRef.of (T := ⟨S_, .f32⟩) main_call2_cst) (TRef.of (T := ⟨S4096, .f32⟩) main_call2_v1) (broadcastInDim S4096 ![] bcast_S_S4096),
    TRef.binary (TRef.of (T := ⟨S4096, .f32⟩) main_call2_v0) (TRef.of (T := ⟨S4096, .f32⟩) main_call2_v1) (TRef.of (T := ⟨S4096, .i1⟩) main_v34) (cmpf .oeq),
    nullary main_cst_6 (constant S_ .f32 0x461C4000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v34) (TRef.of (T := ⟨S4096, .f32⟩) main_call3_v1) (TRef.of (T := ⟨S4096, .f32⟩) main_v33) (TRef.of (T := ⟨S4096, .f32⟩) main_v35) select,
    nullary main_cst_7 (constant S_ .f32 0x7F800000#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S4096x4096, .f32⟩) main_call4_v1) (broadcastInDim S4096x4096 ![] bcast_S_S4096x4096),
    TRef.ternary (TRef.of (T := ⟨S4096x4096, .i1⟩) main_v29) (TRef.of (T := ⟨S4096x4096, .f32⟩) main_v14) (TRef.of (T := ⟨S4096x4096, .f32⟩) main_call4_v1) (TRef.of (T := ⟨S4096x4096, .f32⟩) main_v36) select,
    nullary main_cst_8 (constant S_ .f32 0x7F800000#32),
    binary main_v36 main_cst_8 main_v37 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    TRef.unary (TRef.of (T := ⟨S4096, .f32⟩) main_v37) (TRef.of (T := ⟨S4096, .f32⟩) main_call5_v0) Host.absf,
    TRef.nullary (TRef.of (T := ⟨S_, .f32⟩) main_call5_cst) (constant S_ .f32 0x7F800000#32),
    TRef.unary (TRef.of (T := ⟨S_, .f32⟩) main_call5_cst) (TRef.of (T := ⟨S4096, .f32⟩) main_call5_v1) (broadcastInDim S4096 ![] bcast_S_S4096),
    TRef.binary (TRef.of (T := ⟨S4096, .f32⟩) main_call5_v0) (TRef.of (T := ⟨S4096, .f32⟩) main_call5_v1) (TRef.of (T := ⟨S4096, .i1⟩) main_v38) (cmpf .oeq),
    nullary main_cst_9 (constant S_ .f32 0x461C4000#32),
    TRef.unary (TRef.of (T := ⟨S_, .f32⟩) main_cst_9) (TRef.of (T := ⟨S_, .f32⟩) main_call6_v0) id,
    TRef.unary (TRef.of (T := ⟨S_, .f32⟩) main_call6_v0) (TRef.of (T := ⟨S4096, .f32⟩) main_call6_v1) (broadcastInDim S4096 ![] bcast_S_S4096),
    TRef.ternary (TRef.of (T := ⟨S4096, .i1⟩) main_v38) (TRef.of (T := ⟨S4096, .f32⟩) main_call6_v1) (TRef.of (T := ⟨S4096, .f32⟩) main_v37) (TRef.of (T := ⟨S4096, .f32⟩) main_v39) select,
    binary main_v35 main_v39 main_v40 (subf : (⟨S4096, .f32⟩ : BufTy).Contents (Elt F) → (⟨S4096, .f32⟩ : BufTy).Contents (Elt F) → (⟨S4096, .f32⟩ : BufTy).Contents (Elt F)),
    unary main_v40 main_v41 (Host.absf : (⟨S4096, .f32⟩ : BufTy).Contents (Elt F) → (⟨S4096, .f32⟩ : BufTy).Contents (Elt F)),
    binary main_v31 main_v41 main_v42 (subf : (⟨S4096, .f32⟩ : BufTy).Contents (Elt F) → (⟨S4096, .f32⟩ : BufTy).Contents (Elt F) → (⟨S4096, .f32⟩ : BufTy).Contents (Elt F)),
    nullary main_cst_10 (constant S_ .f32 0x3E99999A#32),
    unary main_cst_10 main_v43 (broadcastInDim S4096 ![] bcast_S_S4096 : (⟨S_, .f32⟩ : BufTy).Contents (Elt F) → (⟨S4096, .f32⟩ : BufTy).Contents (Elt F)),
    binary main_v42 main_v43 main_v44 (addf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4096, .f32⟩) main_call7_v0) (broadcastInDim S4096 ![] bcast_S_S4096),
    TRef.binary (TRef.of (T := ⟨S4096, .f32⟩) main_v44) (TRef.of (T := ⟨S4096, .f32⟩) main_call7_v0) (TRef.of (T := ⟨S4096, .f32⟩) main_v45) maximumf,
    nullary main_cst_11 (constant S_ .f32 0x00000000#32),
    binary main_v45 main_cst_11 main_v46 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_12 (constant S_ .f32 0x45800000#32),
    binary main_v46 main_cst_12 main_v47 (Host.divf : (⟨S_, .f32⟩ : BufTy).Contents (Elt F) → (⟨S_, .f32⟩ : BufTy).Contents (Elt F) → (⟨S_, .f32⟩ : BufTy).Contents (Elt F)) ]

/-- The count: the mask widened, summed along rows, compared with one, widened, summed. -/
abbrev opsD : List (HloOp τ sig (Elt F)) :=
  [ unary main_v19 main_v48 ((extui 32 · natLt_1_32) : (⟨S4096x4096, .i1⟩ : BufTy).Contents (Elt F) → (⟨S4096x4096, .i32⟩ : BufTy).Contents (Elt F)),
    nullary main_c (constantI S_ 32 0#32),
    binary main_v48 main_c main_v49 ((fun x v => Host.reduce IntOp.addi x v reducesTo_S4096x4096_S4096_d1 h_S_) : (⟨S4096x4096, .i32⟩ : BufTy).Contents (Elt F) → (⟨S_, .i32⟩ : BufTy).Contents (Elt F) → (⟨S4096, .i32⟩ : BufTy).Contents (Elt F)),
    nullary main_c_13 (constantI S_ 32 1#32),
    unary main_c_13 main_v50 (broadcastInDim S4096 ![] bcast_S_S4096 : (⟨S_, .i32⟩ : BufTy).Contents (Elt F) → (⟨S4096, .i32⟩ : BufTy).Contents (Elt F)),
    binary main_v49 main_v50 main_v51 (cmpi .eq : (⟨S4096, .i32⟩ : BufTy).Contents (Elt F) → (⟨S4096, .i32⟩ : BufTy).Contents (Elt F) → (⟨S4096, .i1⟩ : BufTy).Contents (Elt F)),
    unary main_v51 main_v52 ((extui 32 · natLt_1_32) : (⟨S4096, .i1⟩ : BufTy).Contents (Elt F) → (⟨S4096, .i32⟩ : BufTy).Contents (Elt F)),
    nullary main_c_14 (constantI S_ 32 0#32),
    binary main_v52 main_c_14 main_v53 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)) ]

set_option maxHeartbeats 4000000 in
/-- The line is the four stretches in order. -/
theorem ops_split : (ops (F := F)) = opsA ++ (opsB ++ (opsC ++ opsD)) := rfl

/-- The fold over two stretches is the fold over the second from the fold over the first. -/
theorem after_app {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_app l₁ l₂]

/-! ### What each stretch writes -/

abbrev wrA : List (Ref sig .tc) := [main_v0, main_cst, main_v1, main_v2, main_v3, main_v4, main_v5, main_v6, main_v7, main_v8, main_cst_0, main_v9, main_v10, main_v11, main_cst_1, main_v12, main_v13, main_v14]
abbrev wrB : List (Ref sig .tc) := [main_v15, main_v16, main_v17, main_v18, main_v19]
abbrev wrC : List (Ref sig .tc) := [main_v20, main_v21, main_v22, main_v23, main_v24, main_v25, main_v26, main_v27, main_v28, main_v29, main_cst_2, main_call0_v0, main_call0_v1, main_v30, main_cst_3, main_v31, main_cst_4, main_call1_v0, main_call1_v1, main_v32, main_cst_5, main_v33, main_call2_v0, main_call2_cst, main_call2_v1, main_v34, main_cst_6, main_call3_v0, main_call3_v1, main_v35, main_cst_7, main_call4_v0, main_call4_v1, main_v36, main_cst_8, main_v37, main_call5_v0, main_call5_cst, main_call5_v1, main_v38, main_cst_9, main_call6_v0, main_call6_v1, main_v39, main_v40, main_v41, main_v42, main_cst_10, main_v43, main_v44, main_call7_cst, main_call7_v0, main_v45, main_cst_11, main_v46, main_cst_12, main_v47]
abbrev wrD : List (Ref sig .tc) := [main_v48, main_c, main_v49, main_c_13, main_v50, main_v51, main_v52, main_c_14, main_v53]

/-- A buffer that is none of a stretch's results is written by none of its operations. -/
theorem nw_A (b : Ref sig .tc) (hb : ∀ y ∈ wrA, b ≠ y) :
    ∀ op ∈ (opsA (F := F)), Proc.devRef .tc b ∉ op.writes := by
  intro op hop
  simp only [opsA, List.mem_cons, List.mem_nil_iff, or_false] at hop
  rcases hop with rfl | rfl | rfl | rfl | rfl | rfl | rfl | rfl | rfl | rfl | rfl | rfl | rfl | rfl | rfl | rfl | rfl | rfl <;>
    simp only [unary_writes, binary_writes, nullary_writes, ternary_writes, Finset.mem_singleton] <;>
    exact devRef_ne_of_ne (hb _ (by decide))
theorem nw_B (b : Ref sig .tc) (hb : ∀ y ∈ wrB, b ≠ y) :
    ∀ op ∈ (opsB (F := F)), Proc.devRef .tc b ∉ op.writes := by
  intro op hop
  simp only [opsB, List.mem_cons, List.mem_nil_iff, or_false] at hop
  rcases hop with rfl | rfl | rfl | rfl | rfl <;>
    simp only [unary_writes, binary_writes, nullary_writes, ternary_writes, Finset.mem_singleton] <;>
    exact devRef_ne_of_ne (hb _ (by decide))
set_option maxHeartbeats 4000000 in
theorem nw_C (b : Ref sig .tc) (hb : ∀ y ∈ wrC, b ≠ y) :
    ∀ op ∈ (opsC (F := F)), Proc.devRef .tc b ∉ op.writes := by
  intro op hop
  simp only [opsC, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    simp only [unary_writes, binary_writes, nullary_writes, ternary_writes, Finset.mem_singleton] <;>
    exact devRef_ne_of_ne (hb _ (by decide))
theorem nw_D (b : Ref sig .tc) (hb : ∀ y ∈ wrD, b ≠ y) :
    ∀ op ∈ (opsD (F := F)), Proc.devRef .tc b ∉ op.writes := by
  intro op hop
  simp only [opsD, List.mem_cons, List.mem_nil_iff, or_false] at hop
  rcases hop with rfl | rfl | rfl | rfl | rfl | rfl | rfl | rfl | rfl <;>
    simp only [unary_writes, binary_writes, nullary_writes, ternary_writes, Finset.mem_singleton] <;>
    exact devRef_ne_of_ne (hb _ (by decide))

/-- So a buffer that is no operation's result holds its launch contents at the end. -/
theorem after_unwritten (V : Valuation τ sig (Elt F)) (b : Ref sig .tc) (hA : ∀ y ∈ wrA, b ≠ y) (hB : ∀ y ∈ wrB, b ≠ y)
    (hC : ∀ y ∈ wrC, b ≠ y) (hD : ∀ y ∈ wrD, b ≠ y) :
    after (ops (F := F)) V (Proc.devRef .tc b) = V (Proc.devRef .tc b) := by
  rw [ops_split, after_app, after_app, after_app,
    after_of_forall_not_mem opsD _ (nw_D b hD), after_of_forall_not_mem opsC _ (nw_C b hC),
    after_of_forall_not_mem opsB _ (nw_B b hB), after_of_forall_not_mem opsA _ (nw_A b hA)]

/-! ### The count's two stretches, from any contents before them -/

/-- From any contents, the second stretch leaves the equal-label mask of the labels it found. -/
theorem after_B_v19 (W : Valuation τ sig (Elt F)) :
    after (opsB (F := F)) W (Proc.devRef .tc main_v19) = val_main_v19 (F := F) (W (Proc.devRef .tc main_arg1)) := by
  after_results
  rfl

/-- From any contents whose mask buffer holds the equal-label mask, the last stretch leaves the count. -/
theorem after_D_v53 (W : Valuation τ sig (Elt F)) (x1 : (⟨S4096, .i32⟩ : BufTy).Contents (Elt F))
    (h : W (Proc.devRef .tc main_v19) = val_main_v19 (F := F) x1) :
    after (opsD (F := F)) W (Proc.devRef .tc main_v53) = val_main_v53 (F := F) x1 := by
  after_results
  rw [h]
  rfl

end Count

open Count

/-- The fold of the 89 operations, at the count, is its stage; -/
theorem after_v53 (c : Dev nD) :
    after (ops (F := F)) (launchContents m c) (Proc.devRef .tc main_v53)
      = val_main_v53 (F := F) (m ((c.tc : Thread nD τ).loc main_arg1)) := by
  rw [ops_split, after_app, after_app, after_app]
  refine after_D_v53 _ _ ?_
  rw [after_of_forall_not_mem opsC _ (nw_C main_v19 (by decide)), after_B_v19,
    after_of_forall_not_mem opsA _ (nw_A main_arg1 (by decide))]
/-- and the arguments are not written. -/
theorem after_arg0 (c : Dev nD) :
    after (ops (F := F)) (launchContents m c) (Proc.devRef .tc main_arg0) = m ((c.tc : Thread nD τ).loc main_arg0) :=
  after_unwritten (launchContents m c) main_arg0 (by decide) (by decide) (by decide) (by decide)
theorem after_arg1 (c : Dev nD) :
    after (ops (F := F)) (launchContents m c) (Proc.devRef .tc main_arg1) = m ((c.tc : Thread nD τ).loc main_arg1) :=
  after_unwritten (launchContents m c) main_arg1 (by decide) (by decide) (by decide) (by decide)

end Cert.ReferenceIdeal.RefValue

end
-- ==== Proof.RefValue.lean ====
/-
  The reference's run, read back over its named stages.

  @main is 89 host operations in a line; after them each buffer holds the fold of the operations' results over the launch
  contents. Read at the three results, that fold is the stage function of the two arguments — `val_main_v47` (the loss),
  `val_main_v14` (the distance array), `val_main_v53` (the count) —, and at the arguments, the launch contents.
-/
import proofs.«131017_j6536940224734_1_alg».proof.Proof.RefRun
import proofs.«131017_j6536940224734_1_alg».proof.Proof.RefValueB
import Idealize.ShloMosaic.Lib.StableHlo.Run

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ)

namespace Loss

/-! ### The line cut into five stretches

The distance array and the three label masks (operations 1–33); the hardest positive and the first hardest negative
(34–53); the second hardest negative (54–67); the loss (68–80); the count (81–89). An operation of an inlined function
is written here at its buffers' own types: the transport of its function along the buffers' types is the identity at
these literal buffers, so the line is the same line. -/

abbrev opsA : List (HloOp τ sig (Elt F)) :=
  [ binary main_arg0 main_arg0 main_v0 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    unary main_arg0 main_v7 ((transpose S256x4096 [1, 0] · transposes_S4096x256_S256x4096_1_0) : (⟨S4096x256, .f32⟩ : BufTy).Contents (Elt F) → (⟨S256x4096, .f32⟩ : BufTy).Contents (Elt F)),
    binary main_arg0 main_v7 main_v8 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    unary main_cst_1 main_v12 (broadcastInDim S4096x4096 ![] bcast_S_S4096x4096 : (⟨S_, .f32⟩ : BufTy).Contents (Elt F) → (⟨S4096x4096, .f32⟩ : BufTy).Contents (Elt F)),
    binary main_v11 main_v12 main_v13 (maximumf : (⟨S4096x4096, .f32⟩ : BufTy).Contents (Elt F) → (⟨S4096x4096, .f32⟩ : BufTy).Contents (Elt F) → (⟨S4096x4096, .f32⟩ : BufTy).Contents (Elt F)),
    unary main_v13 main_v14 (Host.sqrt : (⟨S4096x4096, .f32⟩ : BufTy).Contents (Elt F) → (⟨S4096x4096, .f32⟩ : BufTy).Contents (Elt F)),
    unary main_arg1 main_v15 (broadcastInDim S1x4096 ![1] bcast_S4096_S1x4096_1 : (⟨S4096, .i32⟩ : BufTy).Contents (Elt F) → (⟨S1x4096, .i32⟩ : BufTy).Contents (Elt F)),
    unary main_arg1 main_v16 (broadcastInDim S4096x1 ![0] bcast_S4096_S4096x1_0 : (⟨S4096, .i32⟩ : BufTy).Contents (Elt F) → (⟨S4096x1, .i32⟩ : BufTy).Contents (Elt F)),
    unary main_v15 main_v17 (broadcastInDim S4096x4096 ![0, 1] bcast_S1x4096_S4096x4096_0_1 : (⟨S1x4096, .i32⟩ : BufTy).Contents (Elt F) → (⟨S4096x4096, .i32⟩ : BufTy).Contents (Elt F)),
    unary main_v16 main_v18 (broadcastInDim S4096x4096 ![0, 1] bcast_S4096x1_S4096x4096_0_1 : (⟨S4096x1, .i32⟩ : BufTy).Contents (Elt F) → (⟨S4096x4096, .i32⟩ : BufTy).Contents (Elt F)),
    binary main_v17 main_v18 main_v19 (cmpi .eq : (⟨S4096x4096, .i32⟩ : BufTy).Contents (Elt F) → (⟨S4096x4096, .i32⟩ : BufTy).Contents (Elt F) → (⟨S4096x4096, .i1⟩ : BufTy).Contents (Elt F)),
    unary main_arg1 main_v20 (broadcastInDim S1x4096 ![1] bcast_S4096_S1x4096_1 : (⟨S4096, .i32⟩ : BufTy).Contents (Elt F) → (⟨S1x4096, .i32⟩ : BufTy).Contents (Elt F)),
    unary main_arg1 main_v21 (broadcastInDim S4096x1 ![0] bcast_S4096_S4096x1_0 : (⟨S4096, .i32⟩ : BufTy).Contents (Elt F) → (⟨S4096x1, .i32⟩ : BufTy).Contents (Elt F)),
    unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    unary main_v21 main_v23 (broadcastInDim S4096x4096 ![0, 1] bcast_S4096x1_S4096x4096_0_1 : (⟨S4096x1, .i32⟩ : BufTy).Contents (Elt F) → (⟨S4096x4096, .i32⟩ : BufTy).Contents (Elt F)),
    binary main_v22 main_v23 main_v24 (cmpi .sgt : (⟨S4096x4096, .i32⟩ : BufTy).Contents (Elt F) → (⟨S4096x4096, .i32⟩ : BufTy).Contents (Elt F) → (⟨S4096x4096, .i1⟩ : BufTy).Contents (Elt F)),
    unary main_arg1 main_v25 (broadcastInDim S1x4096 ![1] bcast_S4096_S1x4096_1 : (⟨S4096, .i32⟩ : BufTy).Contents (Elt F) → (⟨S1x4096, .i32⟩ : BufTy).Contents (Elt F)),
    unary main_arg1 main_v26 (broadcastInDim S4096x1 ![0] bcast_S4096_S4096x1_0 : (⟨S4096, .i32⟩ : BufTy).Contents (Elt F) → (⟨S4096x1, .i32⟩ : BufTy).Contents (Elt F)),
    unary main_v25 main_v27 (broadcastInDim S4096x4096 ![0, 1] bcast_S1x4096_S4096x4096_0_1 : (⟨S1x4096, .i32⟩ : BufTy).Contents (Elt F) → (⟨S4096x4096, .i32⟩ : BufTy).Contents (Elt F)),
    unary main_v26 main_v28 (broadcastInDim S4096x4096 ![0, 1] bcast_S4096x1_S4096x4096_0_1 : (⟨S4096x1, .i32⟩ : BufTy).Contents (Elt F) → (⟨S4096x4096, .i32⟩ : BufTy).Contents (Elt F)),
    binary main_v27 main_v28 main_v29 (cmpi .slt : (⟨S4096x4096, .i32⟩ : BufTy).Contents (Elt F) → (⟨S4096x4096, .i32⟩ : BufTy).Contents (Elt F) → (⟨S4096x4096, .i1⟩ : BufTy).Contents (Elt F)) ]

abbrev opsB : List (HloOp τ sig (Elt F)) :=
  [ nullary main_cst_2 (constant S_ .f32 0xFF800000#32),
    unary main_cst_2 main_call0_v0 (id : (⟨S_, .f32⟩ : BufTy).Contents (Elt F) → (⟨S_, .f32⟩ : BufTy).Contents (Elt F)),
    unary main_call0_v0 main_call0_v1 ((broadcastInDim S4096x4096 ![] bcast_S_S4096x4096) : (⟨S_, .f32⟩ : BufTy).Contents (Elt F) → (⟨S4096x4096, .f32⟩ : BufTy).Contents (Elt F)),
    ternary main_v19 main_v14 main_call0_v1 main_v30 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0xFF800000#32),
    binary main_v30 main_cst_3 main_v31 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_4 (constant S_ .f32 0x7F800000#32),
    unary main_cst_4 main_call1_v0 (id : (⟨S_, .f32⟩ : BufTy).Contents (Elt F) → (⟨S_, .f32⟩ : BufTy).Contents (Elt F)),
    unary main_call1_v0 main_call1_v1 ((broadcastInDim S4096x4096 ![] bcast_S_S4096x4096) : (⟨S_, .f32⟩ : BufTy).Contents (Elt F) → (⟨S4096x4096, .f32⟩ : BufTy).Contents (Elt F)),
    ternary main_v24 main_v14 main_call1_v1 main_v32 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x7F800000#32),
    binary main_v32 main_cst_5 main_v33 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v33 main_call2_v0 (Host.absf : (⟨S4096, .f32⟩ : BufTy).Contents (Elt F) → (⟨S4096, .f32⟩ : BufTy).Contents (Elt F)),
    nullary main_call2_cst ((constant S_ .f32 0x7F800000#32) : (⟨S_, .f32⟩ : BufTy).Contents (Elt F)),
    unary main_call2_cst main_call2_v1 ((broadcastInDim S4096 ![] bcast_S_S4096) : (⟨S_, .f32⟩ : BufTy).Contents (Elt F) → (⟨S4096, .f32⟩ : BufTy).Contents (Elt F)),
    binary main_call2_v0 main_call2_v1 main_v34 ((cmpf .oeq) : (⟨S4096, .f32⟩ : BufTy).Contents (Elt F) → (⟨S4096, .f32⟩ : BufTy).Contents (Elt F) → (⟨S4096, .i1⟩ : BufTy).Contents (Elt F)),
    nullary main_cst_6 (constant S_ .f32 0x461C4000#32),
    unary main_cst_6 main_call3_v0 (id : (⟨S_, .f32⟩ : BufTy).Contents (Elt F) → (⟨S_, .f32⟩ : BufTy).Contents (Elt F)),
    unary main_call3_v0 main_call3_v1 ((broadcastInDim S4096 ![] bcast_S_S4096) : (⟨S_, .f32⟩ : BufTy).Contents (Elt F) → (⟨S4096, .f32⟩ : BufTy).Contents (Elt F)),
    ternary main_v34 main_call3_v1 main_v33 main_v35 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ]

abbrev opsC : List (HloOp τ sig (Elt F)) :=
  [ nullary main_cst_7 (constant S_ .f32 0x7F800000#32),
    unary main_cst_7 main_call4_v0 (id : (⟨S_, .f32⟩ : BufTy).Contents (Elt F) → (⟨S_, .f32⟩ : BufTy).Contents (Elt F)),
    unary main_call4_v0 main_call4_v1 ((broadcastInDim S4096x4096 ![] bcast_S_S4096x4096) : (⟨S_, .f32⟩ : BufTy).Contents (Elt F) → (⟨S4096x4096, .f32⟩ : BufTy).Contents (Elt F)),
    ternary main_v29 main_v14 main_call4_v1 main_v36 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_8 (constant S_ .f32 0x7F800000#32),
    binary main_v36 main_cst_8 main_v37 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v37 main_call5_v0 (Host.absf : (⟨S4096, .f32⟩ : BufTy).Contents (Elt F) → (⟨S4096, .f32⟩ : BufTy).Contents (Elt F)),
    nullary main_call5_cst ((constant S_ .f32 0x7F800000#32) : (⟨S_, .f32⟩ : BufTy).Contents (Elt F)),
    unary main_call5_cst main_call5_v1 ((broadcastInDim S4096 ![] bcast_S_S4096) : (⟨S_, .f32⟩ : BufTy).Contents (Elt F) → (⟨S4096, .f32⟩ : BufTy).Contents (Elt F)),
    binary main_call5_v0 main_call5_v1 main_v38 ((cmpf .oeq) : (⟨S4096, .f32⟩ : BufTy).Contents (Elt F) → (⟨S4096, .f32⟩ : BufTy).Contents (Elt F) → (⟨S4096, .i1⟩ : BufTy).Contents (Elt F)),
    nullary main_cst_9 (constant S_ .f32 0x461C4000#32),
    unary main_cst_9 main_call6_v0 (id : (⟨S_, .f32⟩ : BufTy).Contents (Elt F) → (⟨S_, .f32⟩ : BufTy).Contents (Elt F)),
    unary main_call6_v0 main_call6_v1 ((broadcastInDim S4096 ![] bcast_S_S4096) : (⟨S_, .f32⟩ : BufTy).Contents (Elt F) → (⟨S4096, .f32⟩ : BufTy).Contents (Elt F)),
    ternary main_v38 main_call6_v1 main_v37 main_v39 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ]

abbrev opsD : List (HloOp τ sig (Elt F)) :=
  [ binary main_v35 main_v39 main_v40 (subf : (⟨S4096, .f32⟩ : BufTy).Contents (Elt F) → (⟨S4096, .f32⟩ : BufTy).Contents (Elt F) → (⟨S4096, .f32⟩ : BufTy).Contents (Elt F)),
    unary main_v40 main_v41 (Host.absf : (⟨S4096, .f32⟩ : BufTy).Contents (Elt F) → (⟨S4096, .f32⟩ : BufTy).Contents (Elt F)),
    binary main_v31 main_v41 main_v42 (subf : (⟨S4096, .f32⟩ : BufTy).Contents (Elt F) → (⟨S4096, .f32⟩ : BufTy).Contents (Elt F) → (⟨S4096, .f32⟩ : BufTy).Contents (Elt F)),
    nullary main_cst_10 (constant S_ .f32 0x3E99999A#32),
    unary main_cst_10 main_v43 (broadcastInDim S4096 ![] bcast_S_S4096 : (⟨S_, .f32⟩ : BufTy).Contents (Elt F) → (⟨S4096, .f32⟩ : BufTy).Contents (Elt F)),
    binary main_v42 main_v43 main_v44 (addf : (⟨S4096, .f32⟩ : BufTy).Contents (Elt F) → (⟨S4096, .f32⟩ : BufTy).Contents (Elt F) → (⟨S4096, .f32⟩ : BufTy).Contents (Elt F)),
    nullary main_call7_cst ((constant S_ .f32 0x00000000#32) : (⟨S_, .f32⟩ : BufTy).Contents (Elt F)),
    unary main_call7_cst main_call7_v0 ((broadcastInDim S4096 ![] bcast_S_S4096) : (⟨S_, .f32⟩ : BufTy).Contents (Elt F) → (⟨S4096, .f32⟩ : BufTy).Contents (Elt F)),
    binary main_v44 main_call7_v0 main_v45 (maximumf : (⟨S4096, .f32⟩ : BufTy).Contents (Elt F) → (⟨S4096, .f32⟩ : BufTy).Contents (Elt F) → (⟨S4096, .f32⟩ : BufTy).Contents (Elt F)),
    nullary main_cst_11 (constant S_ .f32 0x00000000#32),
    binary main_v45 main_cst_11 main_v46 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_12 (constant S_ .f32 0x45800000#32),
    binary main_v46 main_cst_12 main_v47 (Host.divf : (⟨S_, .f32⟩ : BufTy).Contents (Elt F) → (⟨S_, .f32⟩ : BufTy).Contents (Elt F) → (⟨S_, .f32⟩ : BufTy).Contents (Elt F)) ]

abbrev opsE : List (HloOp τ sig (Elt F)) :=
  [ unary main_v19 main_v48 ((extui 32 · natLt_1_32) : (⟨S4096x4096, .i1⟩ : BufTy).Contents (Elt F) → (⟨S4096x4096, .i32⟩ : BufTy).Contents (Elt F)),
    nullary main_c (constantI S_ 32 0#32),
    binary main_v48 main_c main_v49 ((fun x v => Host.reduce IntOp.addi x v reducesTo_S4096x4096_S4096_d1 h_S_) : (⟨S4096x4096, .i32⟩ : BufTy).Contents (Elt F) → (⟨S_, .i32⟩ : BufTy).Contents (Elt F) → (⟨S4096, .i32⟩ : BufTy).Contents (Elt F)),
    nullary main_c_13 (constantI S_ 32 1#32),
    unary main_c_13 main_v50 (broadcastInDim S4096 ![] bcast_S_S4096 : (⟨S_, .i32⟩ : BufTy).Contents (Elt F) → (⟨S4096, .i32⟩ : BufTy).Contents (Elt F)),
    binary main_v49 main_v50 main_v51 (cmpi .eq : (⟨S4096, .i32⟩ : BufTy).Contents (Elt F) → (⟨S4096, .i32⟩ : BufTy).Contents (Elt F) → (⟨S4096, .i1⟩ : BufTy).Contents (Elt F)),
    unary main_v51 main_v52 ((extui 32 · natLt_1_32) : (⟨S4096, .i1⟩ : BufTy).Contents (Elt F) → (⟨S4096, .i32⟩ : BufTy).Contents (Elt F)),
    nullary main_c_14 (constantI S_ 32 0#32),
    binary main_v52 main_c_14 main_v53 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)) ]

set_option maxRecDepth 8192 in
theorem ops_eq : (ops : List (HloOp τ sig (Elt F))) = opsA ++ (opsB ++ (opsC ++ (opsD ++ opsE))) := rfl

/-! ### What a stretch does not write, it keeps -/

theorem keepB_v14 (W : Valuation τ sig (Elt F)) :
    after (opsB (F := F)) W (Proc.devRef .tc main_v14) = W (Proc.devRef .tc main_v14) := by
  after_results_simp
theorem keepB_v29 (W : Valuation τ sig (Elt F)) :
    after (opsB (F := F)) W (Proc.devRef .tc main_v29) = W (Proc.devRef .tc main_v29) := by
  after_results_simp
theorem keepC_v14 (W : Valuation τ sig (Elt F)) :
    after (opsC (F := F)) W (Proc.devRef .tc main_v14) = W (Proc.devRef .tc main_v14) := by
  after_results_simp
theorem keepC_v31 (W : Valuation τ sig (Elt F)) :
    after (opsC (F := F)) W (Proc.devRef .tc main_v31) = W (Proc.devRef .tc main_v31) := by
  after_results_simp
theorem keepC_v35 (W : Valuation τ sig (Elt F)) :
    after (opsC (F := F)) W (Proc.devRef .tc main_v35) = W (Proc.devRef .tc main_v35) := by
  after_results_simp
theorem keepD_v14 (W : Valuation τ sig (Elt F)) :
    after (opsD (F := F)) W (Proc.devRef .tc main_v14) = W (Proc.devRef .tc main_v14) := by
  after_results_simp
theorem keepE_v14 (W : Valuation τ sig (Elt F)) :
    after (opsE (F := F)) W (Proc.devRef .tc main_v14) = W (Proc.devRef .tc main_v14) := by
  after_results_simp
theorem keepE_v47 (W : Valuation τ sig (Elt F)) :
    after (opsE (F := F)) W (Proc.devRef .tc main_v47) = W (Proc.devRef .tc main_v47) := by
  after_results_simp

/-! ### Each stretch, from what the stretches before it left -/

/-- The first stretch computes the distance array from the first argument, -/
theorem A14 (V : Valuation τ sig (Elt F)) :
    after (opsA (F := F)) V (Proc.devRef .tc main_v14) = val_main_v14 (F := F) (V (Proc.devRef .tc main_arg0)) := by
  after_results_simp
  rfl
/-- and the masks same label, greater label, smaller label from the second. -/
theorem A19 (V : Valuation τ sig (Elt F)) :
    after (opsA (F := F)) V (Proc.devRef .tc main_v19) = val_main_v19 (F := F) (V (Proc.devRef .tc main_arg1)) := by
  after_results_simp
  rfl
theorem A24 (V : Valuation τ sig (Elt F)) :
    after (opsA (F := F)) V (Proc.devRef .tc main_v24) = val_main_v24 (F := F) (V (Proc.devRef .tc main_arg1)) := by
  after_results_simp
  rfl
theorem A29 (V : Valuation τ sig (Elt F)) :
    after (opsA (F := F)) V (Proc.devRef .tc main_v29) = val_main_v29 (F := F) (V (Proc.devRef .tc main_arg1)) := by
  after_results_simp
  rfl
/-- The second stretch: each row's greatest distance under the same-label mask, -/
theorem B31 (W : Valuation τ sig (Elt F)) (x0 : (⟨S4096x256, .f32⟩ : BufTy).Contents (Elt F)) (x1 : (⟨S4096, .i32⟩ : BufTy).Contents (Elt F))
    (h14 : W (Proc.devRef .tc main_v14) = val_main_v14 (F := F) x0) (h19 : W (Proc.devRef .tc main_v19) = val_main_v19 (F := F) x1) :
    after (opsB (F := F)) W (Proc.devRef .tc main_v31) = val_main_v31 (F := F) x0 x1 := by
  after_results_simp
  rw [h14, h19]
  rfl
/-- and its least distance under the greater-label mask, an infinite one replaced. -/
theorem B35 (W : Valuation τ sig (Elt F)) (x0 : (⟨S4096x256, .f32⟩ : BufTy).Contents (Elt F)) (x1 : (⟨S4096, .i32⟩ : BufTy).Contents (Elt F))
    (h14 : W (Proc.devRef .tc main_v14) = val_main_v14 (F := F) x0) (h24 : W (Proc.devRef .tc main_v24) = val_main_v24 (F := F) x1) :
    after (opsB (F := F)) W (Proc.devRef .tc main_v35) = val_main_v35 (F := F) x0 x1 := by
  after_results_simp
  rw [h14, h24]
  rfl
/-- The third stretch: the same under the smaller-label mask. -/
theorem C39 (W : Valuation τ sig (Elt F)) (x0 : (⟨S4096x256, .f32⟩ : BufTy).Contents (Elt F)) (x1 : (⟨S4096, .i32⟩ : BufTy).Contents (Elt F))
    (h14 : W (Proc.devRef .tc main_v14) = val_main_v14 (F := F) x0) (h29 : W (Proc.devRef .tc main_v29) = val_main_v29 (F := F) x1) :
    after (opsC (F := F)) W (Proc.devRef .tc main_v39) = val_main_v39 (F := F) x0 x1 := by
  after_results_simp
  rw [h14, h29]
  rfl
/-- The fourth stretch: the hinge of the three per-row numbers, its mean over the rows. -/
theorem D47 (W : Valuation τ sig (Elt F)) (x0 : (⟨S4096x256, .f32⟩ : BufTy).Contents (Elt F)) (x1 : (⟨S4096, .i32⟩ : BufTy).Contents (Elt F))
    (h31 : W (Proc.devRef .tc main_v31) = val_main_v31 (F := F) x0 x1) (h35 : W (Proc.devRef .tc main_v35) = val_main_v35 (F := F) x0 x1) (h39 : W (Proc.devRef .tc main_v39) = val_main_v39 (F := F) x0 x1) :
    after (opsD (F := F)) W (Proc.devRef .tc main_v47) = val_main_v47 (F := F) x0 x1 := by
  after_results_simp
  rw [h31, h35, h39]
  rfl

end Loss

/-- The fold of the 89 operations, at the distance array, is its stage; -/
theorem after_v14 (c : Dev nD) :
    after (ops (F := F)) (launchContents m c) (Proc.devRef .tc main_v14)
      = val_main_v14 (F := F) (m ((c.tc : Thread nD τ).loc main_arg0)) := by
  rw [Loss.ops_eq, after_append, after_append, after_append, after_append,
    Loss.keepE_v14, Loss.keepD_v14, Loss.keepC_v14, Loss.keepB_v14]
  exact Loss.A14 _
/-- at the loss; -/
theorem after_v47 (c : Dev nD) :
    after (ops (F := F)) (launchContents m c) (Proc.devRef .tc main_v47)
      = val_main_v47 (F := F) (m ((c.tc : Thread nD τ).loc main_arg0)) (m ((c.tc : Thread nD τ).loc main_arg1)) := by
  rw [Loss.ops_eq, after_append, after_append, after_append, after_append, Loss.keepE_v47]
  -- what the first three stretches leave, read where the fourth reads it
  have h14 := Loss.A14 (F := F) (launchContents m c)
  have h31 := (Loss.keepC_v31 _).trans (Loss.B31 _ _ _ h14 (Loss.A19 (launchContents m c)))
  have h35 := (Loss.keepC_v35 _).trans (Loss.B35 _ _ _ h14 (Loss.A24 (launchContents m c)))
  have h39 := Loss.C39 _ _ _ ((Loss.keepB_v14 _).trans h14) ((Loss.keepB_v29 _).trans (Loss.A29 (launchContents m c)))
  exact Loss.D47 _ _ _ h31 h35 h39

/-- THE REFERENCE'S RUN over its stages. -/
theorem ref_run (ρ : Dev nD → PrngReg) :
    θ_run defs (onTc (τ := τ) (main (F := F))) ⟨m, fun _ => 0, ρ⟩ fun r => ∀ c : Dev nD,
      r.2.mem ((c.tc : Thread nD τ).loc main_v47) = val_main_v47 (F := F) (m ((c.tc : Thread nD τ).loc main_arg0)) (m ((c.tc : Thread nD τ).loc main_arg1))
      ∧ r.2.mem ((c.tc : Thread nD τ).loc main_v14) = val_main_v14 (F := F) (m ((c.tc : Thread nD τ).loc main_arg0))
      ∧ r.2.mem ((c.tc : Thread nD τ).loc main_v53) = val_main_v53 (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v47).trans (after_v47 m c), (h c main_v14).trans (after_v14 m c),
      (h c main_v53).trans (after_v53 m c), (h c main_arg0).trans (after_arg0 m c), (h c main_arg1).trans (after_arg1 m c)⟩)
    (run_raw m ρ)

end Cert.ReferenceIdeal.RefValue

end
-- ==== Proof.RefSpecA.lean ====
/-
  The reference's stages are the specification, over the extended reals.

  The distance stage is `dist x i j` everywhere. Per row `i`: the maximum over the columns with the row's label is `hardAp`; each
  minimum over the columns with a greater (lesser) label, with 10000 where `isinf` holds, is `an` — a minimum of distances
  and `+∞` is never `−∞`, so `isinf` says "it is `+∞`"; and the word count of equal labels, compared with 1, is the bit `single`.
  The loss and the count are then the host chain `lossOf` / `cntOf` of those rows.
-/
import proofs.«131017_j6536940224734_1_alg».proof.Proof.RefRun
import proofs.«131017_j6536940224734_1_alg».proof.Proof.SpecLemmas
import proofs.«131017_j6536940224734_1_alg».proof.Proof.HostChain
import Idealize.ShloMosaic.Lib.StableHlo.Predicate
import Idealize.ShloMosaic.Lib.ValueIdx
import Idealize.ShloMosaic.PureOps.Ideal.Laws

set_option maxRecDepth 16384

noncomputable section

namespace Cert.ReferenceIdeal.RefSpec

open Cert.ReferenceIdeal Cert.ReferenceIdeal.Gen Cert.ReferenceIdeal.ReadP
open Idealize.ShloMosaic Idealize.ShloMosaic.ValueIdx
open Cert.TripletSpec (dist hardAp an anRaw gtM ltM eqM eqCount single lossOf cntOf)

variable (x : (⟨S4096x256, .f32⟩ : BufTy).Contents (Elt Ideal)) (tg : (⟨S4096, .i32⟩ : BufTy).Contents (Elt Ideal))

/-- A row's squared norm: the sum stage, read at row `p`, starts from the zero word. -/
private theorem v1_row (p : Fin 4096) : val_main_v1 (F := Ideal) x (ix1 p) = Cert.TripletSpec.sq x p := by
  have hz : Ideal.ofBits .f32 0x00000000#32 = (0 : EReal) := Cert.TripletSpec.wZero_eq
  rw [val_main_v1_apply, val_main_cst_apply, Ideal.ofBits_def, hz, zero_add]
  unfold Cert.TripletSpec.sq
  refine Finset.sum_congr rfl fun k _ => ?_
  have e : idx_main_v1 (ix1 p) k = ix2 p k :=
    funext fun a => Fin.ext (by match a with | ⟨0, _⟩ => rfl | ⟨1, _⟩ => rfl)
  rw [val_main_v0_apply, Ideal.mulf_def, e]

/-- Two rows' inner product: the contraction against the transposed array, read at `(p, q)`. -/
private theorem v8_at (p q : Fin 4096) : val_main_v8 (F := Ideal) x (ix2 p q) = Cert.TripletSpec.gram x p q := by
  rw [val_main_v8_apply]
  unfold Cert.TripletSpec.gram
  refine Finset.sum_congr rfl fun k _ => ?_
  have el : lidx_main_v8 (ix2 p q) k = ix2 p k :=
    funext fun a => Fin.ext (by match a with | ⟨0, _⟩ => rfl | ⟨1, _⟩ => rfl)
  have er : idx_main_v7 (ridx_main_v8 (ix2 p q) k) = ix2 q k :=
    funext fun a => Fin.ext (by match a with | ⟨0, _⟩ => rfl | ⟨1, _⟩ => rfl)
  rw [val_main_v7_apply, el, er]

/-- The distance stage. -/
theorem v14_spec : val_main_v14 (F := Ideal) x = fun i : S4096x4096.Idx => dist x (i 0) (i 1) := by
  funext i
  obtain ⟨p, q, rfl⟩ : ∃ (p q : Fin 4096), i = ix2 p q := ⟨i 0, i 1, eq_ix2 i⟩
  have er : idx_main_v2 (idx_main_v4 (ix2 p q)) = ix1 p :=
    funext fun a => Fin.ext (by match a with | ⟨0, _⟩ => rfl)
  have ec : idx_main_v3 (idx_main_v5 (ix2 p q)) = ix1 q :=
    funext fun a => Fin.ext (by match a with | ⟨0, _⟩ => rfl)
  rw [val_main_v14_apply, val_main_v13_apply, val_main_v11_apply, val_main_v6_apply, val_main_v10_apply,
    val_main_v4_apply, val_main_v2_apply, val_main_v5_apply, val_main_v3_apply, val_main_v9_apply,
    val_main_cst_0_apply, val_main_v12_apply, val_main_cst_1_apply, v8_at, er, ec, v1_row, v1_row]
  simp only [Ideal.hostUnary_sqrt_def, Ideal.maximumf_def, Ideal.subf_def, Ideal.addf_def, Ideal.mulf_def,
    Ideal.ofBits_def]
  rfl

/-- The column reading and the row reading of the label broadcasts, in explicit coordinates. -/
private theorem col_v15 (p q : Fin 4096) : idx_main_v15 (idx_main_v17 (ix2 p q)) = ix1 q :=
  funext fun a => Fin.ext (by match a with | ⟨0, _⟩ => rfl)
private theorem row_v16 (p q : Fin 4096) : idx_main_v16 (idx_main_v18 (ix2 p q)) = ix1 p :=
  funext fun a => Fin.ext (by match a with | ⟨0, _⟩ => rfl)
private theorem col_v20 (p q : Fin 4096) : idx_main_v20 (idx_main_v22 (ix2 p q)) = ix1 q :=
  funext fun a => Fin.ext (by match a with | ⟨0, _⟩ => rfl)
private theorem row_v21 (p q : Fin 4096) : idx_main_v21 (idx_main_v23 (ix2 p q)) = ix1 p :=
  funext fun a => Fin.ext (by match a with | ⟨0, _⟩ => rfl)
private theorem col_v25 (p q : Fin 4096) : idx_main_v25 (idx_main_v27 (ix2 p q)) = ix1 q :=
  funext fun a => Fin.ext (by match a with | ⟨0, _⟩ => rfl)
private theorem row_v26 (p q : Fin 4096) : idx_main_v26 (idx_main_v28 (ix2 p q)) = ix1 p :=
  funext fun a => Fin.ext (by match a with | ⟨0, _⟩ => rfl)

/-- The three label masks. -/
theorem v19_apply (i : S4096x4096.Idx) : val_main_v19 (F := Ideal) tg i = eqM tg (i 0) (i 1) := by
  obtain ⟨p, q, rfl⟩ : ∃ (p q : Fin 4096), i = ix2 p q := ⟨i 0, i 1, eq_ix2 i⟩
  rw [val_main_v19_apply, val_main_v17_apply, val_main_v15_apply, val_main_v18_apply, val_main_v16_apply,
    col_v15, row_v16]
  rfl
theorem v24_apply (i : S4096x4096.Idx) : val_main_v24 (F := Ideal) tg i = gtM tg (i 0) (i 1) := by
  obtain ⟨p, q, rfl⟩ : ∃ (p q : Fin 4096), i = ix2 p q := ⟨i 0, i 1, eq_ix2 i⟩
  rw [val_main_v24_apply, val_main_v22_apply, val_main_v20_apply, val_main_v23_apply, val_main_v21_apply,
    col_v20, row_v21]
  rfl
theorem v29_apply (i : S4096x4096.Idx) : val_main_v29 (F := Ideal) tg i = ltM tg (i 0) (i 1) := by
  obtain ⟨p, q, rfl⟩ : ∃ (p q : Fin 4096), i = ix2 p q := ⟨i 0, i 1, eq_ix2 i⟩
  rw [val_main_v29_apply, val_main_v27_apply, val_main_v25_apply, val_main_v28_apply, val_main_v26_apply,
    col_v25, row_v26]
  rfl

/-- Row `p` of the reduced index, with column `k` put back, is `(p, k)`. -/
private theorem lift_row (h : S4096x4096.Reduces [1] S4096) (p : Fin 4096) (k : Fin (S4096x4096.size 1)) :
    h.lift (ix1 p) k = ix2 p (⟨k.val, k.isLt⟩ : Fin 4096) := by
  funext c; apply Fin.ext
  fin_cases c <;> rfl

/-- A maximum taken along each row, read at row `p`: the fold of `max` over the row's columns, from the initial value. -/
private theorem reduce_max_row (y : FVec Ideal S4096x4096 .f32) (init : FVec Ideal S_ .f32) (p : Fin 4096) :
    Host.reduce (FloatOps.maximumf (F := Ideal) (φ := .f32)) y init reducesTo_S4096x4096_S4096_d1 h_S_ (ix1 p)
      = (Finset.univ : Finset (Fin 4096)).fold max (init (Shape.Idx.first h_S_)) fun q => y (ix2 p q) := by
  have h : S4096x4096.Reduces [1] S4096 := by decide
  rw [Host.reduce_eq_fold_single (FloatOps.maximumf (F := Ideal) (φ := .f32)) y _ reducesTo_S4096x4096_S4096_d1 h h_S_]
  have hf : (y ∘ h.lift (ix1 p)) = fun k : Fin 4096 => y (ix2 p k) :=
    funext fun k => congrArg y (lift_row h p k)
  exact congrArg (fun f => Finset.fold max (init (Shape.Idx.first h_S_)) f (Finset.univ : Finset (Fin 4096))) hf

/-- The hardest positive, per row. -/
theorem v31_spec : val_main_v31 (F := Ideal) x tg = fun i : S4096.Idx => hardAp x tg (i 0) := by
  funext i
  obtain ⟨p, rfl⟩ : ∃ p : Fin 4096, i = ix1 p := ⟨i 0, eq_ix1 i⟩
  show val_main_v31 (F := Ideal) x tg (ix1 p) = hardAp x tg p
  unfold val_main_v31 Cert.TripletSpec.hardAp
  rw [reduce_max_row, val_main_cst_3_apply, Ideal.ofBits_def]
  refine congrArg (fun f => Finset.fold max _ f (Finset.univ : Finset (Fin 4096))) (funext fun q => ?_)
  have e14 := congrFun (v14_spec x) (ix2 p q)
  rw [val_main_v30_apply, v19_apply, e14, val_main_call0_v1_apply, val_main_call0_v0_apply, val_main_cst_2_apply,
    Ideal.ofBits_def]

end Cert.ReferenceIdeal.RefSpec

end
-- ==== Proof.RefSpecB.lean ====
/-
  The reference's stages are the specification, over the extended reals.

  The distance stage is `dist x i j` everywhere. Per row `i`: the maximum over the columns with the row's label is `hardAp`; each
  minimum over the columns with a greater (lesser) label, with 10000 where `isinf` holds, is `an` — a minimum of distances
  and `+∞` is never `−∞`, so `isinf` says "it is `+∞`"; and the word count of equal labels, compared with 1, is the bit `single`.
  The loss and the count are then the host chain `lossOf` / `cntOf` of those rows.
-/
import proofs.«131017_j6536940224734_1_alg».proof.Proof.RefSpecA
import proofs.«131017_j6536940224734_1_alg».proof.Proof.SpecLemmas
import proofs.«131017_j6536940224734_1_alg».proof.Proof.HostChain
import Idealize.ShloMosaic.Lib.StableHlo.Predicate
import Idealize.ShloMosaic.Lib.ValueIdx
import Idealize.ShloMosaic.PureOps.Ideal.Laws

set_option maxRecDepth 16384

noncomputable section

namespace Cert.ReferenceIdeal.RefSpec

open Cert.ReferenceIdeal Cert.ReferenceIdeal.Gen Cert.ReferenceIdeal.ReadP
open Idealize.ShloMosaic Idealize.ShloMosaic.ValueIdx
open Cert.TripletSpec (dist hardAp an anRaw gtM ltM eqM eqCount single lossOf cntOf)

variable (x : (⟨S4096x256, .f32⟩ : BufTy).Contents (Elt Ideal)) (tg : (⟨S4096, .i32⟩ : BufTy).Contents (Elt Ideal))

/-- The shape fact of a reduction over the columns, in the form the fold reading takes. -/
private theorem minReduces_d1 : S4096x4096.Reduces [1] S4096 := by decide

/-- The reduced index `p` with column `k` put back is `(p, k)`. -/
private theorem minLift_col (h : S4096x4096.Reduces [1] S4096) (p k : Fin 4096) :
    h.lift (ix1 p) k = ix2 p k := by
  funext c; apply Fin.ext
  fin_cases c <;> rfl

/-- The least distance over the columns with a greater label, per row, before the sentinel. -/
theorem v33_apply (p : Fin 4096) : val_main_v33 (F := Ideal) x tg (ix1 p) = anRaw x (gtM tg) p := by
  unfold val_main_v33
  rw [Host.reduce_eq_fold_single FloatOps.minimumf _ _ reducesTo_S4096x4096_S4096_d1 minReduces_d1 h_S_]
  have hf : (val_main_v32 (F := Ideal) x tg ∘ minReduces_d1.lift (ix1 p))
      = fun k : Fin 4096 => Scalar.select (gtM tg p k) (dist x p k) Cert.TripletSpec.wPosInf := by
    funext (k : Fin 4096)
    show val_main_v32 (F := Ideal) x tg (minReduces_d1.lift (ix1 p) k) = _
    rw [minLift_col, val_main_v32_apply, v24_apply, v14_spec, val_main_call1_v1_apply, val_main_call1_v0_apply, val_main_cst_4_apply]
    rfl
  rw [hf]
  rfl

/-- The nearest negative above, with the sentinel, per row. -/
theorem v35_spec : val_main_v35 (F := Ideal) x tg = fun i : S4096.Idx => an x (gtM tg) (i 0) := by
  funext i
  obtain ⟨p, rfl⟩ : ∃ p : Fin 4096, i = ix1 p := ⟨i 0, eq_ix1 i⟩
  rw [val_main_v35_apply, val_main_v34_apply, val_main_call2_v0_apply, val_main_call2_v1_apply, val_main_call2_cst_apply,
    val_main_call3_v1_apply, val_main_call3_v0_apply, val_main_cst_6_apply, v33_apply]
  exact Cert.TripletSpec.an_of_abs x (gtM tg) p

/-- The least distance over the columns with a lesser label, per row, before the sentinel. -/
theorem v37_apply (p : Fin 4096) : val_main_v37 (F := Ideal) x tg (ix1 p) = anRaw x (ltM tg) p := by
  unfold val_main_v37
  rw [Host.reduce_eq_fold_single FloatOps.minimumf _ _ reducesTo_S4096x4096_S4096_d1 minReduces_d1 h_S_]
  have hf : (val_main_v36 (F := Ideal) x tg ∘ minReduces_d1.lift (ix1 p))
      = fun k : Fin 4096 => Scalar.select (ltM tg p k) (dist x p k) Cert.TripletSpec.wPosInf := by
    funext (k : Fin 4096)
    show val_main_v36 (F := Ideal) x tg (minReduces_d1.lift (ix1 p) k) = _
    rw [minLift_col, val_main_v36_apply, v29_apply, v14_spec, val_main_call4_v1_apply, val_main_call4_v0_apply, val_main_cst_7_apply]
    rfl
  rw [hf]
  rfl

/-- The nearest negative below, with the sentinel, per row. -/
theorem v39_spec : val_main_v39 (F := Ideal) x tg = fun i : S4096.Idx => an x (ltM tg) (i 0) := by
  funext i
  obtain ⟨p, rfl⟩ : ∃ p : Fin 4096, i = ix1 p := ⟨i 0, eq_ix1 i⟩
  rw [val_main_v39_apply, val_main_v38_apply, val_main_call5_v0_apply, val_main_call5_v1_apply, val_main_call5_cst_apply,
    val_main_call6_v1_apply, val_main_call6_v0_apply, val_main_cst_9_apply, v37_apply]
  exact Cert.TripletSpec.an_of_abs x (ltM tg) p
/-- "The row's label occurs once", per row. -/
theorem v51_spec : val_main_v51 (F := Ideal) tg = fun i : S4096.Idx => single tg (i 0) := by
  funext i
  obtain ⟨p, rfl⟩ : ∃ p : Fin 4096, i = ix1 p := ⟨i 0, eq_ix1 i⟩
  rw [val_main_v51_apply, val_main_v50_apply, val_main_c_13_apply]
  refine Cert.TripletSpec.cmpi_count_one tg p _ ?_
  -- the word count of row `p` is the number of its columns with an equal label
  unfold val_main_v49 val_main_v48 val_main_c
  rw [StableHlo.Predicate.toNat_reduce_count_cols (by norm_num) (val_main_v19 (F := Ideal) tg) natLt_1_32
    reducesTo_S4096x4096_S4096_d1 h_S_ (ix1 p)]
  show (Finset.univ.filter fun q : Fin 4096 => val_main_v19 (F := Ideal) tg (StableHlo.Predicate.ij p q) = 1#1).card = _
  unfold eqCount
  refine congrArg Finset.card (Finset.filter_congr fun q _ => ?_)
  rw [v19_apply]

/-- THE LOSS. -/
theorem v47_spec :
    val_main_v47 (F := Ideal) x tg
      = lossOf (F := Ideal) bcast_S_S4096 reducesTo_S4096_S_d0 h_S_
          (fun i : S4096.Idx => hardAp x tg (i 0)) (fun i : S4096.Idx => an x (gtM tg) (i 0)) (fun i : S4096.Idx => an x (ltM tg) (i 0)) := by
  unfold val_main_v47 val_main_v46 val_main_v45 val_main_v44 val_main_v42 val_main_v41 val_main_v40
  rw [v31_spec, v35_spec, v39_spec]
  rfl
/-- THE COUNT. -/
theorem v53_spec :
    val_main_v53 (F := Ideal) tg = cntOf reducesTo_S4096_S_d0 h_S_ natLt_1_32 (fun i : S4096.Idx => single tg (i 0)) := by
  unfold val_main_v53 val_main_v52
  rw [v51_spec]
  rfl

end Cert.ReferenceIdeal.RefSpec

end
-- ==== Proof.lean ====
/-
  The certificate of the triplet-loss kernel against its jnp reference.

  Both programs compute, from embeddings `x : [4096, 256]` and labels `tg : [4096]`: the matrix of pairwise distances
  `dist i j = √(max (‖x_i‖² + ‖x_j‖² − 2·x_i·x_j) 0)`; per row the hardest positive (greatest distance to an equal label) and the
  nearest negatives with a greater / a lesser label (10000 when there is none); the mean over the rows of
  `max (hardAp − |an_gt − an_lt| + 0.3) 0`; and the number of rows whose label occurs once. The kernel does the per-row work in
  32 grid points of 128 rows, the reference on whole arrays; over the extended reals the two agree (Proof/Spec.lean states
  the common value). The one place the spellings differ — the kernel tests a minimum against `+∞`, the reference tests its
  absolute value — is settled by a distance never being negative; the count, summed as reals on one side and as words on
  the other, by there being at most 4096 columns.
  Frames: each program runs to the end and leaves its arguments as launched. The idealization rewrote nothing.
-/
import proofs.«131017_j6536940224734_1_alg».proof.Defs
import proofs.«131017_j6536940224734_1_alg».proof.Proof.Gen.Kernel
import proofs.«131017_j6536940224734_1_alg».proof.Proof.Gen.KernelIdeal
import proofs.«131017_j6536940224734_1_alg».proof.Proof.Gen.ReferenceIdeal
import proofs.«131017_j6536940224734_1_alg».proof.Proof.Gen.Pre_finite_inputs
import proofs.«131017_j6536940224734_1_alg».proof.Proof.K.Frame
import proofs.«131017_j6536940224734_1_alg».proof.Proof.KI.Final
import proofs.«131017_j6536940224734_1_alg».proof.Proof.RefValue
import proofs.«131017_j6536940224734_1_alg».proof.Proof.RefSpecB
import Idealize.ShloMosaic.Adequacy
import Idealize.ShloMosaic.Init

noncomputable section

namespace Cert.Proof

open Idealize.ShloMosaic Idealize.SL.Sem
open Cert.TripletSpec (dist hardAp an gtM ltM single lossOf cntOf)

/-- The word-level kernel's frame. -/
theorem frame_k : Cert.frame_Kernel := fun m ρ _ => Cert.Kernel.Hand.frame m ρ
/-- The idealized kernel's frame. -/
theorem frame_ki : Cert.frame_KernelIdeal := fun m ρ _ => Cert.KernelIdeal.Hand.frame m ρ
/-- The reference's frame: its run with the results dropped. -/
theorem frame_ri : Cert.frame_ReferenceIdeal := fun m ρ _ =>
  (θ_run Cert.ReferenceIdeal.defs _ _).mono (fun _ h c => (h c).2.2.2) (Cert.ReferenceIdeal.RefValue.ref_run (F := Ideal) m ρ)

/-- The idealization rewrote no operation. -/
theorem preserves : Cert.preserves_Kernel_KernelIdeal := trivial

/-- Over the extended reals, from memories agreeing on the arguments, both programs end with the specification's values. -/
theorem algebraic : Cert.algebraic_KernelIdeal_ReferenceIdeal := by
  intro m ρ m' ρ' _ hagree
  refine ⟨_, _, _, Cert.KernelIdeal.Hand.kernel_run m ρ, ?_⟩
  refine (θ_run Cert.ReferenceIdeal.defs _ _).mono (fun _ h c => ⟨?_, ?_, ?_, (h c).2.2.2.1, (h c).2.2.2.2⟩)
    (Cert.ReferenceIdeal.RefValue.ref_run (F := Ideal) m' ρ')
  · rw [(h c).1, (hagree c).1, (hagree c).2, Cert.ReferenceIdeal.RefSpec.v47_spec]
  · rw [(h c).2.1, (hagree c).1, Cert.ReferenceIdeal.RefSpec.v14_spec]
  · rw [(h c).2.2.1, (hagree c).2, Cert.ReferenceIdeal.RefSpec.v53_spec]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
